-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x3 : Shape := ⟨2, ![1000000, 3]⟩
abbrev S3000000 : Shape := ⟨1, ![3000000]⟩
abbrev S_ : Shape := ⟨0, ![]⟩

class Facts : Prop where
  bcast_S_S1000000x3 : S_.BroadcastsInDim S1000000x3 (![] : Fin 0 → Fin S1000000x3.rank)
  reducesTo_S1000000x3_S_d0_1 : S1000000x3.ReducesTo [0, 1] S_
  h_S_ : 0 < S_.numel
  bcast_S_S3000000 : S_.BroadcastsInDim S3000000 (![] : Fin 0 → Fin S3000000.rank)
  reducesTo_S3000000_S_d0 : S3000000.ReducesTo [0] S_

variable [Facts]

def fn_part1 {F : FTy → Type} [FloatOps F] (main_arg3 : IVec S3000000 32) (main_arg4 : IVec S3000000 32) (main_v10 : IVec S_ 1) (main_v15 : IVec S3000000 1) (main_c_5 : IVec S_ 1) : IVec S_ 1 :=
  let main_v16 : IVec S_ 1 := (fun x v => Host.reduce IntOp.andi x v reducesTo_S3000000_S_d0 h_S_) main_v15 main_c_5
  let main_v17 : IVec S_ 1 := andi main_v10 main_v16
  let main_c_6 : IVec S_ 32 := constantI S_ 32 0#32
  let main_v18 : IVec S3000000 32 := broadcastInDim S3000000 ![] bcast_S_S3000000 main_c_6
  let main_v19 : IVec S3000000 1 := cmpi .sge main_arg3 main_v18
  let main_c_7 : IVec S_ 32 := constantI S_ 32 1000000#32
  let main_v20 : IVec S3000000 32 := broadcastInDim S3000000 ![] bcast_S_S3000000 main_c_7
  let main_v21 : IVec S3000000 1 := cmpi .slt main_arg3 main_v20
  let main_v22 : IVec S3000000 1 := andi main_v19 main_v21
  let main_c_8 : IVec S_ 1 := constantI S_ 1 1#1
  let main_v23 : IVec S_ 1 := (fun x v => Host.reduce IntOp.andi x v reducesTo_S3000000_S_d0 h_S_) main_v22 main_c_8
  let main_v24 : IVec S_ 1 := andi main_v17 main_v23
  let main_c_9 : IVec S_ 32 := constantI S_ 32 0#32
  let main_v25 : IVec S3000000 32 := broadcastInDim S3000000 ![] bcast_S_S3000000 main_c_9
  let main_v26 : IVec S3000000 1 := cmpi .sge main_arg4 main_v25
  let main_c_10 : IVec S_ 32 := constantI S_ 32 1000000#32
  let main_v27 : IVec S3000000 32 := broadcastInDim S3000000 ![] bcast_S_S3000000 main_c_10
  let main_v28 : IVec S3000000 1 := cmpi .slt main_arg4 main_v27
  let main_v29 : IVec S3000000 1 := andi main_v26 main_v28
  let main_c_11 : IVec S_ 1 := constantI S_ 1 1#1
  let main_v30 : IVec S_ 1 := (fun x v => Host.reduce IntOp.andi x v reducesTo_S3000000_S_d0 h_S_) main_v29 main_c_11
  let main_v31 : IVec S_ 1 := andi main_v24 main_v30
  main_v31

def fn {F : FTy → Type} [FloatOps F] (main_arg0 : FVec F S1000000x3 .f32) (main_arg1 : IVec S3000000 32) (main_arg2 : IVec S3000000 32) (main_arg3 : IVec S3000000 32) (main_arg4 : IVec S3000000 32) : IVec S_ 1 :=
  let main_v0 : FVec F S1000000x3 .f32 := Host.absf main_arg0
  let main_cst : FVec F S_ .f32 := constant S_ .f32 0x7F800000#32
  let main_v1 : FVec F S1000000x3 .f32 := broadcastInDim S1000000x3 ![] bcast_S_S1000000x3 main_cst
  let main_v2 : IVec S1000000x3 1 := cmpf .olt main_v0 main_v1
  let main_c : IVec S_ 1 := constantI S_ 1 1#1
  let main_v3 : IVec S_ 1 := (fun x v => Host.reduce IntOp.andi x v reducesTo_S1000000x3_S_d0_1 h_S_) main_v2 main_c
  let main_c_0 : IVec S_ 32 := constantI S_ 32 0#32
  let main_v4 : IVec S3000000 32 := broadcastInDim S3000000 ![] bcast_S_S3000000 main_c_0
  let main_v5 : IVec S3000000 1 := cmpi .sge main_arg1 main_v4
  let main_c_1 : IVec S_ 32 := constantI S_ 32 1000000#32
  let main_v6 : IVec S3000000 32 := broadcastInDim S3000000 ![] bcast_S_S3000000 main_c_1
  let main_v7 : IVec S3000000 1 := cmpi .slt main_arg1 main_v6
  let main_v8 : IVec S3000000 1 := andi main_v5 main_v7
  let main_c_2 : IVec S_ 1 := constantI S_ 1 1#1
  let main_v9 : IVec S_ 1 := (fun x v => Host.reduce IntOp.andi x v reducesTo_S3000000_S_d0 h_S_) main_v8 main_c_2
  let main_v10 : IVec S_ 1 := andi main_v3 main_v9
  let main_c_3 : IVec S_ 32 := constantI S_ 32 0#32
  let main_v11 : IVec S3000000 32 := broadcastInDim S3000000 ![] bcast_S_S3000000 main_c_3
  let main_v12 : IVec S3000000 1 := cmpi .sge main_arg2 main_v11
  let main_c_4 : IVec S_ 32 := constantI S_ 32 1000000#32
  let main_v13 : IVec S3000000 32 := broadcastInDim S3000000 ![] bcast_S_S3000000 main_c_4
  let main_v14 : IVec S3000000 1 := cmpi .slt main_arg2 main_v13
  let main_v15 : IVec S3000000 1 := andi main_v12 main_v14
  let main_c_5 : IVec S_ 1 := constantI S_ 1 1#1
  fn_part1 (F := F) main_arg3 main_arg4 main_v10 main_v15 main_c_5
-- ==== Kernel.lean ====
abbrev S1000000x3 : Shape := ⟨2, ![1000000, 3]⟩
abbrev S3000000 : Shape := ⟨1, ![3000000]⟩
abbrev S3x1000000 : Shape := ⟨2, ![3, 1000000]⟩
abbrev S12000000 : Shape := ⟨1, ![12000000]⟩
abbrev S_ : Shape := ⟨0, ![]⟩
abbrev S12000000x1 : Shape := ⟨2, ![12000000, 1]⟩
abbrev S1 : Shape := ⟨1, ![1]⟩
abbrev S1x1 : Shape := ⟨2, ![1, 1]⟩
abbrev S3x12000000 : Shape := ⟨2, ![3, 12000000]⟩
abbrev S3x3000000 : Shape := ⟨2, ![3, 3000000]⟩
abbrev S2x8x128 : Shape := ⟨3, ![2, 8, 128]⟩
abbrev S3x65536 : Shape := ⟨2, ![3, 65536]⟩
abbrev S1x8x128 : Shape := ⟨3, ![1, 8, 128]⟩
abbrev S65536 : Shape := ⟨1, ![65536]⟩
abbrev S1x65536 : Shape := ⟨2, ![1, 65536]⟩
abbrev S8x128 : Shape := ⟨2, ![8, 128]⟩
abbrev S2x1x1 : Shape := ⟨3, ![2, 1, 1]⟩
abbrev S2 : Shape := ⟨1, ![2]⟩

abbrev nBuf : Space → Nat
  | .hbm => 40
  | .vmem => 11
  | .smem => 0
  | _ => 0

abbrev bufTy : (tb : Table) → Fin (tcTables nBuf tb) → BufTy
  | .hbm, ⟨0, _⟩ => ⟨S1000000x3, .f32⟩
  | .hbm, ⟨1, _⟩ => ⟨S3000000, .i32⟩
  | .hbm, ⟨2, _⟩ => ⟨S3000000, .i32⟩
  | .hbm, ⟨3, _⟩ => ⟨S3000000, .i32⟩
  | .hbm, ⟨4, _⟩ => ⟨S3000000, .i32⟩
  | .hbm, ⟨5, _⟩ => ⟨S3x1000000, .f32⟩
  | .hbm, ⟨6, _⟩ => ⟨S12000000, .i32⟩
  | .hbm, ⟨7, _⟩ => ⟨S_, .i32⟩
  | .hbm, ⟨8, _⟩ => ⟨S12000000, .i32⟩
  | .hbm, ⟨9, _⟩ => ⟨S12000000, .i1⟩
  | .hbm, ⟨10, _⟩ => ⟨S_, .i32⟩
  | .hbm, ⟨11, _⟩ => ⟨S12000000, .i32⟩
  | .hbm, ⟨12, _⟩ => ⟨S12000000, .i32⟩
  | .hbm, ⟨13, _⟩ => ⟨S12000000, .i32⟩
  | .hbm, ⟨14, _⟩ => ⟨S12000000x1, .i32⟩
  | .hbm, ⟨15, _⟩ => ⟨S1, .i32⟩
  | .hbm, ⟨16, _⟩ => ⟨S_, .i32⟩
  | .hbm, ⟨17, _⟩ => ⟨S12000000x1, .i32⟩
  | .hbm, ⟨18, _⟩ => ⟨S12000000x1, .i1⟩
  | .hbm, ⟨19, _⟩ => ⟨S1x1, .i32⟩
  | .hbm, ⟨20, _⟩ => ⟨S12000000x1, .i32⟩
  | .hbm, ⟨21, _⟩ => ⟨S12000000x1, .i1⟩
  | .hbm, ⟨22, _⟩ => ⟨S12000000x1, .i1⟩
  | .hbm, ⟨23, _⟩ => ⟨S_, .i1⟩
  | .hbm, ⟨24, _⟩ => ⟨S12000000, .i1⟩
  | .hbm, ⟨25, _⟩ => ⟨S3x12000000, .f32⟩
  | .hbm, ⟨26, _⟩ => ⟨S3x12000000, .i1⟩
  | .hbm, ⟨27, _⟩ => ⟨S_, .f32⟩
  | .hbm, ⟨28, _⟩ => ⟨S3x12000000, .f32⟩
  | .hbm, ⟨29, _⟩ => ⟨S3x12000000, .f32⟩
  | .hbm, ⟨30, _⟩ => ⟨S3x3000000, .f32⟩
  | .hbm, ⟨31, _⟩ => ⟨S3x3000000, .f32⟩
  | .hbm, ⟨32, _⟩ => ⟨S3x3000000, .f32⟩
  | .hbm, ⟨33, _⟩ => ⟨S3x3000000, .f32⟩
  | .hbm, ⟨34, _⟩ => ⟨S2x8x128, .f32⟩
  | .hbm, ⟨35, _⟩ => ⟨S2x1x1, .f32⟩
  | .hbm, ⟨36, _⟩ => ⟨S2, .f32⟩
  | .hbm, ⟨37, _⟩ => ⟨S_, .f32⟩
  | .hbm, ⟨38, _⟩ => ⟨S_, .f32⟩
  | .hbm, ⟨39, _⟩ => ⟨S1, .f32⟩
  | .local _ .vmem, ⟨0, _⟩ => ⟨S3x65536, .f32⟩
  | .local _ .vmem, ⟨1, _⟩ => ⟨S3x65536, .f32⟩
  | .local _ .vmem, ⟨2, _⟩ => ⟨S3x65536, .f32⟩
  | .local _ .vmem, ⟨3, _⟩ => ⟨S3x65536, .f32⟩
  | .local _ .vmem, ⟨4, _⟩ => ⟨S3x65536, .f32⟩
  | .local _ .vmem, ⟨5, _⟩ => ⟨S3x65536, .f32⟩
  | .local _ .vmem, ⟨6, _⟩ => ⟨S3x65536, .f32⟩
  | .local _ .vmem, ⟨7, _⟩ => ⟨S3x65536, .f32⟩
  | .local _ .vmem, ⟨8, _⟩ => ⟨S1x8x128, .f32⟩
  | .local _ .vmem, ⟨9, _⟩ => ⟨S1x8x128, .f32⟩
  | .local _ .vmem, ⟨10, _⟩ => ⟨S1x1, .f32⟩
  | _, _ => ⟨S1000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_cst : Ref sig .tc := ⟨.hbm, 37, rfl⟩
abbrev main_v10 : Ref sig .tc := ⟨.hbm, 38, rfl⟩
abbrev main_v11 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 23], ![false, false]⟩

def k0_cond2 (i : grid0.Coords) : BitVec 1 :=
  let arg1 : BitVec 32 := BitVec.ofNat 32 (i 1).val
  let c22_i32 : BitVec 32 := 22#32
  let v103 : BitVec 1 := Scalar.cmpi .eq arg1 c22_i32
  let v104 : BitVec 32 := Scalar.extui v103
  let c0_i32_34 : BitVec 32 := 0#32
  let v105 : BitVec 1 := Scalar.cmpi .ne v104 c0_i32_34
  v105

def cc0_transform_0 (i : grid0.Coords) : Fin 2 → Nat :=
  let arg0 : BitVec 32 := BitVec.ofNat 32 (i 0).val
  let arg1 : BitVec 32 := BitVec.ofNat 32 (i 1).val
  let c23_i32 : BitVec 32 := 23#32
  let v0 : BitVec 32 := Scalar.muli arg0 c23_i32
  let v1 : BitVec 32 := Scalar.addi v0 arg1
  let c45_i32 : BitVec 32 := 45#32
  let v2 : BitVec 32 := Scalar.minsi v1 c45_i32
  let c0_i32 : BitVec 32 := 0#32
  let c0_i32_0 : BitVec 32 := 0#32
  ![c0_i32.toNat, v2.toNat]

def cc0_transform_1 (i : grid0.Coords) : Fin 2 → Nat :=
  let arg0 : BitVec 32 := BitVec.ofNat 32 (i 0).val
  let arg1 : BitVec 32 := BitVec.ofNat 32 (i 1).val
  let c23_i32 : BitVec 32 := 23#32
  let v0 : BitVec 32 := Scalar.muli arg0 c23_i32
  let v1 : BitVec 32 := Scalar.addi v0 arg1
  let c45_i32 : BitVec 32 := 45#32
  let v2 : BitVec 32 := Scalar.minsi v1 c45_i32
  let c0_i32 : BitVec 32 := 0#32
  let c0_i32_0 : BitVec 32 := 0#32
  ![c0_i32.toNat, v2.toNat]

def cc0_transform_2 (i : grid0.Coords) : Fin 2 → Nat :=
  let arg0 : BitVec 32 := BitVec.ofNat 32 (i 0).val
  let arg1 : BitVec 32 := BitVec.ofNat 32 (i 1).val
  let c23_i32 : BitVec 32 := 23#32
  let v0 : BitVec 32 := Scalar.muli arg0 c23_i32
  let v1 : BitVec 32 := Scalar.addi v0 arg1
  let c45_i32 : BitVec 32 := 45#32
  let v2 : BitVec 32 := Scalar.minsi v1 c45_i32
  let c0_i32 : BitVec 32 := 0#32
  let c0_i32_0 : BitVec 32 := 0#32
  ![c0_i32.toNat, v2.toNat]

def cc0_transform_3 (i : grid0.Coords) : Fin 2 → Nat :=
  let arg0 : BitVec 32 := BitVec.ofNat 32 (i 0).val
  let arg1 : BitVec 32 := BitVec.ofNat 32 (i 1).val
  let c23_i32 : BitVec 32 := 23#32
  let v0 : BitVec 32 := Scalar.muli arg0 c23_i32
  let v1 : BitVec 32 := Scalar.addi v0 arg1
  let c45_i32 : BitVec 32 := 45#32
  let v2 : BitVec 32 := Scalar.minsi v1 c45_i32
  let c0_i32 : BitVec 32 := 0#32
  let c0_i32_0 : BitVec 32 := 0#32
  ![c0_i32.toNat, v2.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S3x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3x65536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x65536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x65536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  transposes_S1000000x3_S3x1000000_1_0 : S1000000x3.Transposes [1, 0] S3x1000000
  concatenates_S3000000_S3000000_S3000000_S3000000_S12000000_d0 : Shape.Concatenates [S3000000, S3000000, S3000000, S3000000] S12000000 0
  bcast_S_S12000000 : S_.BroadcastsInDim S12000000 (![] : Fin 0 → Fin S12000000.rank)
  bcast_S12000000_S12000000x1_0 : S12000000.BroadcastsInDim S12000000x1 (![0] : Fin 1 → Fin S12000000x1.rank)
  bcast_S_S12000000x1 : S_.BroadcastsInDim S12000000x1 (![] : Fin 0 → Fin S12000000x1.rank)
  bcast_S1_S1x1_1 : S1.BroadcastsInDim S1x1 (![1] : Fin 1 → Fin S1x1.rank)
  bcast_S1x1_S12000000x1_0_1 : S1x1.BroadcastsInDim S12000000x1 (![0, 1] : Fin 2 → Fin S12000000x1.rank)
  reducesTo_S12000000x1_S12000000_d1 : S12000000x1.ReducesTo [1] S12000000
  h_S_ : 0 < S_.numel
  bcast_S12000000_S3x12000000_1 : S12000000.BroadcastsInDim S3x12000000 (![1] : Fin 1 → Fin S3x12000000.rank)
  bcast_S_S3x12000000 : S_.BroadcastsInDim S3x12000000 (![] : Fin 0 → Fin S3x12000000.rank)
  slices_S3x12000000_S3x3000000_0_0 : S3x12000000.Slices ![0, 0] S3x3000000
  slices_S3x12000000_S3x3000000_0_3000000 : S3x12000000.Slices ![0, 3000000] S3x3000000
  slices_S3x12000000_S3x3000000_0_6000000 : S3x12000000.Slices ![0, 6000000] S3x3000000
  slices_S3x12000000_S3x3000000_0_9000000 : S3x12000000.Slices ![0, 9000000] S3x3000000
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S3x65536_S3x65536_0_0 : ∀ a, (![0, 0] : Fin 2 → Nat) a + S3x65536.size a ≤ S3x65536.size a
  h_S3x65536 : 0 < S3x65536.numel
  shapeCasts_S3x65536_S3x65536 : S3x65536.ShapeCasts S3x65536
  reduces_S3x65536_S65536 : S3x65536.Reduces [0] S65536
  shapeCasts_S65536_S1x65536 : S65536.ShapeCasts S1x65536
  broadcasts_S1x65536_S3x65536 : S1x65536.Broadcasts S3x65536
  iota_S1x65536_d1_w32 : S1x65536.Iotas .tc 32 [1]
  reduces_S1x65536_S1 : S1x65536.Reduces [1] S1
  shapeCasts_S1_S1x1 : S1.ShapeCasts S1x1
  inpos_S1x1_p0_0 : ∀ a, (![0, 0] : Fin 2 → Nat) a < S1x1.size a
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  slices_S2x8x128_S2x1x1_0_0_0 : S2x8x128.Slices ![0, 0, 0] S2x1x1
  shapeCasts_S2x1x1_S2 : S2x1x1.ShapeCasts S2
  reducesTo_S2_S_d0 : S2.ReducesTo [0] S_
  shapeCasts_S_S1 : S_.ShapeCasts S1
  gather_S3x1000000_S12000000x1_S3x12000000_0_1_n_n_1_1_31_wf : GatherDims.WF S3x1000000 S12000000x1 S3x12000000 [0] [1] [] [1] [] 1 ![3, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S3x65536.size a < S3x3000000.size a
  hwx0_0 : ∀ i : grid0.Coords, EltTy.bits .f32 = 32 ∨ (Rect.unit (s := S3x3000000) (fun a => cc0_transform_0 i a * S3x65536.size a) (fun a => (Pipeline.Clip.of (cc0_transform_0 i a) (S3x65536.size a) (S3x3000000.size a)).extent (S3x65536.size a)) fun a => Pipeline.Clip.inb (Pipeline.Clip.ok_of (hstart0_0 i a))).WholeWords (EltTy.packing .f32)
  hwxs0_0 : ∀ i : grid0.Coords, EltTy.bits .f32 = 32 ∨ (Rect.unit (s := S3x65536) (fun _ => 0) (fun a => (Pipeline.Clip.of (cc0_transform_0 i a) (S3x65536.size a) (S3x3000000.size a)).extent (S3x65536.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S3x65536.size a < S3x3000000.size a
  hwx0_1 : ∀ i : grid0.Coords, EltTy.bits .f32 = 32 ∨ (Rect.unit (s := S3x3000000) (fun a => cc0_transform_1 i a * S3x65536.size a) (fun a => (Pipeline.Clip.of (cc0_transform_1 i a) (S3x65536.size a) (S3x3000000.size a)).extent (S3x65536.size a)) fun a => Pipeline.Clip.inb (Pipeline.Clip.ok_of (hstart0_1 i a))).WholeWords (EltTy.packing .f32)
  hwxs0_1 : ∀ i : grid0.Coords, EltTy.bits .f32 = 32 ∨ (Rect.unit (s := S3x65536) (fun _ => 0) (fun a => (Pipeline.Clip.of (cc0_transform_1 i a) (S3x65536.size a) (S3x3000000.size a)).extent (S3x65536.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S3x65536.size a < S3x3000000.size a
  hwx0_2 : ∀ i : grid0.Coords, EltTy.bits .f32 = 32 ∨ (Rect.unit (s := S3x3000000) (fun a => cc0_transform_2 i a * S3x65536.size a) (fun a => (Pipeline.Clip.of (cc0_transform_2 i a) (S3x65536.size a) (S3x3000000.size a)).extent (S3x65536.size a)) fun a => Pipeline.Clip.inb (Pipeline.Clip.ok_of (hstart0_2 i a))).WholeWords (EltTy.packing .f32)
  hwxs0_2 : ∀ i : grid0.Coords, EltTy.bits .f32 = 32 ∨ (Rect.unit (s := S3x65536) (fun _ => 0) (fun a => (Pipeline.Clip.of (cc0_transform_2 i a) (S3x65536.size a) (S3x3000000.size a)).extent (S3x65536.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S3x65536.size a < S3x3000000.size a
  hwx0_3 : ∀ i : grid0.Coords, EltTy.bits .f32 = 32 ∨ (Rect.unit (s := S3x3000000) (fun a => cc0_transform_3 i a * S3x65536.size a) (fun a => (Pipeline.Clip.of (cc0_transform_3 i a) (S3x65536.size a) (S3x3000000.size a)).extent (S3x65536.size a)) fun a => Pipeline.Clip.inb (Pipeline.Clip.ok_of (hstart0_3 i a))).WholeWords (EltTy.packing .f32)
  hwxs0_3 : ∀ i : grid0.Coords, EltTy.bits .f32 = 32 ∨ (Rect.unit (s := S3x65536) (fun _ => 0) (fun a => (Pipeline.Clip.of (cc0_transform_3 i a) (S3x65536.size a) (S3x3000000.size a)).extent (S3x65536.size a)) fun a => (Nat.zero_add _).trans_le (Pipeline.Clip.extent_le (Pipeline.Clip.ok_of (hstart0_3 i a)))).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x128.size a ≤ S2x8x128.size a
  hwx0_4 : ∀ i : grid0.Coords, EltTy.bits .f32 = 32 ∨ (Rect.block (s := S2x8x128) S1x8x128.size (cc0_transform_4 i) (hinb0_4 i)).WholeWords (EltTy.packing .f32)

variable [Facts₀]

def gather_S3x1000000_S12000000x1_S3x12000000_0_1_n_n_1_1_31 : GatherDims S3x1000000 S12000000x1 S3x12000000 where
  offsetDims := [0]
  collapsedSliceDims := [1]
  operandBatchingDims := []
  startIndicesBatchingDims := []
  startIndexMap := [1]
  indexVectorDim := 1
  sliceSizes := ![3, 1]
  wf := gather_S3x1000000_S12000000x1_S3x12000000_0_1_n_n_1_1_31_wf

abbrev win0_0 : Pipeline.Window sig grid0 :=
  Pipeline.Window.ofSpecClip (Memref.whole main_v3) S3x65536.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v4) S3x65536.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v5) S3x65536.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v6) S3x65536.size cc0_transform_3 reads0_3 false false 2 stage0_3 sem0_3
    hrank0 hreads0_3 hstart0_3 nbuf0_3 (Memref.isWhole_whole _) hwx0_3 hwxs0_3 hstage0_3

abbrev win0_4 : Pipeline.Window sig grid0 :=
  Pipeline.Window.ofSpec (Memref.whole main_v7) S1x8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S1000000x3 : Shape := ⟨2, ![1000000, 3]⟩
abbrev S3000000 : Shape := ⟨1, ![3000000]⟩
abbrev S1x1000000x3 : Shape := ⟨3, ![1, 1000000, 3]⟩
abbrev S_ : Shape := ⟨0, ![]⟩
abbrev S3000000x1 : Shape := ⟨2, ![3000000, 1]⟩
abbrev S1x3000000x3 : Shape := ⟨3, ![1, 3000000, 3]⟩
abbrev S1x3000000 : Shape := ⟨2, ![1, 3000000]⟩
abbrev S1x3000000x1 : Shape := ⟨3, ![1, 3000000, 1]⟩
abbrev S1 : Shape := ⟨1, ![1]⟩

abbrev nBuf : Space → Nat
  | .hbm => 136
  | .vmem => 0
  | .smem => 0
  | _ => 0

abbrev hbmTy0_0 (i : Nat) : BufTy := match i % 128 with
  | 0 => ⟨S1000000x3, .f32⟩
  | 1 => ⟨S3000000, .i32⟩
  | 2 => ⟨S3000000, .i32⟩
  | 3 => ⟨S3000000, .i32⟩
  | 4 => ⟨S3000000, .i32⟩
  | 5 => ⟨S1x1000000x3, .f32⟩
  | 6 => ⟨S_, .i32⟩
  | 7 => ⟨S3000000, .i32⟩
  | 8 => ⟨S3000000, .i1⟩
  | 9 => ⟨S_, .i32⟩
  | 10 => ⟨S3000000, .i32⟩
  | 11 => ⟨S3000000, .i32⟩
  | 12 => ⟨S3000000, .i32⟩
  | 13 => ⟨S3000000x1, .i32⟩
  | 14 => ⟨S1x3000000x3, .f32⟩
  | 15 => ⟨S_, .i32⟩
  | 16 => ⟨S3000000, .i32⟩
  | 17 => ⟨S3000000, .i1⟩
  | 18 => ⟨S_, .i32⟩
  | 19 => ⟨S3000000, .i32⟩
  | 20 => ⟨S3000000, .i32⟩
  | 21 => ⟨S3000000, .i32⟩
  | 22 => ⟨S3000000x1, .i32⟩
  | 23 => ⟨S1x3000000x3, .f32⟩
  | 24 => ⟨S_, .i32⟩
  | 25 => ⟨S3000000, .i32⟩
  | 26 => ⟨S3000000, .i1⟩
  | 27 => ⟨S_, .i32⟩
  | 28 => ⟨S3000000, .i32⟩
  | 29 => ⟨S3000000, .i32⟩
  | 30 => ⟨S3000000, .i32⟩
  | 31 => ⟨S3000000x1, .i32⟩
  | 32 => ⟨S1x3000000x3, .f32⟩
  | 33 => ⟨S_, .i32⟩
  | 34 => ⟨S3000000, .i32⟩
  | 35 => ⟨S3000000, .i1⟩
  | 36 => ⟨S_, .i32⟩
  | 37 => ⟨S3000000, .i32⟩
  | 38 => ⟨S3000000, .i32⟩
  | 39 => ⟨S3000000, .i32⟩
  | 40 => ⟨S3000000x1, .i32⟩
  | 41 => ⟨S1x3000000x3, .f32⟩
  | 42 => ⟨S1x3000000x3, .f32⟩
  | 43 => ⟨S1x3000000x3, .f32⟩
  | 44 => ⟨S1x3000000x3, .f32⟩
  | 45 => ⟨S_, .f32⟩
  | 46 => ⟨S1x3000000, .f32⟩
  | 47 => ⟨S1x3000000x3, .f32⟩
  | 48 => ⟨S_, .f32⟩
  | 49 => ⟨S1x3000000, .f32⟩
  | 50 => ⟨S_, .f32⟩
  | 51 => ⟨S1x3000000, .f32⟩
  | 52 => ⟨S1x3000000, .f32⟩
  | 53 => ⟨S1x3000000, .f32⟩
  | 54 => ⟨S_, .f32⟩
  | 55 => ⟨S1x3000000, .f32⟩
  | 56 => ⟨S1x3000000, .f32⟩
  | 57 => ⟨S1x3000000, .f32⟩
  | 58 => ⟨S1x3000000x3, .f32⟩
  | 59 => ⟨S_, .f32⟩
  | 60 => ⟨S1x3000000, .f32⟩
  | 61 => ⟨S1x3000000, .f32⟩
  | 62 => ⟨S_, .f32⟩
  | 63 => ⟨S1x3000000, .f32⟩
  | 64 => ⟨S1x3000000, .f32⟩
  | 65 => ⟨S1x3000000, .f32⟩
  | 66 => ⟨S1x3000000, .f32⟩
  | 67 => ⟨S_, .f32⟩
  | 68 => ⟨S1x3000000, .f32⟩
  | 69 => ⟨S1x3000000, .f32⟩
  | 70 => ⟨S_, .f32⟩
  | 71 => ⟨S1x3000000, .f32⟩
  | 72 => ⟨S1x3000000, .f32⟩
  | 73 => ⟨S1x3000000, .f32⟩
  | 74 => ⟨S_, .f32⟩
  | 75 => ⟨S1x3000000, .f32⟩
  | 76 => ⟨S1x3000000, .f32⟩
  | 77 => ⟨S1x3000000, .f32⟩
  | 78 => ⟨S1x3000000x1, .f32⟩
  | 79 => ⟨S1x3000000x3, .f32⟩
  | 80 => ⟨S1x3000000x3, .f32⟩
  | 81 => ⟨S1x3000000x3, .f32⟩
  | 82 => ⟨S1x3000000, .f32⟩
  | 83 => ⟨S1x3000000x3, .f32⟩
  | 84 => ⟨S1x3000000x3, .f32⟩
  | 85 => ⟨S_, .f32⟩
  | 86 => ⟨S1x3000000, .f32⟩
  | 87 => ⟨S_, .f32⟩
  | 88 => ⟨S1x3000000, .f32⟩
  | 89 => ⟨S1x3000000, .f32⟩
  | 90 => ⟨S1x3000000, .f32⟩
  | 91 => ⟨S1x3000000x3, .f32⟩
  | 92 => ⟨S_, .f32⟩
  | 93 => ⟨S1x3000000, .f32⟩
  | 94 => ⟨S1x3000000, .f32⟩
  | 95 => ⟨S_, .f32⟩
  | 96 => ⟨S1x3000000, .f32⟩
  | 97 => ⟨S1x3000000, .f32⟩
  | 98 => ⟨S1x3000000, .f32⟩
  | 99 => ⟨S1x3000000, .f32⟩
  | 100 => ⟨S_, .f32⟩
  | 101 => ⟨S1x3000000, .f32⟩
  | 102 => ⟨S1x3000000, .f32⟩
  | 103 => ⟨S_, .f32⟩
  | 104 => ⟨S1x3000000, .f32⟩
  | 105 => ⟨S1x3000000, .f32⟩
  | 106 => ⟨S1x3000000, .f32⟩
  | 107 => ⟨S_, .f32⟩
  | 108 => ⟨S1x3000000, .f32⟩
  | 109 => ⟨S1x3000000, .f32⟩
  | 110 => ⟨S1x3000000, .f32⟩
  | 111 => ⟨S1x3000000x1, .f32⟩
  | 112 => ⟨S1x3000000x3, .f32⟩
  | 113 => ⟨S1x3000000x3, .f32⟩
  | 114 => ⟨S1x3000000x3, .f32⟩
  | 115 => ⟨S1x3000000, .f32⟩
  | 116 => ⟨S1x3000000x3, .f32⟩
  | 117 => ⟨S_, .f32⟩
  | 118 => ⟨S1x3000000, .f32⟩
  | 119 => ⟨S1x3000000, .f32⟩
  | 120 => ⟨S_, .f32⟩
  | 121 => ⟨S1x3000000, .f32⟩
  | 122 => ⟨S1x3000000, .f32⟩
  | 123 => ⟨S1x3000000, .f32⟩
  | 124 => ⟨S_, .f32⟩
  | 125 => ⟨S1x3000000, .f32⟩
  | 126 => ⟨S1x3000000, .i1⟩
  | 127 => ⟨S_, .f32⟩
  | _ => ⟨S1000000x3, .f32⟩

abbrev hbmTy0_1 (i : Nat) : BufTy := match i % 128 with
  | 0 => ⟨S1x3000000, .f32⟩
  | 1 => ⟨S1x3000000, .f32⟩
  | 2 => ⟨S_, .f32⟩
  | 3 => ⟨S1x3000000, .f32⟩
  | 4 => ⟨S1x3000000, .f32⟩
  | 5 => ⟨S1x3000000, .f32⟩
  | 6 => ⟨S_, .f32⟩
  | 7 => ⟨S1, .f32⟩
  | _ => ⟨S1000000x3, .f32⟩

abbrev hbmTy (i : Nat) : BufTy := match i / 128 with
  | 0 => hbmTy0_0 i
  | 1 => hbmTy0_1 i
  | _ => ⟨S1000000x3, .f32⟩

abbrev bufTy : (tb : Table) → Fin (tcTables nBuf tb) → BufTy
  | .hbm, ⟨i, _⟩ => hbmTy i
  | _, _ => ⟨S1000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_3 : Ref sig .tc := ⟨.hbm, 24, rfl⟩
abbrev main_v15 : Ref sig .tc := ⟨.hbm, 25, rfl⟩
abbrev main_v16 : Ref sig .tc := ⟨.hbm, 26, rfl⟩
abbrev main_c_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_5 : Ref sig .tc := ⟨.hbm, 33, rfl⟩
abbrev main_v22 : Ref sig .tc := ⟨.hbm, 34, rfl⟩
abbrev main_v23 : Ref sig .tc := ⟨.hbm, 35, rfl⟩
abbrev main_c_6 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_cst_8 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_9 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_10 : Ref sig .tc := ⟨.hbm, 59, rfl⟩
abbrev main_v42 : Ref sig .tc := ⟨.hbm, 60, rfl⟩
abbrev main_v43 : Ref sig .tc := ⟨.hbm, 61, rfl⟩
abbrev main_cst_11 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_12 : Ref sig .tc := ⟨.hbm, 67, rfl⟩
abbrev main_v48 : Ref sig .tc := ⟨.hbm, 68, rfl⟩
abbrev main_v49 : Ref sig .tc := ⟨.hbm, 69, rfl⟩
abbrev main_cst_13 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_14 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_15 : Ref sig .tc := ⟨.hbm, 85, rfl⟩
abbrev main_v63 : Ref sig .tc := ⟨.hbm, 86, rfl⟩
abbrev main_cst_16 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_17 : Ref sig .tc := ⟨.hbm, 92, rfl⟩
abbrev main_v68 : Ref sig .tc := ⟨.hbm, 93, rfl⟩
abbrev main_v69 : Ref sig .tc := ⟨.hbm, 94, rfl⟩
abbrev main_cst_18 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_19 : Ref sig .tc := ⟨.hbm, 100, rfl⟩
abbrev main_v74 : Ref sig .tc := ⟨.hbm, 101, rfl⟩
abbrev main_v75 : Ref sig .tc := ⟨.hbm, 102, rfl⟩
abbrev main_cst_20 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_cst_21 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_cst_22 : Ref sig .tc := ⟨.hbm, 117, rfl⟩
abbrev main_v88 : Ref sig .tc := ⟨.hbm, 118, rfl⟩
abbrev main_v89 : Ref sig .tc := ⟨.hbm, 119, rfl⟩
abbrev main_cst_23 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_cst_24 : Ref sig .tc := ⟨.hbm, 124, rfl⟩
abbrev main_v93 : Ref sig .tc := ⟨.hbm, 125, rfl⟩
abbrev main_v94 : Ref sig .tc := ⟨.hbm, 126, rfl⟩
abbrev main_cst_25 : Ref sig .tc := ⟨.hbm, 127, rfl⟩
abbrev main_call0_v0 : Ref sig .tc := ⟨.hbm, 128, rfl⟩
abbrev main_v95 : Ref sig .tc := ⟨.hbm, 129, rfl⟩
abbrev main_cst_26 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_cst_27 : Ref sig .tc := ⟨.hbm, 134, rfl⟩
abbrev main_v99 : Ref sig .tc := ⟨.hbm, 135, rfl⟩

abbrev nD : Nat := 1
abbrev τ : Topo := Topo.v7x

variable {F : FTy → Type} [FloatOps F]

class Facts₀ : Prop where
  bcast_S1000000x3_S1x1000000x3_1_2 : S1000000x3.BroadcastsInDim S1x1000000x3 (![1, 2] : Fin 2 → Fin S1x1000000x3.rank)
  bcast_S_S3000000 : S_.BroadcastsInDim S3000000 (![] : Fin 0 → Fin S3000000.rank)
  bcast_S3000000_S3000000x1_0 : S3000000.BroadcastsInDim S3000000x1 (![0] : Fin 1 → Fin S3000000x1.rank)
  reducesTo_S1x3000000x3_S1x3000000_d2 : S1x3000000x3.ReducesTo [2] S1x3000000
  h_S_ : 0 < S_.numel
  bcast_S_S1x3000000 : S_.BroadcastsInDim S1x3000000 (![] : Fin 0 → Fin S1x3000000.rank)
  bcast_S1x3000000_S1x3000000x1_0_1 : S1x3000000.BroadcastsInDim S1x3000000x1 (![0, 1] : Fin 2 → Fin S1x3000000x1.rank)
  bcast_S1x3000000x1_S1x3000000x3_0_1_2 : S1x3000000x1.BroadcastsInDim S1x3000000x3 (![0, 1, 2] : Fin 3 → Fin S1x3000000x3.rank)
  reducesTo_S1x3000000_S1_d1 : S1x3000000.ReducesTo [1] S1
  gather_S1x1000000x3_S3000000x1_S1x3000000x3_02_1_n_n_1_1_113_wf : GatherDims.WF S1x1000000x3 S3000000x1 S1x3000000x3 [0, 2] [1] [] [1] [] 1 ![1, 1, 3]

variable [Facts₀]

def gather_S1x1000000x3_S3000000x1_S1x3000000x3_02_1_n_n_1_1_113 : GatherDims S1x1000000x3 S3000000x1 S1x3000000x3 where
  offsetDims := [0, 2]
  collapsedSliceDims := [1]
  operandBatchingDims := []
  startIndicesBatchingDims := []
  startIndexMap := [1]
  indexVectorDim := 1
  sliceSizes := ![1, 1, 3]
  wf := gather_S1x1000000x3_S3000000x1_S1x3000000x3_02_1_n_n_1_1_113_wf

class Facts : Prop extends Facts₀ where

variable [Facts]
-- ==== Proof.KitK.lean ====
/-
  The frame of the kernel program, first part: @main around its one region (the host lines before it give the region
  its four point arrays, the lines after it add the rows' sums), the blocks the pipeline stages, the two conditions
  the body branches on decided over the 2 x 23 grid, where the output window is idle, and the memrefs and views the
  body's runs are stated over.
-/
import proofs.«401790_j62929860821309_3_alg».proof.Proof.Gen.Kernel.Launch
import proofs.«401790_j62929860821309_3_alg».proof.Proof.Gen.Kernel.Skeleton
import proofs.«401790_j62929860821309_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region

@main is: the host lines that build the four point arrays (a transpose, a concatenation, the take, four
slices), the region, and five host lines that add the two rows' sums. -/

/-- Core c's buffer contents when the region is entered: the launch memory after the host lines before it. -/
abbrev V0 (c : Dev nD) : Valuation τ sig (Elt F) :=
  StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

/-- No host line allocates. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the later lines, entered at the contents `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    ⟨hostOps0_sub, hostOps0_1_sub, hostOps0_2_sub⟩ ⟨hostOps0_fresh, hostOps0_1_fresh, hostOps0_2_fresh⟩ main_chain

/-- The lines after the region touch unscoped TensorCore buffers only, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and write no array of the pipeline (each writes its own result buffer). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-! ## The windows' blocks -/

/-- Window w's block at point t, read off its array as the region finds it: the part inside the array (the last
    block of the four point arrays runs past their 3,000,000 columns and is cut there). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window is fetched at every point, so its current staging buffer holds its block on the part inside the
    array and, past the array's end, words nothing names (`d`). -/
theorem before_in_of {c : Dev nD} (dat : Dat τ (Elt F) Unit ℕ (UR sig nD τ) ℕ cfg0 c) (w : Fin cfg0.W)
    (hA : dat.A w = V m c (Pipeline.arrRef spec0 w)) (hf : ∀ t, (cfg0.win w).fetch t = true) (t : Fin cfg0.N) (d) :
    dat.before w t d = (cfg0.win w).fill (cfg0.grid.coords t) d (iblk m c w t) := by
  unfold Dat.before; rw [if_pos (hf t)]; unfold Dat.fetched Dat.blockOf iblk; rw [hA]

/-! ## The body's branch conditions -/

/-- The accumulator is reset at the first step of a row: `pl.when(i == 0)`. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 23 = 0 :=
  (by decide +kernel : ∀ t : Fin grid0.N, cond0_0 (grid0.coords t) ↔ t.val % 23 = 0)

/-- The output block is stored at the last step of a row: `pl.when(i == 22)`. -/
abbrev cond0_1 (i : grid0.Coords) : Prop := k0_cond2 i = 1#1
theorem hcond0_1 : ∀ t : Fin cfg0.N, cond0_1 (grid0.coords t) ↔ t.val % 23 = 22 :=
  (by decide +kernel : ∀ t : Fin grid0.N, cond0_1 (grid0.coords t) ↔ t.val % 23 = 22)

/-! ## Where the windows are idle -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
/-- Away from a row's last step the body stores nothing into the output's buffer, and the pipeline does not write
    it back there; -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- at a row's last step it stores the block. -/
theorem liveAt0_4 : ∀ t : Fin cfg0.N, cond0_1 (grid0.coords t) → cfg0.idle 4 (grid0.coords t) = false := by decide +kernel

/-! ## The memrefs the body is called with -/

abbrev ms0_0 (t : Fin cfg0.N) : Memref sig .tc .vmem S3x65536 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3x65536 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3x65536 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3x65536 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x8x128 .f32 := win0_4.stage (cfg0.slots t 4)
abbrev hs0_4 (t : Fin cfg0.N) : (ms0_4 t).IsWhole := hstage0_4 ((cfg0.slots t 4).cast nbuf0_4)
/-- The accumulator: a whole scoped [1,1] buffer of the kernel's own. -/
abbrev scM0_0 : Memref sig .tc .vmem S1x1 .f32 := Memref.whole cc0_scratch0
/-- Views through which the output block's and the accumulator's contents are stated. -/
abbrev VO0_4 : View sig .tc .vmem S1x8x128 .f32 := (Memref.whole cc0_stg4_0 : Memref sig .tc .vmem S1x8x128 .f32).view
abbrev VS0_0 : View sig .tc .vmem S1x1 .f32 := scM0_0.view

/-- What the region's invariant hands the body: the accumulator at some contents and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Hand

end
-- ==== Proof.RunAK.lean ====
/-
  The body at the first step of a row: the accumulator is first overwritten with zero, then the step proceeds as at any
  other: the four point blocks are loaded, the masked lane sum of the per-lane loss is added into the accumulator and
  stored back.  The accumulator may hold anything on entry; the output block's buffer is not touched.
-/
import proofs.«401790_j62929860821309_3_alg».proof.Proof.KitK

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- On whole staging memrefs holding x0..x3 and the accumulator holding anything, the body runs to the continuation with
    the inputs as they were and the accumulator with its pieces (the reset, then the update) written. -/
noncomputable def kernelRun0_A (c : Dev nD) (i : grid0.Coords) (arg2 : Memref sig .tc .vmem S3x65536 .f32) (harg2 : arg2.IsWhole) (arg3 : Memref sig .tc .vmem S3x65536 .f32) (harg3 : arg3.IsWhole) (arg4 : Memref sig .tc .vmem S3x65536 .f32) (harg4 : arg4.IsWhole) (arg5 : Memref sig .tc .vmem S3x65536 .f32) (harg5 : arg5.IsWhole) (arg6 : Memref sig .tc .vmem S1x8x128 .f32) (harg6 : arg6.IsWhole) (arg7 : Memref sig .tc .vmem S1x1 .f32) (harg7 : arg7.IsWhole) (hc0 : cond0_0 i) (hc1 : ¬cond0_1 i)
    (x0 x1 x2 x3 : Vec F S3x65536 .f32) :
    { LS0 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg7.view.loc (c : Thread nD τ) ↦[arg7.view.set]{fullShare} arg7.view.writes (Elt F) f LS0)) -∗ K ⟨⟩))
          ⊢ wp frame (wpE (defs₀ (F := F)) Variants.none c none) E (cc0__dihedral_kernel i arg2 harg2 arg3 harg3 arg4 harg4 arg5 harg5 arg6 harg6 arg7 harg7) K } := by
  refine ⟨?_, fun E K => ?run⟩
  case run =>
    simp only [cc0__dihedral_kernel_eq_skeleton]; unfold cc0__dihedral_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2
    obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.RunBK.lean ====
/-
  The body at a step of a row that is neither its first nor its last: the four point blocks are loaded, the per-lane
  loss computed, masked past the last edge and summed over the lanes, and the sum added into the accumulator, which is
  stored back whole; the output block's buffer is not touched.  The run is found by symbolic execution of the printed
  body; what the accumulator ends with is recorded as the list of pieces the stores wrote.
-/
import proofs.«401790_j62929860821309_3_alg».proof.Proof.RunAK

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- On whole staging memrefs holding x0..x3 and the accumulator holding xs0, the body runs to the continuation with the
    inputs as they were and the accumulator with its pieces written. -/
noncomputable def kernelRun0_B (c : Dev nD) (i : grid0.Coords) (arg2 : Memref sig .tc .vmem S3x65536 .f32) (harg2 : arg2.IsWhole) (arg3 : Memref sig .tc .vmem S3x65536 .f32) (harg3 : arg3.IsWhole) (arg4 : Memref sig .tc .vmem S3x65536 .f32) (harg4 : arg4.IsWhole) (arg5 : Memref sig .tc .vmem S3x65536 .f32) (harg5 : arg5.IsWhole) (arg6 : Memref sig .tc .vmem S1x8x128 .f32) (harg6 : arg6.IsWhole) (arg7 : Memref sig .tc .vmem S1x1 .f32) (harg7 : arg7.IsWhole) (hc0 : ¬cond0_0 i) (hc1 : ¬cond0_1 i)
    (x0 x1 x2 x3 : Vec F S3x65536 .f32) (xs0 : Vec F S1x1 .f32) :
    { LS0 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg7.view.loc (c : Thread nD τ) ↦[arg7.view.set]{fullShare} arg7.view.writes (Elt F) f LS0)) -∗ K ⟨⟩))
          ⊢ wp frame (wpE (defs₀ (F := F)) Variants.none c none) E (cc0__dihedral_kernel i arg2 harg2 arg3 harg3 arg4 harg4 arg5 harg5 arg6 harg6 arg7 harg7) K } := by
  refine ⟨?_, fun E K => ?run⟩
  case run =>
    simp only [cc0__dihedral_kernel_eq_skeleton]; unfold cc0__dihedral_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2
    obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.RunCK.lean ====
/-
  The body at the last step of a row: the step's masked lane sum is added into the accumulator as at any other step, and
  then the accumulator's one entry is read back, broadcast over an [8, 128] tile and stored whole into the output
  block's buffer, which may hold anything on entry.
-/
import proofs.«401790_j62929860821309_3_alg».proof.Proof.RunBK

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- On whole staging memrefs holding x0..x3, the output's buffer holding anything and the accumulator holding xs0, the
    body runs to the continuation with the inputs as they were and the output's buffer and the accumulator with their
    pieces written. -/
noncomputable def kernelRun0_C (c : Dev nD) (i : grid0.Coords) (arg2 : Memref sig .tc .vmem S3x65536 .f32) (harg2 : arg2.IsWhole) (arg3 : Memref sig .tc .vmem S3x65536 .f32) (harg3 : arg3.IsWhole) (arg4 : Memref sig .tc .vmem S3x65536 .f32) (harg4 : arg4.IsWhole) (arg5 : Memref sig .tc .vmem S3x65536 .f32) (harg5 : arg5.IsWhole) (arg6 : Memref sig .tc .vmem S1x8x128 .f32) (harg6 : arg6.IsWhole) (arg7 : Memref sig .tc .vmem S1x1 .f32) (harg7 : arg7.IsWhole) (hc0 : ¬cond0_0 i) (hc1 : cond0_1 i)
    (x0 x1 x2 x3 : Vec F S3x65536 .f32) (xs0 : Vec F S1x1 .f32) :
    Σ' (L4 : List (View.Piece (Elt F) S1x8x128 .f32)), { LS0 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)) -∗ K ⟨⟩))
          ⊢ wp frame (wpE (defs₀ (F := F)) Variants.none c none) E (cc0__dihedral_kernel i arg2 harg2 arg3 harg3 arg4 harg4 arg5 harg5 arg6 harg6 arg7 harg7) K } := by
  refine ⟨?_, ?_, fun E K => ?run⟩
  case run =>
    simp only [cc0__dihedral_kernel_eq_skeleton]; unfold cc0__dihedral_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2
    obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Hand

end
-- ==== Proof.FrameFK.lean ====
/-
  The frame of the kernel program at any float instance: every weakly fair execution of @main terminates without a
  fault and leaves the five argument arrays as they were.  Nothing is said of what the kernel computes: the output
  window's contents are not named, and the accumulator is held at some contents between the points.  At each grid point
  the four point blocks arrive in their staging buffers (the last block of each array cut at the array's end, the rest of
  its buffer holding words nothing names), the body runs in the case its two conditions select, and hands the four
  buffers back as it found them.
-/
import proofs.«401790_j62929860821309_3_alg».proof.Proof.RunCK

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines before the region write no argument -/

theorem V_main_arg0 (c : Dev nD) : V m c main_arg0 = m ((c : Thread nD τ).loc main_arg0) := by
  dsimp only [V, V0]
  simp only [hostOps0, hostOps0_1, hostOps0_2, List.flatten_cons, List.flatten_nil, List.append_nil, List.cons_append, List.nil_append]
  after_results_simp <;> rfl
theorem V_main_arg1 (c : Dev nD) : V m c main_arg1 = m ((c : Thread nD τ).loc main_arg1) := by
  dsimp only [V, V0]
  simp only [hostOps0, hostOps0_1, hostOps0_2, List.flatten_cons, List.flatten_nil, List.append_nil, List.cons_append, List.nil_append]
  after_results_simp <;> rfl
theorem V_main_arg2 (c : Dev nD) : V m c main_arg2 = m ((c : Thread nD τ).loc main_arg2) := by
  dsimp only [V, V0]
  simp only [hostOps0, hostOps0_1, hostOps0_2, List.flatten_cons, List.flatten_nil, List.append_nil, List.cons_append, List.nil_append]
  after_results_simp <;> rfl
theorem V_main_arg3 (c : Dev nD) : V m c main_arg3 = m ((c : Thread nD τ).loc main_arg3) := by
  dsimp only [V, V0]
  simp only [hostOps0, hostOps0_1, hostOps0_2, List.flatten_cons, List.flatten_nil, List.append_nil, List.cons_append, List.nil_append]
  after_results_simp <;> rfl
theorem V_main_arg4 (c : Dev nD) : V m c main_arg4 = m ((c : Thread nD τ).loc main_arg4) := by
  dsimp only [V, V0]
  simp only [hostOps0, hostOps0_1, hostOps0_2, List.flatten_cons, List.flatten_nil, List.append_nil, List.cons_append, List.nil_append]
  after_results_simp <;> rfl

/-! ## The proof data -/

/-- The output window is forgotten: nothing of what the kernel leaves in it is named. -/
def forgets0 : Fin 5 → Bool := fun w => w.val == 4

/-- The proof data of the one pipeline on core c: the arrays as the region finds them; after the body each input's
    buffer at its block (past the array's end: the zero word, which nothing reads); the output's unnamed; the class's
    invariant (the accumulator at some contents, the generator register); nothing owed; full shares. -/
def datsF (_ : Fin 1) (c : Dev nD) : Dat τ (Elt F) Unit ℕ (UR sig nD τ) ℕ cfg0 c where
  A w := V m c (Pipeline.arrRef spec0 w)
  after w t := match w with
    | ⟨0, _⟩ => win0_0.fill (grid0.coords t) (fun _ => Scalar.ofBits .f32 0#32) (iblk m c 0 t)
    | ⟨1, _⟩ => win0_1.fill (grid0.coords t) (fun _ => Scalar.ofBits .f32 0#32) (iblk m c 1 t)
    | ⟨2, _⟩ => win0_2.fill (grid0.coords t) (fun _ => Scalar.ofBits .f32 0#32) (iblk m c 2 t)
    | ⟨3, _⟩ => win0_3.fill (grid0.coords t) (fun _ => Scalar.ofBits .f32 0#32) (iblk m c 3 t)
    | ⟨4, h⟩ => Pipeline.Dat.unnamed (cfg := cfg0) ⟨4, h⟩ t
  Φ _ := Pipeline.ΦA spec0 c
  q _ := fullShare
  owed _ := 0

theorem AF_eq (c : Dev nD) (w : Fin cfg0.W) : (datsF m 0 c).A w = V m c (Pipeline.arrRef spec0 w) := by
  dsimp only [datsF]

theorem beforeF_0 (c : Dev nD) (t : Fin cfg0.N) (d) : (datsF m 0 c).before 0 t d = win0_0.fill (grid0.coords t) d (iblk m c 0 t) :=
  before_in_of m (datsF m 0 c) 0 (AF_eq m c 0) fetch0_0 t d
theorem beforeF_1 (c : Dev nD) (t : Fin cfg0.N) (d) : (datsF m 0 c).before 1 t d = win0_1.fill (grid0.coords t) d (iblk m c 1 t) :=
  before_in_of m (datsF m 0 c) 1 (AF_eq m c 1) fetch0_1 t d
theorem beforeF_2 (c : Dev nD) (t : Fin cfg0.N) (d) : (datsF m 0 c).before 2 t d = win0_2.fill (grid0.coords t) d (iblk m c 2 t) :=
  before_in_of m (datsF m 0 c) 2 (AF_eq m c 2) fetch0_2 t d
theorem beforeF_3 (c : Dev nD) (t : Fin cfg0.N) (d) : (datsF m 0 c).before 3 t d = win0_3.fill (grid0.coords t) d (iblk m c 3 t) :=
  before_in_of m (datsF m 0 c) 3 (AF_eq m c 3) fetch0_3 t d

/-- What an input's buffer is handed back at: on the part inside the array its block. -/
theorem cutF_0 (c : Dev nD) (t : Fin cfg0.N) : win0_0.cut (grid0.coords t) ((datsF m 0 c).after 0 t) = iblk m c 0 t := by
  dsimp only [datsF]; exact win0_0.cut_fill _ _ _
theorem cutF_1 (c : Dev nD) (t : Fin cfg0.N) : win0_1.cut (grid0.coords t) ((datsF m 0 c).after 1 t) = iblk m c 1 t := by
  dsimp only [datsF]; exact win0_1.cut_fill _ _ _
theorem cutF_2 (c : Dev nD) (t : Fin cfg0.N) : win0_2.cut (grid0.coords t) ((datsF m 0 c).after 2 t) = iblk m c 2 t := by
  dsimp only [datsF]; exact win0_2.cut_fill _ _ _
theorem cutF_3 (c : Dev nD) (t : Fin cfg0.N) : win0_3.cut (grid0.coords t) ((datsF m 0 c).after 3 t) = iblk m c 3 t := by
  dsimp only [datsF]; exact win0_3.cut_fill _ _ _

theorem leaveF_0 (c : Dev nD) (t : Fin cfg0.N) (d : S3x65536.Idx → Elt F .f32) :
    win0_0.fill (grid0.coords t) d (win0_0.cut (grid0.coords t) ((datsF m 0 c).after 0 t)) = win0_0.fill (grid0.coords t) d (iblk m c 0 t) :=
  congrArg (win0_0.fill (grid0.coords t) d) (cutF_0 m c t)
theorem leaveF_1 (c : Dev nD) (t : Fin cfg0.N) (d : S3x65536.Idx → Elt F .f32) :
    win0_1.fill (grid0.coords t) d (win0_1.cut (grid0.coords t) ((datsF m 0 c).after 1 t)) = win0_1.fill (grid0.coords t) d (iblk m c 1 t) :=
  congrArg (win0_1.fill (grid0.coords t) d) (cutF_1 m c t)
theorem leaveF_2 (c : Dev nD) (t : Fin cfg0.N) (d : S3x65536.Idx → Elt F .f32) :
    win0_2.fill (grid0.coords t) d (win0_2.cut (grid0.coords t) ((datsF m 0 c).after 2 t)) = win0_2.fill (grid0.coords t) d (iblk m c 2 t) :=
  congrArg (win0_2.fill (grid0.coords t) d) (cutF_2 m c t)
theorem leaveF_3 (c : Dev nD) (t : Fin cfg0.N) (d : S3x65536.Idx → Elt F .f32) :
    win0_3.fill (grid0.coords t) d (win0_3.cut (grid0.coords t) ((datsF m 0 c).after 3 t)) = win0_3.fill (grid0.coords t) d (iblk m c 3 t) :=
  congrArg (win0_3.fill (grid0.coords t) d) (cutF_3 m c t)

/-! ## The body obligation -/

def bodyPreF (c : Dev nD) (t : Fin cfg0.N) : sProp 𝕄 :=
  iprop((datsF m 0 c).Φ t.castSucc ∗ (datsF m 0 c).owesAt () t.castSucc
    ∗ (∃ d, owns (c : Thread nD τ) (ms0_0 t) fullShare ((datsF m 0 c).before 0 t d))
    ∗ (∃ d, owns (c : Thread nD τ) (ms0_1 t) fullShare ((datsF m 0 c).before 1 t d))
    ∗ (∃ d, owns (c : Thread nD τ) (ms0_2 t) fullShare ((datsF m 0 c).before 2 t d))
    ∗ (∃ d, owns (c : Thread nD τ) (ms0_3 t) fullShare ((datsF m 0 c).before 3 t d))
    ∗ (∃ X, owns (c : Thread nD τ) (ms0_4 t) fullShare X))

def bodyPostF (c : Dev nD) (t : Fin cfg0.N) : sProp 𝕄 :=
  iprop((datsF m 0 c).Φ t.succ ∗ (datsF m 0 c).owesAt () t.succ
    ∗ (∃ d, owns (c : Thread nD τ) (ms0_0 t) fullShare (win0_0.fill (grid0.coords t) d (win0_0.cut (grid0.coords t) ((datsF m 0 c).after 0 t))))
    ∗ (∃ d, owns (c : Thread nD τ) (ms0_1 t) fullShare (win0_1.fill (grid0.coords t) d (win0_1.cut (grid0.coords t) ((datsF m 0 c).after 1 t))))
    ∗ (∃ d, owns (c : Thread nD τ) (ms0_2 t) fullShare (win0_2.fill (grid0.coords t) d (win0_2.cut (grid0.coords t) ((datsF m 0 c).after 2 t))))
    ∗ (∃ d, owns (c : Thread nD τ) (ms0_3 t) fullShare (win0_3.fill (grid0.coords t) d (win0_3.cut (grid0.coords t) ((datsF m 0 c).after 3 t))))
    ∗ (∃ X, owns (c : Thread nD τ) (ms0_4 t) fullShare X))

/-- A buffer some stores wrote is owned at what it then reads. -/
theorem owns_of_written (c : Dev nD) {sh : Shape} (mr : Memref sig .tc .vmem sh .f32) (g : Buf (Elt F) (mr.view.loc (c : Thread nD τ))) :
    (mr.view.loc (c : Thread nD τ) ↦[mr.view.set]{fullShare} g : sProp 𝕄) ⊢ iprop(∃ d, owns (c : Thread nD τ) mr fullShare d) := by
  iintro H; iexists (mr.view.read (Elt F) g); unfold owns; iexists g; isplitr
  · ipureintro; rfl
  iexact H

set_option maxHeartbeats 4000000 in
/-- The body at any point, in the case the point's position in its row selects. -/
theorem sound_bodyF (c : Dev nD) (t : Fin cfg0.N) :
    bodyPreF m c t ⊢ wp frame (wpE (defs₀ (F := F)) Variants.none c none) Set.univ (bodyAt0 t) (fun _ => bodyPostF m c t) := by
  unfold bodyPreF bodyPostF bodyAt0
  simp only [beforeF_0, beforeF_1, beforeF_2, beforeF_3]
  rw [show (datsF m 0 c).owesAt () t.succ = (datsF m 0 c).owesAt () t.castSucc from rfl,
    show (datsF m 0 c).Φ t.succ = Pipeline.ΦA spec0 c from rfl, show (datsF m 0 c).Φ t.castSucc = Pipeline.ΦA spec0 c from rfl, PhiA0_eq]
  by_cases h0 : t.val % 23 = 0
  · have h1 : ¬ t.val % 23 = 22 := by omega
    iintro ⟨⟨HS0, Hg⟩, Ho, ⟨%d0, H0⟩, ⟨%d1, H1⟩, ⟨%d2, H2⟩, ⟨%d3, H3⟩, H4⟩
    iapply ((kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (win0_0.fill (grid0.coords t) d0 (iblk m c 0 t)) (win0_1.fill (grid0.coords t) d1 (iblk m c 1 t)) (win0_2.fill (grid0.coords t) d2 (iblk m c 2 t)) (win0_3.fill (grid0.coords t) d3 (iblk m c 3 t))).2 Set.univ _)
    isplitl [H0]; · iexact H0
    isplitl [H1]; · iexact H1
    isplitl [H2]; · iexact H2
    isplitl [H3]; · iexact H3
    isplitl [HS0]; · iexact HS0
    iintro ⟨H0, H1, H2, H3, ⟨%es0, HS0⟩⟩
    isplitl [HS0 Hg]
    · isplitl [HS0]; · iapply (owns_of_written (F := F) c scM0_0 _); iexact HS0
      iexact Hg
    isplitl [Ho]; · iexact Ho
    isplitl [H0]; · iexists d0; rw [leaveF_0 m c t d0]; iexact H0
    isplitl [H1]; · iexists d1; rw [leaveF_1 m c t d1]; iexact H1
    isplitl [H2]; · iexists d2; rw [leaveF_2 m c t d2]; iexact H2
    isplitl [H3]; · iexists d3; rw [leaveF_3 m c t d3]; iexact H3
    iexact H4
  · by_cases h1 : t.val % 23 = 22
    · iintro ⟨⟨⟨%ds, HS0⟩, Hg⟩, Ho, ⟨%d0, H0⟩, ⟨%d1, H1⟩, ⟨%d2, H2⟩, ⟨%d3, H3⟩, H4⟩
      iapply ((kernelRun0_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (win0_0.fill (grid0.coords t) d0 (iblk m c 0 t)) (win0_1.fill (grid0.coords t) d1 (iblk m c 1 t)) (win0_2.fill (grid0.coords t) d2 (iblk m c 2 t)) (win0_3.fill (grid0.coords t) d3 (iblk m c 3 t)) ds).2.2 Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, ⟨%e4, H4⟩, ⟨%es0, HS0⟩⟩
      isplitl [HS0 Hg]
      · isplitl [HS0]; · iapply (owns_of_written (F := F) c scM0_0 _); iexact HS0
        iexact Hg
      isplitl [Ho]; · iexact Ho
      isplitl [H0]; · iexists d0; rw [leaveF_0 m c t d0]; iexact H0
      isplitl [H1]; · iexists d1; rw [leaveF_1 m c t d1]; iexact H1
      isplitl [H2]; · iexists d2; rw [leaveF_2 m c t d2]; iexact H2
      isplitl [H3]; · iexists d3; rw [leaveF_3 m c t d3]; iexact H3
      iapply (owns_of_written (F := F) c (ms0_4 t) _); iexact H4
    · iintro ⟨⟨⟨%ds, HS0⟩, Hg⟩, Ho, ⟨%d0, H0⟩, ⟨%d1, H1⟩, ⟨%d2, H2⟩, ⟨%d3, H3⟩, H4⟩
      iapply ((kernelRun0_B c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (win0_0.fill (grid0.coords t) d0 (iblk m c 0 t)) (win0_1.fill (grid0.coords t) d1 (iblk m c 1 t)) (win0_2.fill (grid0.coords t) d2 (iblk m c 2 t)) (win0_3.fill (grid0.coords t) d3 (iblk m c 3 t)) ds).2 Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg]
      · isplitl [HS0]; · iapply (owns_of_written (F := F) c scM0_0 _); iexact HS0
        iexact Hg
      isplitl [Ho]; · iexact Ho
      isplitl [H0]; · iexists d0; rw [leaveF_0 m c t d0]; iexact H0
      isplitl [H1]; · iexists d1; rw [leaveF_1 m c t d1]; iexact H1
      isplitl [H2]; · iexists d2; rw [leaveF_2 m c t d2]; iexact H2
      isplitl [H3]; · iexists d3; rw [leaveF_3 m c t d3]; iexact H3
      iexact H4

/-- The library's body obligation (each input stated on the part inside its array, the output forgotten). -/
theorem body_obligationF (c : Dev nD) : BodyObligationLoose (datsF (F := F) m 0 c) (defs₀ (F := F)) Variants.none () Set.univ forgets0 := fun t => by
  rw [bigSep_W0, bigSep_W0]
  exact sound_bodyF m c t

/-! ## The run and the frame -/

/-- The buffers the lines after the region write. -/
def T0 : Finset (Ref sig .tc) := {main_v8, main_v9, main_cst, main_v10, main_v11}

theorem sfx_T : ∀ ops ∈ ([hostOps1] : List (List (HloOp τ sig (Elt F)))), ∀ op ∈ ops, ∀ b : Ref sig .tc,
    Proc.devRef .tc b ∈ op.writes → b ∈ T0 := by
  intro ops hops op hop b hb
  simp only [List.mem_cons, List.mem_nil_iff, or_false] at hops
  rcases hops with rfl
  simp only [hostOps1, List.mem_cons, List.mem_nil_iff, or_false] at hop
  rcases hop with rfl | rfl | rfl | rfl | rfl
  all_goals
    simp only [StableHlo.nullary_writes, StableHlo.unary_writes, StableHlo.binary_writes, StableHlo.reshape_writes, Finset.mem_singleton] at hb
    obtain rfl := Proc.devRef_injective _ hb
    decide

set_option backward.isDefEq.respectTransparency.types false in
/-- Every weakly fair execution of @main terminates; the pipeline's input arrays end as the region found them, and
    every other unscoped buffer the later lines do not write at its contents at the region's entry. -/
theorem run_mainF : θ_run defs (onTc (τ := τ) (main (F := F))) (s₀ m ρ)
    (Pipeline.RDat.FramePostR (cfgs 0) (fun c => (datsF m 0 c).toRForget forgets0) T0 (V m)) :=
  Pipeline.RDat.θ_run_frame_around_T cfgs (0 : Fin 1) launch0 defs₀ Variants.none (fun c => (datsF m 0 c).toRForget forgets0) T0 m ρ main
    (hbody := fun c => (body_obligationF m c).toRForget) (hshare := fun c => ((datsF m 0 c).toRForget forgets0).share_full fun _ => rfl)
    (howed := fun _ _ => rfl) (V₀ := V0 m) (opss := [hostOps1]) (hsub := sfx_sub) (hfresh := sfx_fresh) (hkeep := sfx_keeps) (hT := sfx_T)
    (hmain := hmain m Variants.none) (hA := AF_eq m) (hΦ := fun _ _ => rfl)

/-- An argument array is unscoped, is no window's array, and is not written after the region. -/
theorem arg_mem (b : Ref sig .tc) (hs : b.isScoped = false) (ha : ∀ w, (spec0 w).arr.view.ref ≠ b) (hT : b ∉ T0) :
    b ∈ Pipeline.restRefs sig spec0 \ T0 :=
  Finset.mem_sdiff.mpr ⟨Pipeline.mem_restRefs_of b hs ha, hT⟩

/-- THE FRAME: @main terminates and leaves its five arguments unchanged. -/
theorem frameF : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
    ((h c).2 main_arg0 (arg_mem main_arg0 rfl (by decide) (by decide))).trans (V_main_arg0 m c),
    ((h c).2 main_arg1 (arg_mem main_arg1 rfl (by decide) (by decide))).trans (V_main_arg1 m c),
    ((h c).2 main_arg2 (arg_mem main_arg2 rfl (by decide) (by decide))).trans (V_main_arg2 m c),
    ((h c).2 main_arg3 (arg_mem main_arg3 rfl (by decide) (by decide))).trans (V_main_arg3 m c),
    ((h c).2 main_arg4 (arg_mem main_arg4 rfl (by decide) (by decide))).trans (V_main_arg4 m c)⟩) (run_mainF m ρ)

end Cert.Kernel.Hand

end
-- ==== Proof.KitI.lean ====
/-
  The frame of the kernel program, first part: @main around its one region (the host lines before it give the region
  its four point arrays, the lines after it add the rows' sums), the blocks the pipeline stages, the two conditions
  the body branches on decided over the 2 x 23 grid, where the output window is idle, and the memrefs and views the
  body's runs are stated over.
-/
import proofs.«401790_j62929860821309_3_alg».proof.Proof.Gen.KernelIdeal.Launch
import proofs.«401790_j62929860821309_3_alg».proof.Proof.Gen.KernelIdeal.Skeleton
import proofs.«401790_j62929860821309_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region

@main is: the host lines that build the four point arrays (a transpose, a concatenation, the take, four
slices), the region, and five host lines that add the two rows' sums. -/

/-- Core c's buffer contents when the region is entered: the launch memory after the host lines before it. -/
abbrev V0 (c : Dev nD) : Valuation τ sig (Elt F) :=
  StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

/-- No host line allocates. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the later lines, entered at the contents `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    ⟨hostOps0_sub, hostOps0_1_sub, hostOps0_2_sub⟩ ⟨hostOps0_fresh, hostOps0_1_fresh, hostOps0_2_fresh⟩ main_chain

/-- The lines after the region touch unscoped TensorCore buffers only, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and write no array of the pipeline (each writes its own result buffer). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-! ## The windows' blocks -/

/-- Window w's block at point t, read off its array as the region finds it: the part inside the array (the last
    block of the four point arrays runs past their 3,000,000 columns and is cut there). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window is fetched at every point, so its current staging buffer holds its block on the part inside the
    array and, past the array's end, words nothing names (`d`). -/
theorem before_in_of {c : Dev nD} (dat : Dat τ (Elt F) Unit ℕ (UR sig nD τ) ℕ cfg0 c) (w : Fin cfg0.W)
    (hA : dat.A w = V m c (Pipeline.arrRef spec0 w)) (hf : ∀ t, (cfg0.win w).fetch t = true) (t : Fin cfg0.N) (d) :
    dat.before w t d = (cfg0.win w).fill (cfg0.grid.coords t) d (iblk m c w t) := by
  unfold Dat.before; rw [if_pos (hf t)]; unfold Dat.fetched Dat.blockOf iblk; rw [hA]

/-! ## The body's branch conditions -/

/-- The accumulator is reset at the first step of a row: `pl.when(i == 0)`. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 23 = 0 :=
  (by decide +kernel : ∀ t : Fin grid0.N, cond0_0 (grid0.coords t) ↔ t.val % 23 = 0)

/-- The output block is stored at the last step of a row: `pl.when(i == 22)`. -/
abbrev cond0_1 (i : grid0.Coords) : Prop := k0_cond2 i = 1#1
theorem hcond0_1 : ∀ t : Fin cfg0.N, cond0_1 (grid0.coords t) ↔ t.val % 23 = 22 :=
  (by decide +kernel : ∀ t : Fin grid0.N, cond0_1 (grid0.coords t) ↔ t.val % 23 = 22)

/-! ## Where the windows are idle -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
/-- Away from a row's last step the body stores nothing into the output's buffer, and the pipeline does not write
    it back there; -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- at a row's last step it stores the block. -/
theorem liveAt0_4 : ∀ t : Fin cfg0.N, cond0_1 (grid0.coords t) → cfg0.idle 4 (grid0.coords t) = false := by decide +kernel

/-! ## The memrefs the body is called with -/

abbrev ms0_0 (t : Fin cfg0.N) : Memref sig .tc .vmem S3x65536 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3x65536 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3x65536 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3x65536 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x8x128 .f32 := win0_4.stage (cfg0.slots t 4)
abbrev hs0_4 (t : Fin cfg0.N) : (ms0_4 t).IsWhole := hstage0_4 ((cfg0.slots t 4).cast nbuf0_4)
/-- The accumulator: a whole scoped [1,1] buffer of the kernel's own. -/
abbrev scM0_0 : Memref sig .tc .vmem S1x1 .f32 := Memref.whole cc0_scratch0
/-- Views through which the output block's and the accumulator's contents are stated. -/
abbrev VO0_4 : View sig .tc .vmem S1x8x128 .f32 := (Memref.whole cc0_stg4_0 : Memref sig .tc .vmem S1x8x128 .f32).view
abbrev VS0_0 : View sig .tc .vmem S1x1 .f32 := scM0_0.view

/-- What the region's invariant hands the body: the accumulator at some contents and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Hand

end
-- ==== Proof.RunAI.lean ====
/-
  The body at the first step of a row: the accumulator is first overwritten with zero, then the step proceeds as at any
  other: the four point blocks are loaded, the masked lane sum of the per-lane loss is added into the accumulator and
  stored back.  The accumulator may hold anything on entry; the output block's buffer is not touched.
-/
import proofs.«401790_j62929860821309_3_alg».proof.Proof.KitI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- On whole staging memrefs holding x0..x3 and the accumulator holding anything, the body runs to the continuation with
    the inputs as they were and the accumulator with its pieces (the reset, then the update) written. -/
noncomputable def kernelRun0_A (c : Dev nD) (i : grid0.Coords) (arg2 : Memref sig .tc .vmem S3x65536 .f32) (harg2 : arg2.IsWhole) (arg3 : Memref sig .tc .vmem S3x65536 .f32) (harg3 : arg3.IsWhole) (arg4 : Memref sig .tc .vmem S3x65536 .f32) (harg4 : arg4.IsWhole) (arg5 : Memref sig .tc .vmem S3x65536 .f32) (harg5 : arg5.IsWhole) (arg6 : Memref sig .tc .vmem S1x8x128 .f32) (harg6 : arg6.IsWhole) (arg7 : Memref sig .tc .vmem S1x1 .f32) (harg7 : arg7.IsWhole) (hc0 : cond0_0 i) (hc1 : ¬cond0_1 i)
    (x0 x1 x2 x3 : Vec F S3x65536 .f32) :
    { LS0 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg7.view.loc (c : Thread nD τ) ↦[arg7.view.set]{fullShare} arg7.view.writes (Elt F) f LS0)) -∗ K ⟨⟩))
          ⊢ wp frame (wpE (defs₀ (F := F)) Variants.none c none) E (cc0__dihedral_kernel i arg2 harg2 arg3 harg3 arg4 harg4 arg5 harg5 arg6 harg6 arg7 harg7) K } := by
  refine ⟨?_, fun E K => ?run⟩
  case run =>
    simp only [cc0__dihedral_kernel_eq_skeleton]; unfold cc0__dihedral_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2
    obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.RunBI.lean ====
/-
  The body at a step of a row that is neither its first nor its last: the four point blocks are loaded, the per-lane
  loss computed, masked past the last edge and summed over the lanes, and the sum added into the accumulator, which is
  stored back whole; the output block's buffer is not touched.  The run is found by symbolic execution of the printed
  body; what the accumulator ends with is recorded as the list of pieces the stores wrote.
-/
import proofs.«401790_j62929860821309_3_alg».proof.Proof.RunAI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- On whole staging memrefs holding x0..x3 and the accumulator holding xs0, the body runs to the continuation with the
    inputs as they were and the accumulator with its pieces written. -/
noncomputable def kernelRun0_B (c : Dev nD) (i : grid0.Coords) (arg2 : Memref sig .tc .vmem S3x65536 .f32) (harg2 : arg2.IsWhole) (arg3 : Memref sig .tc .vmem S3x65536 .f32) (harg3 : arg3.IsWhole) (arg4 : Memref sig .tc .vmem S3x65536 .f32) (harg4 : arg4.IsWhole) (arg5 : Memref sig .tc .vmem S3x65536 .f32) (harg5 : arg5.IsWhole) (arg6 : Memref sig .tc .vmem S1x8x128 .f32) (harg6 : arg6.IsWhole) (arg7 : Memref sig .tc .vmem S1x1 .f32) (harg7 : arg7.IsWhole) (hc0 : ¬cond0_0 i) (hc1 : ¬cond0_1 i)
    (x0 x1 x2 x3 : Vec F S3x65536 .f32) (xs0 : Vec F S1x1 .f32) :
    { LS0 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg7.view.loc (c : Thread nD τ) ↦[arg7.view.set]{fullShare} arg7.view.writes (Elt F) f LS0)) -∗ K ⟨⟩))
          ⊢ wp frame (wpE (defs₀ (F := F)) Variants.none c none) E (cc0__dihedral_kernel i arg2 harg2 arg3 harg3 arg4 harg4 arg5 harg5 arg6 harg6 arg7 harg7) K } := by
  refine ⟨?_, fun E K => ?run⟩
  case run =>
    simp only [cc0__dihedral_kernel_eq_skeleton]; unfold cc0__dihedral_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2
    obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.RunCI.lean ====
/-
  The body at the last step of a row: the step's masked lane sum is added into the accumulator as at any other step, and
  then the accumulator's one entry is read back, broadcast over an [8, 128] tile and stored whole into the output
  block's buffer, which may hold anything on entry.
-/
import proofs.«401790_j62929860821309_3_alg».proof.Proof.RunBI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- On whole staging memrefs holding x0..x3, the output's buffer holding anything and the accumulator holding xs0, the
    body runs to the continuation with the inputs as they were and the output's buffer and the accumulator with their
    pieces written. -/
noncomputable def kernelRun0_C (c : Dev nD) (i : grid0.Coords) (arg2 : Memref sig .tc .vmem S3x65536 .f32) (harg2 : arg2.IsWhole) (arg3 : Memref sig .tc .vmem S3x65536 .f32) (harg3 : arg3.IsWhole) (arg4 : Memref sig .tc .vmem S3x65536 .f32) (harg4 : arg4.IsWhole) (arg5 : Memref sig .tc .vmem S3x65536 .f32) (harg5 : arg5.IsWhole) (arg6 : Memref sig .tc .vmem S1x8x128 .f32) (harg6 : arg6.IsWhole) (arg7 : Memref sig .tc .vmem S1x1 .f32) (harg7 : arg7.IsWhole) (hc0 : ¬cond0_0 i) (hc1 : cond0_1 i)
    (x0 x1 x2 x3 : Vec F S3x65536 .f32) (xs0 : Vec F S1x1 .f32) :
    Σ' (L4 : List (View.Piece (Elt F) S1x8x128 .f32)), { LS0 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)) -∗ K ⟨⟩))
          ⊢ wp frame (wpE (defs₀ (F := F)) Variants.none c none) E (cc0__dihedral_kernel i arg2 harg2 arg3 harg3 arg4 harg4 arg5 harg5 arg6 harg6 arg7 harg7) K } := by
  refine ⟨?_, ?_, fun E K => ?run⟩
  case run =>
    simp only [cc0__dihedral_kernel_eq_skeleton]; unfold cc0__dihedral_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2
    obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Hand

end
-- ==== Proof.FrameFI.lean ====
/-
  The frame of the kernel program at any float instance: every weakly fair execution of @main terminates without a
  fault and leaves the five argument arrays as they were.  Nothing is said of what the kernel computes: the output
  window's contents are not named, and the accumulator is held at some contents between the points.  At each grid point
  the four point blocks arrive in their staging buffers (the last block of each array cut at the array's end, the rest of
  its buffer holding words nothing names), the body runs in the case its two conditions select, and hands the four
  buffers back as it found them.
-/
import proofs.«401790_j62929860821309_3_alg».proof.Proof.RunCI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines before the region write no argument -/

theorem V_main_arg0 (c : Dev nD) : V m c main_arg0 = m ((c : Thread nD τ).loc main_arg0) := by
  dsimp only [V, V0]
  simp only [hostOps0, hostOps0_1, hostOps0_2, List.flatten_cons, List.flatten_nil, List.append_nil, List.cons_append, List.nil_append]
  after_results_simp <;> rfl
theorem V_main_arg1 (c : Dev nD) : V m c main_arg1 = m ((c : Thread nD τ).loc main_arg1) := by
  dsimp only [V, V0]
  simp only [hostOps0, hostOps0_1, hostOps0_2, List.flatten_cons, List.flatten_nil, List.append_nil, List.cons_append, List.nil_append]
  after_results_simp <;> rfl
theorem V_main_arg2 (c : Dev nD) : V m c main_arg2 = m ((c : Thread nD τ).loc main_arg2) := by
  dsimp only [V, V0]
  simp only [hostOps0, hostOps0_1, hostOps0_2, List.flatten_cons, List.flatten_nil, List.append_nil, List.cons_append, List.nil_append]
  after_results_simp <;> rfl
theorem V_main_arg3 (c : Dev nD) : V m c main_arg3 = m ((c : Thread nD τ).loc main_arg3) := by
  dsimp only [V, V0]
  simp only [hostOps0, hostOps0_1, hostOps0_2, List.flatten_cons, List.flatten_nil, List.append_nil, List.cons_append, List.nil_append]
  after_results_simp <;> rfl
theorem V_main_arg4 (c : Dev nD) : V m c main_arg4 = m ((c : Thread nD τ).loc main_arg4) := by
  dsimp only [V, V0]
  simp only [hostOps0, hostOps0_1, hostOps0_2, List.flatten_cons, List.flatten_nil, List.append_nil, List.cons_append, List.nil_append]
  after_results_simp <;> rfl

/-! ## The proof data -/

/-- The output window is forgotten: nothing of what the kernel leaves in it is named. -/
def forgets0 : Fin 5 → Bool := fun w => w.val == 4

/-- The proof data of the one pipeline on core c: the arrays as the region finds them; after the body each input's
    buffer at its block (past the array's end: the zero word, which nothing reads); the output's unnamed; the class's
    invariant (the accumulator at some contents, the generator register); nothing owed; full shares. -/
def datsF (_ : Fin 1) (c : Dev nD) : Dat τ (Elt F) Unit ℕ (UR sig nD τ) ℕ cfg0 c where
  A w := V m c (Pipeline.arrRef spec0 w)
  after w t := match w with
    | ⟨0, _⟩ => win0_0.fill (grid0.coords t) (fun _ => Scalar.ofBits .f32 0#32) (iblk m c 0 t)
    | ⟨1, _⟩ => win0_1.fill (grid0.coords t) (fun _ => Scalar.ofBits .f32 0#32) (iblk m c 1 t)
    | ⟨2, _⟩ => win0_2.fill (grid0.coords t) (fun _ => Scalar.ofBits .f32 0#32) (iblk m c 2 t)
    | ⟨3, _⟩ => win0_3.fill (grid0.coords t) (fun _ => Scalar.ofBits .f32 0#32) (iblk m c 3 t)
    | ⟨4, h⟩ => Pipeline.Dat.unnamed (cfg := cfg0) ⟨4, h⟩ t
  Φ _ := Pipeline.ΦA spec0 c
  q _ := fullShare
  owed _ := 0

theorem AF_eq (c : Dev nD) (w : Fin cfg0.W) : (datsF m 0 c).A w = V m c (Pipeline.arrRef spec0 w) := by
  dsimp only [datsF]

theorem beforeF_0 (c : Dev nD) (t : Fin cfg0.N) (d) : (datsF m 0 c).before 0 t d = win0_0.fill (grid0.coords t) d (iblk m c 0 t) :=
  before_in_of m (datsF m 0 c) 0 (AF_eq m c 0) fetch0_0 t d
theorem beforeF_1 (c : Dev nD) (t : Fin cfg0.N) (d) : (datsF m 0 c).before 1 t d = win0_1.fill (grid0.coords t) d (iblk m c 1 t) :=
  before_in_of m (datsF m 0 c) 1 (AF_eq m c 1) fetch0_1 t d
theorem beforeF_2 (c : Dev nD) (t : Fin cfg0.N) (d) : (datsF m 0 c).before 2 t d = win0_2.fill (grid0.coords t) d (iblk m c 2 t) :=
  before_in_of m (datsF m 0 c) 2 (AF_eq m c 2) fetch0_2 t d
theorem beforeF_3 (c : Dev nD) (t : Fin cfg0.N) (d) : (datsF m 0 c).before 3 t d = win0_3.fill (grid0.coords t) d (iblk m c 3 t) :=
  before_in_of m (datsF m 0 c) 3 (AF_eq m c 3) fetch0_3 t d

/-- What an input's buffer is handed back at: on the part inside the array its block. -/
theorem cutF_0 (c : Dev nD) (t : Fin cfg0.N) : win0_0.cut (grid0.coords t) ((datsF m 0 c).after 0 t) = iblk m c 0 t := by
  dsimp only [datsF]; exact win0_0.cut_fill _ _ _
theorem cutF_1 (c : Dev nD) (t : Fin cfg0.N) : win0_1.cut (grid0.coords t) ((datsF m 0 c).after 1 t) = iblk m c 1 t := by
  dsimp only [datsF]; exact win0_1.cut_fill _ _ _
theorem cutF_2 (c : Dev nD) (t : Fin cfg0.N) : win0_2.cut (grid0.coords t) ((datsF m 0 c).after 2 t) = iblk m c 2 t := by
  dsimp only [datsF]; exact win0_2.cut_fill _ _ _
theorem cutF_3 (c : Dev nD) (t : Fin cfg0.N) : win0_3.cut (grid0.coords t) ((datsF m 0 c).after 3 t) = iblk m c 3 t := by
  dsimp only [datsF]; exact win0_3.cut_fill _ _ _

theorem leaveF_0 (c : Dev nD) (t : Fin cfg0.N) (d : S3x65536.Idx → Elt F .f32) :
    win0_0.fill (grid0.coords t) d (win0_0.cut (grid0.coords t) ((datsF m 0 c).after 0 t)) = win0_0.fill (grid0.coords t) d (iblk m c 0 t) :=
  congrArg (win0_0.fill (grid0.coords t) d) (cutF_0 m c t)
theorem leaveF_1 (c : Dev nD) (t : Fin cfg0.N) (d : S3x65536.Idx → Elt F .f32) :
    win0_1.fill (grid0.coords t) d (win0_1.cut (grid0.coords t) ((datsF m 0 c).after 1 t)) = win0_1.fill (grid0.coords t) d (iblk m c 1 t) :=
  congrArg (win0_1.fill (grid0.coords t) d) (cutF_1 m c t)
theorem leaveF_2 (c : Dev nD) (t : Fin cfg0.N) (d : S3x65536.Idx → Elt F .f32) :
    win0_2.fill (grid0.coords t) d (win0_2.cut (grid0.coords t) ((datsF m 0 c).after 2 t)) = win0_2.fill (grid0.coords t) d (iblk m c 2 t) :=
  congrArg (win0_2.fill (grid0.coords t) d) (cutF_2 m c t)
theorem leaveF_3 (c : Dev nD) (t : Fin cfg0.N) (d : S3x65536.Idx → Elt F .f32) :
    win0_3.fill (grid0.coords t) d (win0_3.cut (grid0.coords t) ((datsF m 0 c).after 3 t)) = win0_3.fill (grid0.coords t) d (iblk m c 3 t) :=
  congrArg (win0_3.fill (grid0.coords t) d) (cutF_3 m c t)

/-! ## The body obligation -/

def bodyPreF (c : Dev nD) (t : Fin cfg0.N) : sProp 𝕄 :=
  iprop((datsF m 0 c).Φ t.castSucc ∗ (datsF m 0 c).owesAt () t.castSucc
    ∗ (∃ d, owns (c : Thread nD τ) (ms0_0 t) fullShare ((datsF m 0 c).before 0 t d))
    ∗ (∃ d, owns (c : Thread nD τ) (ms0_1 t) fullShare ((datsF m 0 c).before 1 t d))
    ∗ (∃ d, owns (c : Thread nD τ) (ms0_2 t) fullShare ((datsF m 0 c).before 2 t d))
    ∗ (∃ d, owns (c : Thread nD τ) (ms0_3 t) fullShare ((datsF m 0 c).before 3 t d))
    ∗ (∃ X, owns (c : Thread nD τ) (ms0_4 t) fullShare X))

def bodyPostF (c : Dev nD) (t : Fin cfg0.N) : sProp 𝕄 :=
  iprop((datsF m 0 c).Φ t.succ ∗ (datsF m 0 c).owesAt () t.succ
    ∗ (∃ d, owns (c : Thread nD τ) (ms0_0 t) fullShare (win0_0.fill (grid0.coords t) d (win0_0.cut (grid0.coords t) ((datsF m 0 c).after 0 t))))
    ∗ (∃ d, owns (c : Thread nD τ) (ms0_1 t) fullShare (win0_1.fill (grid0.coords t) d (win0_1.cut (grid0.coords t) ((datsF m 0 c).after 1 t))))
    ∗ (∃ d, owns (c : Thread nD τ) (ms0_2 t) fullShare (win0_2.fill (grid0.coords t) d (win0_2.cut (grid0.coords t) ((datsF m 0 c).after 2 t))))
    ∗ (∃ d, owns (c : Thread nD τ) (ms0_3 t) fullShare (win0_3.fill (grid0.coords t) d (win0_3.cut (grid0.coords t) ((datsF m 0 c).after 3 t))))
    ∗ (∃ X, owns (c : Thread nD τ) (ms0_4 t) fullShare X))

/-- A buffer some stores wrote is owned at what it then reads. -/
theorem owns_of_written (c : Dev nD) {sh : Shape} (mr : Memref sig .tc .vmem sh .f32) (g : Buf (Elt F) (mr.view.loc (c : Thread nD τ))) :
    (mr.view.loc (c : Thread nD τ) ↦[mr.view.set]{fullShare} g : sProp 𝕄) ⊢ iprop(∃ d, owns (c : Thread nD τ) mr fullShare d) := by
  iintro H; iexists (mr.view.read (Elt F) g); unfold owns; iexists g; isplitr
  · ipureintro; rfl
  iexact H

set_option maxHeartbeats 4000000 in
/-- The body at any point, in the case the point's position in its row selects. -/
theorem sound_bodyF (c : Dev nD) (t : Fin cfg0.N) :
    bodyPreF m c t ⊢ wp frame (wpE (defs₀ (F := F)) Variants.none c none) Set.univ (bodyAt0 t) (fun _ => bodyPostF m c t) := by
  unfold bodyPreF bodyPostF bodyAt0
  simp only [beforeF_0, beforeF_1, beforeF_2, beforeF_3]
  rw [show (datsF m 0 c).owesAt () t.succ = (datsF m 0 c).owesAt () t.castSucc from rfl,
    show (datsF m 0 c).Φ t.succ = Pipeline.ΦA spec0 c from rfl, show (datsF m 0 c).Φ t.castSucc = Pipeline.ΦA spec0 c from rfl, PhiA0_eq]
  by_cases h0 : t.val % 23 = 0
  · have h1 : ¬ t.val % 23 = 22 := by omega
    iintro ⟨⟨HS0, Hg⟩, Ho, ⟨%d0, H0⟩, ⟨%d1, H1⟩, ⟨%d2, H2⟩, ⟨%d3, H3⟩, H4⟩
    iapply ((kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (win0_0.fill (grid0.coords t) d0 (iblk m c 0 t)) (win0_1.fill (grid0.coords t) d1 (iblk m c 1 t)) (win0_2.fill (grid0.coords t) d2 (iblk m c 2 t)) (win0_3.fill (grid0.coords t) d3 (iblk m c 3 t))).2 Set.univ _)
    isplitl [H0]; · iexact H0
    isplitl [H1]; · iexact H1
    isplitl [H2]; · iexact H2
    isplitl [H3]; · iexact H3
    isplitl [HS0]; · iexact HS0
    iintro ⟨H0, H1, H2, H3, ⟨%es0, HS0⟩⟩
    isplitl [HS0 Hg]
    · isplitl [HS0]; · iapply (owns_of_written (F := F) c scM0_0 _); iexact HS0
      iexact Hg
    isplitl [Ho]; · iexact Ho
    isplitl [H0]; · iexists d0; rw [leaveF_0 m c t d0]; iexact H0
    isplitl [H1]; · iexists d1; rw [leaveF_1 m c t d1]; iexact H1
    isplitl [H2]; · iexists d2; rw [leaveF_2 m c t d2]; iexact H2
    isplitl [H3]; · iexists d3; rw [leaveF_3 m c t d3]; iexact H3
    iexact H4
  · by_cases h1 : t.val % 23 = 22
    · iintro ⟨⟨⟨%ds, HS0⟩, Hg⟩, Ho, ⟨%d0, H0⟩, ⟨%d1, H1⟩, ⟨%d2, H2⟩, ⟨%d3, H3⟩, H4⟩
      iapply ((kernelRun0_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (win0_0.fill (grid0.coords t) d0 (iblk m c 0 t)) (win0_1.fill (grid0.coords t) d1 (iblk m c 1 t)) (win0_2.fill (grid0.coords t) d2 (iblk m c 2 t)) (win0_3.fill (grid0.coords t) d3 (iblk m c 3 t)) ds).2.2 Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, ⟨%e4, H4⟩, ⟨%es0, HS0⟩⟩
      isplitl [HS0 Hg]
      · isplitl [HS0]; · iapply (owns_of_written (F := F) c scM0_0 _); iexact HS0
        iexact Hg
      isplitl [Ho]; · iexact Ho
      isplitl [H0]; · iexists d0; rw [leaveF_0 m c t d0]; iexact H0
      isplitl [H1]; · iexists d1; rw [leaveF_1 m c t d1]; iexact H1
      isplitl [H2]; · iexists d2; rw [leaveF_2 m c t d2]; iexact H2
      isplitl [H3]; · iexists d3; rw [leaveF_3 m c t d3]; iexact H3
      iapply (owns_of_written (F := F) c (ms0_4 t) _); iexact H4
    · iintro ⟨⟨⟨%ds, HS0⟩, Hg⟩, Ho, ⟨%d0, H0⟩, ⟨%d1, H1⟩, ⟨%d2, H2⟩, ⟨%d3, H3⟩, H4⟩
      iapply ((kernelRun0_B c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (win0_0.fill (grid0.coords t) d0 (iblk m c 0 t)) (win0_1.fill (grid0.coords t) d1 (iblk m c 1 t)) (win0_2.fill (grid0.coords t) d2 (iblk m c 2 t)) (win0_3.fill (grid0.coords t) d3 (iblk m c 3 t)) ds).2 Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg]
      · isplitl [HS0]; · iapply (owns_of_written (F := F) c scM0_0 _); iexact HS0
        iexact Hg
      isplitl [Ho]; · iexact Ho
      isplitl [H0]; · iexists d0; rw [leaveF_0 m c t d0]; iexact H0
      isplitl [H1]; · iexists d1; rw [leaveF_1 m c t d1]; iexact H1
      isplitl [H2]; · iexists d2; rw [leaveF_2 m c t d2]; iexact H2
      isplitl [H3]; · iexists d3; rw [leaveF_3 m c t d3]; iexact H3
      iexact H4

/-- The library's body obligation (each input stated on the part inside its array, the output forgotten). -/
theorem body_obligationF (c : Dev nD) : BodyObligationLoose (datsF (F := F) m 0 c) (defs₀ (F := F)) Variants.none () Set.univ forgets0 := fun t => by
  rw [bigSep_W0, bigSep_W0]
  exact sound_bodyF m c t

/-! ## The run and the frame -/

/-- The buffers the lines after the region write. -/
def T0 : Finset (Ref sig .tc) := {main_v8, main_v9, main_cst, main_v10, main_v11}

theorem sfx_T : ∀ ops ∈ ([hostOps1] : List (List (HloOp τ sig (Elt F)))), ∀ op ∈ ops, ∀ b : Ref sig .tc,
    Proc.devRef .tc b ∈ op.writes → b ∈ T0 := by
  intro ops hops op hop b hb
  simp only [List.mem_cons, List.mem_nil_iff, or_false] at hops
  rcases hops with rfl
  simp only [hostOps1, List.mem_cons, List.mem_nil_iff, or_false] at hop
  rcases hop with rfl | rfl | rfl | rfl | rfl
  all_goals
    simp only [StableHlo.nullary_writes, StableHlo.unary_writes, StableHlo.binary_writes, StableHlo.reshape_writes, Finset.mem_singleton] at hb
    obtain rfl := Proc.devRef_injective _ hb
    decide

set_option backward.isDefEq.respectTransparency.types false in
/-- Every weakly fair execution of @main terminates; the pipeline's input arrays end as the region found them, and
    every other unscoped buffer the later lines do not write at its contents at the region's entry. -/
theorem run_mainF : θ_run defs (onTc (τ := τ) (main (F := F))) (s₀ m ρ)
    (Pipeline.RDat.FramePostR (cfgs 0) (fun c => (datsF m 0 c).toRForget forgets0) T0 (V m)) :=
  Pipeline.RDat.θ_run_frame_around_T cfgs (0 : Fin 1) launch0 defs₀ Variants.none (fun c => (datsF m 0 c).toRForget forgets0) T0 m ρ main
    (hbody := fun c => (body_obligationF m c).toRForget) (hshare := fun c => ((datsF m 0 c).toRForget forgets0).share_full fun _ => rfl)
    (howed := fun _ _ => rfl) (V₀ := V0 m) (opss := [hostOps1]) (hsub := sfx_sub) (hfresh := sfx_fresh) (hkeep := sfx_keeps) (hT := sfx_T)
    (hmain := hmain m Variants.none) (hA := AF_eq m) (hΦ := fun _ _ => rfl)

/-- An argument array is unscoped, is no window's array, and is not written after the region. -/
theorem arg_mem (b : Ref sig .tc) (hs : b.isScoped = false) (ha : ∀ w, (spec0 w).arr.view.ref ≠ b) (hT : b ∉ T0) :
    b ∈ Pipeline.restRefs sig spec0 \ T0 :=
  Finset.mem_sdiff.mpr ⟨Pipeline.mem_restRefs_of b hs ha, hT⟩

/-- THE FRAME: @main terminates and leaves its five arguments unchanged. -/
theorem frameF : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
    ((h c).2 main_arg0 (arg_mem main_arg0 rfl (by decide) (by decide))).trans (V_main_arg0 m c),
    ((h c).2 main_arg1 (arg_mem main_arg1 rfl (by decide) (by decide))).trans (V_main_arg1 m c),
    ((h c).2 main_arg2 (arg_mem main_arg2 rfl (by decide) (by decide))).trans (V_main_arg2 m c),
    ((h c).2 main_arg3 (arg_mem main_arg3 rfl (by decide) (by decide))).trans (V_main_arg3 m c),
    ((h c).2 main_arg4 (arg_mem main_arg4 rfl (by decide) (by decide))).trans (V_main_arg4 m c)⟩) (run_mainF m ρ)

end Cert.KernelIdeal.Hand

end
-- ==== Proof.Spec.lean ====
/-
  The specification both programs are compared with, on the extended reals.

  An edge e has four endpoints p0, p1, p2, p3 in R^3, rows of the vertex table named by the four index
  arrays.  With a = p1 - p0 (the shared edge) and b = p2 - p0, b' = p3 - p0 (the two flaps), each flap is
  reduced to its component orthogonal to the edge, cb = b - a * (<a,b> / (|a|^2 + eps)), whose length is taken as
  |b|_eps * sin_eps, where |x|_eps = sqrt(|x|^2 + eps), cos_eps = <a,b> / (|a|_eps |b|_eps + eps) and
  sin_eps = sqrt(1 - cos_eps^2 + eps).  The dihedral cosine is <cb, cb'> / (|cb| |cb'| + eps); a value above 1
  is replaced by -1; the edge's loss is (cos + 1)^2, and the result is the sum of the losses over all edges.
  Every operation is the extended reals' own (Ideal.sqrt, Ideal.div): nothing here needs finiteness.
-/
import Idealize.ShloMosaic.PureOps.Ideal
import Idealize.ShloMosaic.Lib.ValueIdx
import Mathlib.Algebra.BigOperators.Fin

noncomputable section

namespace Cert.Spec

open Idealize.ShloMosaic

/-- The three literals of both programs, as the extended reals their words denote. -/
abbrev eps : EReal := Ideal.ofBits .f32 0x358637BD#32
abbrev one : EReal := Ideal.ofBits .f32 0x3F800000#32
abbrev negOne : EReal := Ideal.ofBits .f32 0xBF800000#32

/-- The inner product of two vectors of R^3. -/
def dot3 (a b : Fin 3 → EReal) : EReal := ∑ k : Fin 3, a k * b k

/-- |x|_eps = sqrt(|x|^2 + eps). -/
def len (x : Fin 3 → EReal) : EReal := Ideal.sqrt (dot3 x x + eps)

/-- cos_eps of the angle between the edge a and a flap b. -/
def cosE (a b : Fin 3 → EReal) : EReal := Ideal.div (dot3 a b) (len a * len b + eps)

/-- sin_eps = sqrt(1 - cos_eps^2 + eps). -/
def sinE (a b : Fin 3 → EReal) : EReal := Ideal.sqrt (one - cosE a b * cosE a b + eps)

/-- The flap's component orthogonal to the edge. -/
def orth (a b : Fin 3 → EReal) : Fin 3 → EReal := fun k => b k - a k * Ideal.div (dot3 a b) (dot3 a a + eps)

/-- The length the programs give that component: |b|_eps * sin_eps. -/
def orthLen (a b : Fin 3 → EReal) : EReal := len b * sinE a b

/-- The dihedral cosine of two flaps b, b' about the edge a. -/
def dihedral (a b b' : Fin 3 → EReal) : EReal :=
  Ideal.div (dot3 (orth a b) (orth a b')) (orthLen a b * orthLen a b' + eps)

/-- A cosine above 1 is replaced by -1. -/
def clampCos (x : EReal) : EReal := Scalar.select (Ideal.cmp .ogt x one) negOne x

/-- The loss of one edge from its four endpoints. -/
def edgeLoss (p0 p1 p2 p3 : Fin 3 → EReal) : EReal :=
  (clampCos (dihedral (fun k => p1 k - p0 k) (fun k => p2 k - p0 k) (fun k => p3 k - p0 k)) + one)
    * (clampCos (dihedral (fun k => p1 k - p0 k) (fun k => p2 k - p0 k) (fun k => p3 k - p0 k)) + one)

/-- The row of the vertex table an index word names: the word read unsigned, kept inside the table
    (an in-range word names its own row). -/
def row (w : BitVec 32) : Fin 1000000 := ⟨min w.toNat 999999, by omega⟩

/-- The endpoint of edge e named by the index array idx: that row of the table. -/
def pt (V : Fin 1000000 → Fin 3 → EReal) (idx : Fin 3000000 → BitVec 32) (e : Fin 3000000) : Fin 3 → EReal :=
  V (row (idx e))

/-- The loss of edge e. -/
def lossAt (V : Fin 1000000 → Fin 3 → EReal) (i0 i1 i2 i3 : Fin 3000000 → BitVec 32) (e : Fin 3000000) : EReal :=
  edgeLoss (pt V i0 e) (pt V i1 e) (pt V i2 e) (pt V i3 e)

/-- The result: the sum of the losses over all edges. -/
def total (V : Fin 1000000 → Fin 3 → EReal) (i0 i1 i2 i3 : Fin 3000000 → BitVec 32) : EReal :=
  ∑ e : Fin 3000000, lossAt V i0 i1 i2 i3 e

/-- Every index word of the array names a row of the table (read unsigned: below the table's million rows, so
    also non-negative read signed). -/
def InRange (i : Fin 3000000 → BitVec 32) : Prop := ∀ e, (i e).toNat < 1000000

/-- A program's [1000000, 3] vertex array read by row and coordinate. -/
abbrev tbl (x : (⟨2, ![1000000, 3]⟩ : Shape).Idx → EReal) : Fin 1000000 → Fin 3 → EReal :=
  fun r k => x (ValueIdx.ix2 r k)

/-- A program's [3000000] index array read by position. -/
abbrev words (i : (⟨1, ![3000000]⟩ : Shape).Idx → BitVec 32) : Fin 3000000 → BitVec 32 :=
  fun e => i (ValueIdx.ix1 e)

end Cert.Spec

end
-- ==== Proof.DatI.lean ====
/-
  The proof data of the kernel program on the extended reals, in closed form over the four point arrays as the region
  finds them.  Edge e's loss is the specification's loss of the four columns e.  Grid point n (row n / 23, step n % 23)
  handles the 65,536 edges from n * 65536 on; the lanes at or past edge 3,000,000 are masked, so the point adds
  bsum n, the sum of the losses of its edges below 3,000,000, to the row's accumulator, which starts from zero at the
  row's first step: accI n is the accumulator after point n.  The output row is stored from the accumulator at the
  row's last step.
-/
import proofs.«401790_j62929860821309_3_alg».proof.Proof.RunCI
import proofs.«401790_j62929860821309_3_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

open Idealize.ShloMosaic.ValueIdx

/-- The loss of edge e, from the columns e of the four point arrays as the region finds them. -/
def lossArr (c : Dev nD) (e : Fin 3000000) : EReal :=
  Cert.Spec.edgeLoss (fun k => V m c main_v3 (ix2 k e)) (fun k => V m c main_v4 (ix2 k e))
    (fun k => V m c main_v5 (ix2 k e)) (fun k => V m c main_v6 (ix2 k e))

/-- What grid point n adds: the losses of its edges that exist. -/
def bsum (c : Dev nD) (n : ℕ) : EReal :=
  ∑ l : Fin 65536, if h : n * 65536 + l.val < 3000000 then lossArr m c ⟨n * 65536 + l.val, h⟩ else 0

/-- The accumulator after grid point n: reset at a row's first step, then added to. -/
def accI (c : Dev nD) : ℕ → EReal
  | 0 => 0 + bsum m c 0
  | n + 1 => if (n + 1) % 23 = 0 then 0 + bsum m c (n + 1) else accI c n + bsum m c (n + 1)

theorem accI_first (c : Dev nD) (n : ℕ) (h : n % 23 = 0) : accI m c n = 0 + bsum m c n := by
  cases n with
  | zero => rfl
  | succ n => exact if_pos h

theorem accI_next (c : Dev nD) (n : ℕ) (h : ¬ n % 23 = 0) : accI m c n = accI m c (n - 1) + bsum m c n := by
  cases n with
  | zero => exact absurd (Nat.zero_mod _) h
  | succ n => exact if_neg h

/-- The region's invariant before position n: before the first point the class's; afterwards the accumulator at
    what the point before left, and the generator register. -/
def PhiS (c : Dev nD) : (n : ℕ) → n ≤ cfg0.N → sProp 𝕄
  | 0, _ => Pipeline.ΦA spec0 c
  | n + 1, _ => iprop(iprop(owns (c : Thread nD τ) scM0_0 fullShare (fun _ => accI m c n)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n + 1 ≤ cfg0.N) :
    PhiS m c (n + 1) hn = iprop(iprop(owns (c : Thread nD τ) scM0_0 fullShare (fun _ => accI m c n)) ∗ (∃ r, prngReg c r)) := rfl
theorem PhiS_pos (c : Dev nD) (n : ℕ) (h : n ≤ cfg0.N) (hz : n ≠ 0) :
    PhiS m c n h = iprop(iprop(owns (c : Thread nD τ) scM0_0 fullShare (fun _ => accI m c (n - 1))) ∗ (∃ r, prngReg c r)) := by
  cases n with
  | zero => exact absurd rfl hz
  | succ n => rfl

/-- An input window's block at point t filled out to the staging buffer's shape with the zero word (past the array's
    end, where nothing reads it). -/
def zblk0 (c : Dev nD) (t : Fin cfg0.N) : S3x65536.Idx → Elt Ideal .f32 :=
  win0_0.fill (grid0.coords t) (fun _ => Scalar.ofBits (F := Ideal) .f32 0#32) (iblk m c 0 t)
def zblk1 (c : Dev nD) (t : Fin cfg0.N) : S3x65536.Idx → Elt Ideal .f32 :=
  win0_1.fill (grid0.coords t) (fun _ => Scalar.ofBits (F := Ideal) .f32 0#32) (iblk m c 1 t)
def zblk2 (c : Dev nD) (t : Fin cfg0.N) : S3x65536.Idx → Elt Ideal .f32 :=
  win0_2.fill (grid0.coords t) (fun _ => Scalar.ofBits (F := Ideal) .f32 0#32) (iblk m c 2 t)
def zblk3 (c : Dev nD) (t : Fin cfg0.N) : S3x65536.Idx → Elt Ideal .f32 :=
  win0_3.fill (grid0.coords t) (fun _ => Scalar.ofBits (F := Ideal) .f32 0#32) (iblk m c 3 t)
/-- The output block: the accumulator's value in every entry. -/
def oblk (c : Dev nD) (t : Fin cfg0.N) : S1x8x128.Idx → Elt Ideal .f32 := fun _ => accI m c t.val

/-- The proof data: the arrays as the region finds them; after the body each input's buffer at its block (past the
    array's end the zero word, which nothing reads) and the output's at the accumulator's value in every entry; the
    invariant above; nothing owed; full shares. -/
def datsI (_ : Fin 1) (c : Dev nD) : Dat τ (Elt Ideal) Unit ℕ (UR sig nD τ) ℕ cfg0 c where
  A w := V m c (Pipeline.arrRef spec0 w)
  after w t := match w with
    | ⟨0, _⟩ => zblk0 m c t
    | ⟨1, _⟩ => zblk1 m c t
    | ⟨2, _⟩ => zblk2 m c t
    | ⟨3, _⟩ => zblk3 m c t
    | ⟨4, _⟩ => oblk m c t
  Φ t := PhiS m c t.val (Nat.le_of_lt_succ t.isLt)
  q _ := fullShare
  owed _ := 0

theorem AI_eq (c : Dev nD) (w : Fin cfg0.W) : (datsI m 0 c).A w = V m c (Pipeline.arrRef spec0 w) := by
  dsimp only [datsI]

theorem afterI_4 (c : Dev nD) (t : Fin cfg0.N) : (datsI m 0 c).after 4 t = oblk m c t := by dsimp only [datsI]

theorem PhiS_castSucc (c : Dev nD) (t : Fin cfg0.N) :
    (datsI m 0 c).Φ t.castSucc = PhiS m c t.val (Nat.le_of_lt t.isLt) := by
  dsimp only [datsI]; simp only [Fin.coe_castSucc]

end Cert.KernelIdeal.Hand

end
-- ==== Proof.PiecesI.lean ====
/-
  What the body's stores leave, read back as the body's own arithmetic.  At every step the accumulator ends at
  (its value before, or zero at a row's first step) + the masked lane sum of the per-lane loss of the four loaded
  blocks; at a row's last step the output block ends at that new value broadcast over the tile.
-/
import proofs.«401790_j62929860821309_3_alg».proof.Proof.RunCI
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The per-lane loss (cos + 1)^2 as the body computes it from the four loaded blocks. -/
def lossVec (x0 x1 x2 x3 : Vec F S3x65536 .f32) : FVec F S1x65536 .f32 :=
  k0_pay13 (k0_pay4 x0) (k0_pay5 x3) (k0_pay6 x0 x1) (k0_pay7 x0 x2) (k0_pay8 x0 x1) (k0_pay9 x0 x1) (k0_pay10 x0 x2)
    (k0_pay11 x0 x1 x2) (k0_pay12 x0 x1 x2) (Scalar.ofBits .f32 0x358637BD#32)

/-- The accumulator after a step that found it at xs0. -/
def accNext (i : grid0.Coords) (x0 x1 x2 x3 : Vec F S3x65536 .f32) (xs0 : Vec F S1x1 .f32) : FVec F S1x1 .f32 :=
  k0_pay1 (BitVec.ofNat 32 (i 0).val) (BitVec.ofNat 32 (i 1).val) (lossVec x0 x1 x2 x3) xs0

/-! ### A row's first step -/

theorem scover0_A_0 (c : Dev nD) (i : grid0.Coords) (arg2 : Memref sig .tc .vmem S3x65536 .f32) (harg2 : arg2.IsWhole) (arg3 : Memref sig .tc .vmem S3x65536 .f32) (harg3 : arg3.IsWhole) (arg4 : Memref sig .tc .vmem S3x65536 .f32) (harg4 : arg4.IsWhole) (arg5 : Memref sig .tc .vmem S3x65536 .f32) (harg5 : arg5.IsWhole) (arg6 : Memref sig .tc .vmem S1x8x128 .f32) (harg6 : arg6.IsWhole) (arg7 : Memref sig .tc .vmem S1x1 .f32) (harg7 : arg7.IsWhole) (hc0 : cond0_0 i) (hc1 : ¬cond0_1 i) (x0 x1 x2 x3 : Vec F S3x65536 .f32) (y : S1x1.Idx) :
    ∃ pc ∈ (kernelRun0_A c i arg2 harg2 arg3 harg3 arg4 harg4 arg5 harg5 arg6 harg6 arg7 harg7 hc0 hc1 x0 x1 x2 x3).1, y ∈ pc.1.set :=
  View.cover_of_tiledL (kernelRun0_A c i arg2 harg2 arg3 harg3 arg4 harg4 arg5 harg5 arg6 harg6 arg7 harg7 hc0 hc1 x0 x1 x2 x3).1 S1x1.size (by sl_kernel_rfl) y

/-- The accumulator after a row's first step: the step's update of the zero it was reset to. -/
theorem sread0_A_0 (c : Dev nD) (i : grid0.Coords) (arg2 : Memref sig .tc .vmem S3x65536 .f32) (harg2 : arg2.IsWhole) (arg3 : Memref sig .tc .vmem S3x65536 .f32) (harg3 : arg3.IsWhole) (arg4 : Memref sig .tc .vmem S3x65536 .f32) (harg4 : arg4.IsWhole) (arg5 : Memref sig .tc .vmem S3x65536 .f32) (harg5 : arg5.IsWhole) (arg6 : Memref sig .tc .vmem S1x8x128 .f32) (harg6 : arg6.IsWhole) (arg7 : Memref sig .tc .vmem S1x1 .f32) (harg7 : arg7.IsWhole) (hc0 : cond0_0 i) (hc1 : ¬cond0_1 i) (x0 x1 x2 x3 : Vec F S3x65536 .f32)
    (v : View sig .tc .vmem S1x1 .f32) (f : v.ty.Contents (Elt F)) :
    v.read (Elt F) (v.writes (Elt F) f (kernelRun0_A c i arg2 harg2 arg3 harg3 arg4 harg4 arg5 harg5 arg6 harg6 arg7 harg7 hc0 hc1 x0 x1 x2 x3).1)
      = accNext i x0 x1 x2 x3 (k0_pay3 (F := F)) := by
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S1x1) hz2]
  simp only [View.readAt_eq_ld, harg7.read_unread, harg2.read_unread, harg3.read_unread, harg4.read_unread, harg5.read_unread, View.ld_unit_zero (S := S1x1) hz2, View.ld_unit_zero (S := S3x65536) hz2, View.readCov_unit_zero (S := S1x1) _ hz2]
  rfl

/-! ### A middle step -/

theorem scover0_B_0 (c : Dev nD) (i : grid0.Coords) (arg2 : Memref sig .tc .vmem S3x65536 .f32) (harg2 : arg2.IsWhole) (arg3 : Memref sig .tc .vmem S3x65536 .f32) (harg3 : arg3.IsWhole) (arg4 : Memref sig .tc .vmem S3x65536 .f32) (harg4 : arg4.IsWhole) (arg5 : Memref sig .tc .vmem S3x65536 .f32) (harg5 : arg5.IsWhole) (arg6 : Memref sig .tc .vmem S1x8x128 .f32) (harg6 : arg6.IsWhole) (arg7 : Memref sig .tc .vmem S1x1 .f32) (harg7 : arg7.IsWhole) (hc0 : ¬cond0_0 i) (hc1 : ¬cond0_1 i) (x0 x1 x2 x3 : Vec F S3x65536 .f32) (xs0 : Vec F S1x1 .f32) (y : S1x1.Idx) :
    ∃ pc ∈ (kernelRun0_B c i arg2 harg2 arg3 harg3 arg4 harg4 arg5 harg5 arg6 harg6 arg7 harg7 hc0 hc1 x0 x1 x2 x3 xs0).1, y ∈ pc.1.set :=
  View.cover_of_tiledL (kernelRun0_B c i arg2 harg2 arg3 harg3 arg4 harg4 arg5 harg5 arg6 harg6 arg7 harg7 hc0 hc1 x0 x1 x2 x3 xs0).1 S1x1.size (by sl_kernel_rfl) y

theorem sread0_B_0 (c : Dev nD) (i : grid0.Coords) (arg2 : Memref sig .tc .vmem S3x65536 .f32) (harg2 : arg2.IsWhole) (arg3 : Memref sig .tc .vmem S3x65536 .f32) (harg3 : arg3.IsWhole) (arg4 : Memref sig .tc .vmem S3x65536 .f32) (harg4 : arg4.IsWhole) (arg5 : Memref sig .tc .vmem S3x65536 .f32) (harg5 : arg5.IsWhole) (arg6 : Memref sig .tc .vmem S1x8x128 .f32) (harg6 : arg6.IsWhole) (arg7 : Memref sig .tc .vmem S1x1 .f32) (harg7 : arg7.IsWhole) (hc0 : ¬cond0_0 i) (hc1 : ¬cond0_1 i) (x0 x1 x2 x3 : Vec F S3x65536 .f32) (xs0 : Vec F S1x1 .f32)
    (v : View sig .tc .vmem S1x1 .f32) (f : v.ty.Contents (Elt F)) :
    v.read (Elt F) (v.writes (Elt F) f (kernelRun0_B c i arg2 harg2 arg3 harg3 arg4 harg4 arg5 harg5 arg6 harg6 arg7 harg7 hc0 hc1 x0 x1 x2 x3 xs0).1)
      = accNext i x0 x1 x2 x3 xs0 := by
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  rw [View.canon_unit_zero hz2]
  simp only [View.readAt_eq_ld, harg7.read_unread, harg2.read_unread, harg3.read_unread, harg4.read_unread, harg5.read_unread, View.ld_unit_zero (S := S1x1) hz2, View.ld_unit_zero (S := S3x65536) hz2, View.readCov_unit_zero (S := S1x1) _ hz2]
  rfl

/-! ### A row's last step -/

theorem scover0_C_0 (c : Dev nD) (i : grid0.Coords) (arg2 : Memref sig .tc .vmem S3x65536 .f32) (harg2 : arg2.IsWhole) (arg3 : Memref sig .tc .vmem S3x65536 .f32) (harg3 : arg3.IsWhole) (arg4 : Memref sig .tc .vmem S3x65536 .f32) (harg4 : arg4.IsWhole) (arg5 : Memref sig .tc .vmem S3x65536 .f32) (harg5 : arg5.IsWhole) (arg6 : Memref sig .tc .vmem S1x8x128 .f32) (harg6 : arg6.IsWhole) (arg7 : Memref sig .tc .vmem S1x1 .f32) (harg7 : arg7.IsWhole) (hc0 : ¬cond0_0 i) (hc1 : cond0_1 i) (x0 x1 x2 x3 : Vec F S3x65536 .f32) (xs0 : Vec F S1x1 .f32) (y : S1x1.Idx) :
    ∃ pc ∈ (kernelRun0_C c i arg2 harg2 arg3 harg3 arg4 harg4 arg5 harg5 arg6 harg6 arg7 harg7 hc0 hc1 x0 x1 x2 x3 xs0).2.1, y ∈ pc.1.set :=
  View.cover_of_tiledL (kernelRun0_C c i arg2 harg2 arg3 harg3 arg4 harg4 arg5 harg5 arg6 harg6 arg7 harg7 hc0 hc1 x0 x1 x2 x3 xs0).2.1 S1x1.size (by sl_kernel_rfl) y

theorem cover0_C_4 (c : Dev nD) (i : grid0.Coords) (arg2 : Memref sig .tc .vmem S3x65536 .f32) (harg2 : arg2.IsWhole) (arg3 : Memref sig .tc .vmem S3x65536 .f32) (harg3 : arg3.IsWhole) (arg4 : Memref sig .tc .vmem S3x65536 .f32) (harg4 : arg4.IsWhole) (arg5 : Memref sig .tc .vmem S3x65536 .f32) (harg5 : arg5.IsWhole) (arg6 : Memref sig .tc .vmem S1x8x128 .f32) (harg6 : arg6.IsWhole) (arg7 : Memref sig .tc .vmem S1x1 .f32) (harg7 : arg7.IsWhole) (hc0 : ¬cond0_0 i) (hc1 : cond0_1 i) (x0 x1 x2 x3 : Vec F S3x65536 .f32) (xs0 : Vec F S1x1 .f32) (y : S1x8x128.Idx) :
    ∃ pc ∈ (kernelRun0_C c i arg2 harg2 arg3 harg3 arg4 harg4 arg5 harg5 arg6 harg6 arg7 harg7 hc0 hc1 x0 x1 x2 x3 xs0).1, y ∈ pc.1.set :=
  View.cover_of_tiledL (kernelRun0_C c i arg2 harg2 arg3 harg3 arg4 harg4 arg5 harg5 arg6 harg6 arg7 harg7 hc0 hc1 x0 x1 x2 x3 xs0).1 S1x8x128.size (by sl_kernel_rfl) y

theorem sread0_C_0 (c : Dev nD) (i : grid0.Coords) (arg2 : Memref sig .tc .vmem S3x65536 .f32) (harg2 : arg2.IsWhole) (arg3 : Memref sig .tc .vmem S3x65536 .f32) (harg3 : arg3.IsWhole) (arg4 : Memref sig .tc .vmem S3x65536 .f32) (harg4 : arg4.IsWhole) (arg5 : Memref sig .tc .vmem S3x65536 .f32) (harg5 : arg5.IsWhole) (arg6 : Memref sig .tc .vmem S1x8x128 .f32) (harg6 : arg6.IsWhole) (arg7 : Memref sig .tc .vmem S1x1 .f32) (harg7 : arg7.IsWhole) (hc0 : ¬cond0_0 i) (hc1 : cond0_1 i) (x0 x1 x2 x3 : Vec F S3x65536 .f32) (xs0 : Vec F S1x1 .f32)
    (v : View sig .tc .vmem S1x1 .f32) (f : v.ty.Contents (Elt F)) :
    v.read (Elt F) (v.writes (Elt F) f (kernelRun0_C c i arg2 harg2 arg3 harg3 arg4 harg4 arg5 harg5 arg6 harg6 arg7 harg7 hc0 hc1 x0 x1 x2 x3 xs0).2.1)
      = accNext i x0 x1 x2 x3 xs0 := by
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero hz2]
  simp only [View.readAt_eq_ld, harg7.read_unread, harg2.read_unread, harg3.read_unread, harg4.read_unread, harg5.read_unread, View.ld_unit_zero (S := S1x1) hz2, View.ld_unit_zero (S := S3x65536) hz2, View.readCov_unit_zero (S := S1x1) _ hz2]
  rfl

/-- The output block after a row's last step: the new accumulator's entry in every place. -/
theorem oread0_C_4 (c : Dev nD) (i : grid0.Coords) (arg2 : Memref sig .tc .vmem S3x65536 .f32) (harg2 : arg2.IsWhole) (arg3 : Memref sig .tc .vmem S3x65536 .f32) (harg3 : arg3.IsWhole) (arg4 : Memref sig .tc .vmem S3x65536 .f32) (harg4 : arg4.IsWhole) (arg5 : Memref sig .tc .vmem S3x65536 .f32) (harg5 : arg5.IsWhole) (arg6 : Memref sig .tc .vmem S1x8x128 .f32) (harg6 : arg6.IsWhole) (arg7 : Memref sig .tc .vmem S1x1 .f32) (harg7 : arg7.IsWhole) (hc0 : ¬cond0_0 i) (hc1 : cond0_1 i) (x0 x1 x2 x3 : Vec F S3x65536 .f32) (xs0 : Vec F S1x1 .f32)
    (v : View sig .tc .vmem S1x8x128 .f32) (f : v.ty.Contents (Elt F)) :
    v.read (Elt F) (v.writes (Elt F) f (kernelRun0_C c i arg2 harg2 arg3 harg3 arg4 harg4 arg5 harg5 arg6 harg6 arg7 harg7 hc0 hc1 x0 x1 x2 x3 xs0).1)
      = k0_pay2 (accNext i x0 x1 x2 x3 xs0) := by
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero hz3]
  simp only [View.readAt_eq_ld, harg7.read_unread, harg2.read_unread, harg3.read_unread, harg4.read_unread, harg5.read_unread, View.ld_unit_zero (S := S1x1) hz2, View.ld_unit_zero (S := S3x65536) hz2, View.readCov_unit_zero (S := S1x1) _ hz2]
  rfl

end Cert.KernelIdeal.Hand

end
-- ==== Proof.FillRead.lean ====
/-
  What the four input windows' staging buffers hold at a grid point, read at an index: at point t (row * 23 + step)
  the [3, 65536] buffer of window K holds, at (k, l) with t * 65536 + l below the array's 3,000,000 columns, the
  array's entry (k, t * 65536 + l). The blocks are 65536 columns wide, block t starts at column t * 65536, and the last
  block (t = 45) runs past the array's end and is cut to its first 50880 columns, all of which lie inside the array.
-/
import proofs.«401790_j62929860821309_3_alg».proof.Proof.KitI
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem

variable {F : FTy → Type} [FloatOps F] (m : (ℓ : Loc nD τ sig) → Buf (Elt F) ℓ)

/-- A grid point's two coordinates are its row and its step: the point is row * 23 + step. -/
theorem coords_val (t : Fin cfg0.N) : (grid0.coords t 0).val * 23 + (grid0.coords t 1).val = t.val :=
  (by decide +kernel : ∀ t : Fin grid0.N, (grid0.coords t 0).val * 23 + (grid0.coords t 1).val = t.val) t

/-! ## Window 0: blocks of main_v3 -/

/-- Window 0's block at point t is block (0, t), -/
theorem index0_0 : ∀ t : Fin cfg0.N, win0_0.index t (0 : Fin 2) = 0 ∧ win0_0.index t (1 : Fin 2) = t.val :=
  (by decide +kernel : ∀ t : Fin grid0.N, win0_0.index t (0 : Fin 2) = 0 ∧ win0_0.index t (1 : Fin 2) = t.val)
/-- and the part of it inside the array is all three rows and the columns up to the array's end: 65536 of them, but
    3000000 - 45 * 65536 = 50880 at the last point. -/
theorem xsize0_0 : ∀ t : Fin cfg0.N, win0_0.xsize (grid0.coords t) (0 : Fin 2) = 3
    ∧ win0_0.xsize (grid0.coords t) (1 : Fin 2) = min 65536 (3000000 - t.val * 65536) :=
  (by decide +kernel : ∀ t : Fin grid0.N, win0_0.xsize (grid0.coords t) (0 : Fin 2) = 3
    ∧ win0_0.xsize (grid0.coords t) (1 : Fin 2) = min 65536 (3000000 - t.val * 65536))

/-- Over any contents A of the array: the buffer filled with block t of A, read at (k, l) with column t * 65536 + l
    inside the array, is A at (k, t * 65536 + l). The coordinate (k, l) is among those the transfer moves (k is below 3,
    l below the cut extent since t * 65536 + l is below 3000000), so the filled buffer reads the block there; and the
    block's entry (k, l) is the array's entry (0 * 3 + k, t * 65536 + l). -/
theorem fill_read_of0 (c : Dev nD) (A : Buf (Elt F) ((c : Thread nD τ).loc main_v3)) (t : Fin cfg0.N)
    (d : S3x65536.Idx → Elt F .f32) (k : Fin 3) (l : Fin 65536) (h : t.val * 65536 + l.val < 3000000) :
    (win0_0.fill (grid0.coords t) d ((win0_0.blk t).view.read (Elt F) A)) (ix2 k l)
      = (A : S3x3000000.Idx → Elt F .f32) (ix2 k ⟨t.val * 65536 + l.val, h⟩) := by
  have hx := xsize0_0 t
  have hi := index0_0 t
  have hmv : win0_0.moved (grid0.coords t) (ix2 k l) = true := by
    rw [Pipeline.Window.moved_iff]
    intro a
    match a with
    | ⟨0, _⟩ => show k.val < win0_0.xsize (grid0.coords t) (0 : Fin 2); rw [hx.1]; exact k.isLt
    | ⟨1, _⟩ => show l.val < win0_0.xsize (grid0.coords t) (1 : Fin 2); rw [hx.2]; have := l.isLt; omega
  unfold Pipeline.Window.fill
  rw [dif_pos hmv, View.read_apply]
  show (A : S3x3000000.Idx → Elt F .f32) ((win0_0.blk t).view.emb _) = (A : S3x3000000.Idx → Elt F .f32) _
  refine congrArg (A : S3x3000000.Idx → Elt F .f32) (funext fun a => Fin.ext ?_)
  match a with
  | ⟨0, _⟩ =>
    show win0_0.index t (0 : Fin 2) * 3 + 1 * k.val = k.val
    rw [hi.1]; omega
  | ⟨1, _⟩ =>
    show win0_0.index t (1 : Fin 2) * 65536 + 1 * l.val = t.val * 65536 + l.val
    rw [hi.2]; omega

/-- At the contents the region finds main_v3 at: window 0's staging buffer at point t, at (k, l) inside the array, holds
    the array's entry (k, t * 65536 + l). -/
theorem fill_read0 (c : Dev nD) (t : Fin cfg0.N) (d : S3x65536.Idx → Elt F .f32) (k : Fin 3) (l : Fin 65536)
    (h : t.val * 65536 + l.val < 3000000) :
    (win0_0.fill (grid0.coords t) d (iblk m c 0 t)) (ix2 k l) = V m c main_v3 (ix2 k ⟨t.val * 65536 + l.val, h⟩) := by
  unfold iblk
  exact fill_read_of0 c (V m c main_v3) t d k l h

/-! ## Window 1: blocks of main_v4 -/

/-- Window 1's block at point t is block (0, t), -/
theorem index0_1 : ∀ t : Fin cfg0.N, win0_1.index t (0 : Fin 2) = 0 ∧ win0_1.index t (1 : Fin 2) = t.val :=
  (by decide +kernel : ∀ t : Fin grid0.N, win0_1.index t (0 : Fin 2) = 0 ∧ win0_1.index t (1 : Fin 2) = t.val)
/-- and the part of it inside the array is all three rows and the columns up to the array's end: 65536 of them, but
    3000000 - 45 * 65536 = 50880 at the last point. -/
theorem xsize0_1 : ∀ t : Fin cfg0.N, win0_1.xsize (grid0.coords t) (0 : Fin 2) = 3
    ∧ win0_1.xsize (grid0.coords t) (1 : Fin 2) = min 65536 (3000000 - t.val * 65536) :=
  (by decide +kernel : ∀ t : Fin grid0.N, win0_1.xsize (grid0.coords t) (0 : Fin 2) = 3
    ∧ win0_1.xsize (grid0.coords t) (1 : Fin 2) = min 65536 (3000000 - t.val * 65536))

/-- Over any contents A of the array: the buffer filled with block t of A, read at (k, l) with column t * 65536 + l
    inside the array, is A at (k, t * 65536 + l). The coordinate (k, l) is among those the transfer moves (k is below 3,
    l below the cut extent since t * 65536 + l is below 3000000), so the filled buffer reads the block there; and the
    block's entry (k, l) is the array's entry (0 * 3 + k, t * 65536 + l). -/
theorem fill_read_of1 (c : Dev nD) (A : Buf (Elt F) ((c : Thread nD τ).loc main_v4)) (t : Fin cfg0.N)
    (d : S3x65536.Idx → Elt F .f32) (k : Fin 3) (l : Fin 65536) (h : t.val * 65536 + l.val < 3000000) :
    (win0_1.fill (grid0.coords t) d ((win0_1.blk t).view.read (Elt F) A)) (ix2 k l)
      = (A : S3x3000000.Idx → Elt F .f32) (ix2 k ⟨t.val * 65536 + l.val, h⟩) := by
  have hx := xsize0_1 t
  have hi := index0_1 t
  have hmv : win0_1.moved (grid0.coords t) (ix2 k l) = true := by
    rw [Pipeline.Window.moved_iff]
    intro a
    match a with
    | ⟨0, _⟩ => show k.val < win0_1.xsize (grid0.coords t) (0 : Fin 2); rw [hx.1]; exact k.isLt
    | ⟨1, _⟩ => show l.val < win0_1.xsize (grid0.coords t) (1 : Fin 2); rw [hx.2]; have := l.isLt; omega
  unfold Pipeline.Window.fill
  rw [dif_pos hmv, View.read_apply]
  show (A : S3x3000000.Idx → Elt F .f32) ((win0_1.blk t).view.emb _) = (A : S3x3000000.Idx → Elt F .f32) _
  refine congrArg (A : S3x3000000.Idx → Elt F .f32) (funext fun a => Fin.ext ?_)
  match a with
  | ⟨0, _⟩ =>
    show win0_1.index t (0 : Fin 2) * 3 + 1 * k.val = k.val
    rw [hi.1]; omega
  | ⟨1, _⟩ =>
    show win0_1.index t (1 : Fin 2) * 65536 + 1 * l.val = t.val * 65536 + l.val
    rw [hi.2]; omega

/-- At the contents the region finds main_v4 at: window 1's staging buffer at point t, at (k, l) inside the array, holds
    the array's entry (k, t * 65536 + l). -/
theorem fill_read1 (c : Dev nD) (t : Fin cfg0.N) (d : S3x65536.Idx → Elt F .f32) (k : Fin 3) (l : Fin 65536)
    (h : t.val * 65536 + l.val < 3000000) :
    (win0_1.fill (grid0.coords t) d (iblk m c 1 t)) (ix2 k l) = V m c main_v4 (ix2 k ⟨t.val * 65536 + l.val, h⟩) := by
  unfold iblk
  exact fill_read_of1 c (V m c main_v4) t d k l h

/-! ## Window 2: blocks of main_v5 -/

/-- Window 2's block at point t is block (0, t), -/
theorem index0_2 : ∀ t : Fin cfg0.N, win0_2.index t (0 : Fin 2) = 0 ∧ win0_2.index t (1 : Fin 2) = t.val :=
  (by decide +kernel : ∀ t : Fin grid0.N, win0_2.index t (0 : Fin 2) = 0 ∧ win0_2.index t (1 : Fin 2) = t.val)
/-- and the part of it inside the array is all three rows and the columns up to the array's end: 65536 of them, but
    3000000 - 45 * 65536 = 50880 at the last point. -/
theorem xsize0_2 : ∀ t : Fin cfg0.N, win0_2.xsize (grid0.coords t) (0 : Fin 2) = 3
    ∧ win0_2.xsize (grid0.coords t) (1 : Fin 2) = min 65536 (3000000 - t.val * 65536) :=
  (by decide +kernel : ∀ t : Fin grid0.N, win0_2.xsize (grid0.coords t) (0 : Fin 2) = 3
    ∧ win0_2.xsize (grid0.coords t) (1 : Fin 2) = min 65536 (3000000 - t.val * 65536))

/-- Over any contents A of the array: the buffer filled with block t of A, read at (k, l) with column t * 65536 + l
    inside the array, is A at (k, t * 65536 + l). The coordinate (k, l) is among those the transfer moves (k is below 3,
    l below the cut extent since t * 65536 + l is below 3000000), so the filled buffer reads the block there; and the
    block's entry (k, l) is the array's entry (0 * 3 + k, t * 65536 + l). -/
theorem fill_read_of2 (c : Dev nD) (A : Buf (Elt F) ((c : Thread nD τ).loc main_v5)) (t : Fin cfg0.N)
    (d : S3x65536.Idx → Elt F .f32) (k : Fin 3) (l : Fin 65536) (h : t.val * 65536 + l.val < 3000000) :
    (win0_2.fill (grid0.coords t) d ((win0_2.blk t).view.read (Elt F) A)) (ix2 k l)
      = (A : S3x3000000.Idx → Elt F .f32) (ix2 k ⟨t.val * 65536 + l.val, h⟩) := by
  have hx := xsize0_2 t
  have hi := index0_2 t
  have hmv : win0_2.moved (grid0.coords t) (ix2 k l) = true := by
    rw [Pipeline.Window.moved_iff]
    intro a
    match a with
    | ⟨0, _⟩ => show k.val < win0_2.xsize (grid0.coords t) (0 : Fin 2); rw [hx.1]; exact k.isLt
    | ⟨1, _⟩ => show l.val < win0_2.xsize (grid0.coords t) (1 : Fin 2); rw [hx.2]; have := l.isLt; omega
  unfold Pipeline.Window.fill
  rw [dif_pos hmv, View.read_apply]
  show (A : S3x3000000.Idx → Elt F .f32) ((win0_2.blk t).view.emb _) = (A : S3x3000000.Idx → Elt F .f32) _
  refine congrArg (A : S3x3000000.Idx → Elt F .f32) (funext fun a => Fin.ext ?_)
  match a with
  | ⟨0, _⟩ =>
    show win0_2.index t (0 : Fin 2) * 3 + 1 * k.val = k.val
    rw [hi.1]; omega
  | ⟨1, _⟩ =>
    show win0_2.index t (1 : Fin 2) * 65536 + 1 * l.val = t.val * 65536 + l.val
    rw [hi.2]; omega

/-- At the contents the region finds main_v5 at: window 2's staging buffer at point t, at (k, l) inside the array, holds
    the array's entry (k, t * 65536 + l). -/
theorem fill_read2 (c : Dev nD) (t : Fin cfg0.N) (d : S3x65536.Idx → Elt F .f32) (k : Fin 3) (l : Fin 65536)
    (h : t.val * 65536 + l.val < 3000000) :
    (win0_2.fill (grid0.coords t) d (iblk m c 2 t)) (ix2 k l) = V m c main_v5 (ix2 k ⟨t.val * 65536 + l.val, h⟩) := by
  unfold iblk
  exact fill_read_of2 c (V m c main_v5) t d k l h

/-! ## Window 3: blocks of main_v6 -/

/-- Window 3's block at point t is block (0, t), -/
theorem index0_3 : ∀ t : Fin cfg0.N, win0_3.index t (0 : Fin 2) = 0 ∧ win0_3.index t (1 : Fin 2) = t.val :=
  (by decide +kernel : ∀ t : Fin grid0.N, win0_3.index t (0 : Fin 2) = 0 ∧ win0_3.index t (1 : Fin 2) = t.val)
/-- and the part of it inside the array is all three rows and the columns up to the array's end: 65536 of them, but
    3000000 - 45 * 65536 = 50880 at the last point. -/
theorem xsize0_3 : ∀ t : Fin cfg0.N, win0_3.xsize (grid0.coords t) (0 : Fin 2) = 3
    ∧ win0_3.xsize (grid0.coords t) (1 : Fin 2) = min 65536 (3000000 - t.val * 65536) :=
  (by decide +kernel : ∀ t : Fin grid0.N, win0_3.xsize (grid0.coords t) (0 : Fin 2) = 3
    ∧ win0_3.xsize (grid0.coords t) (1 : Fin 2) = min 65536 (3000000 - t.val * 65536))

/-- Over any contents A of the array: the buffer filled with block t of A, read at (k, l) with column t * 65536 + l
    inside the array, is A at (k, t * 65536 + l). The coordinate (k, l) is among those the transfer moves (k is below 3,
    l below the cut extent since t * 65536 + l is below 3000000), so the filled buffer reads the block there; and the
    block's entry (k, l) is the array's entry (0 * 3 + k, t * 65536 + l). -/
theorem fill_read_of3 (c : Dev nD) (A : Buf (Elt F) ((c : Thread nD τ).loc main_v6)) (t : Fin cfg0.N)
    (d : S3x65536.Idx → Elt F .f32) (k : Fin 3) (l : Fin 65536) (h : t.val * 65536 + l.val < 3000000) :
    (win0_3.fill (grid0.coords t) d ((win0_3.blk t).view.read (Elt F) A)) (ix2 k l)
      = (A : S3x3000000.Idx → Elt F .f32) (ix2 k ⟨t.val * 65536 + l.val, h⟩) := by
  have hx := xsize0_3 t
  have hi := index0_3 t
  have hmv : win0_3.moved (grid0.coords t) (ix2 k l) = true := by
    rw [Pipeline.Window.moved_iff]
    intro a
    match a with
    | ⟨0, _⟩ => show k.val < win0_3.xsize (grid0.coords t) (0 : Fin 2); rw [hx.1]; exact k.isLt
    | ⟨1, _⟩ => show l.val < win0_3.xsize (grid0.coords t) (1 : Fin 2); rw [hx.2]; have := l.isLt; omega
  unfold Pipeline.Window.fill
  rw [dif_pos hmv, View.read_apply]
  show (A : S3x3000000.Idx → Elt F .f32) ((win0_3.blk t).view.emb _) = (A : S3x3000000.Idx → Elt F .f32) _
  refine congrArg (A : S3x3000000.Idx → Elt F .f32) (funext fun a => Fin.ext ?_)
  match a with
  | ⟨0, _⟩ =>
    show win0_3.index t (0 : Fin 2) * 3 + 1 * k.val = k.val
    rw [hi.1]; omega
  | ⟨1, _⟩ =>
    show win0_3.index t (1 : Fin 2) * 65536 + 1 * l.val = t.val * 65536 + l.val
    rw [hi.2]; omega

/-- At the contents the region finds main_v6 at: window 3's staging buffer at point t, at (k, l) inside the array, holds
    the array's entry (k, t * 65536 + l). -/
theorem fill_read3 (c : Dev nD) (t : Fin cfg0.N) (d : S3x65536.Idx → Elt F .f32) (k : Fin 3) (l : Fin 65536)
    (h : t.val * 65536 + l.val < 3000000) :
    (win0_3.fill (grid0.coords t) d (iblk m c 3 t)) (ix2 k l) = V m c main_v6 (ix2 k ⟨t.val * 65536 + l.val, h⟩) := by
  unfold iblk
  exact fill_read_of3 c (V m c main_v6) t d k l h

end Cert.KernelIdeal.Hand

end
-- ==== Proof.PayloadValue.lean ====
/-
  The kernel body's arithmetic, read at an index, is the specification's.

  The body works on four (3, 65536) blocks p0, p1, p2, p3: row k is a coordinate of R^3, column l is an edge of the
  block.  Its values are pointwise in the lane l except for the sums over the three rows (inner products of columns),
  the row broadcast back over the three rows, and the final sum over the lanes.  Read at lane l:
  a = p1 - p0, b = p2 - p0, b' = p3 - p0 column by column; |a|^2, <a, b>, |a|_eps, |b|_eps, sin_eps(a, b) as the
  specification defines them; then the flaps' components orthogonal to the edge, their lengths, the dihedral cosine,
  its clamp and the loss (cos + 1)^2 (`loss_lane`).  The accumulator step adds to the old accumulator the sum of the
  per-lane values over the lanes whose edge index (c * 23 + i) * 65536 + l is below 3000000: the index is computed in
  32-bit words, but with c < 2, i < 23, l < 65536 it stays below 46 * 65536 = 3014656 < 2^31, so no product or sum
  wraps and the signed comparison is the comparison of natural numbers (`acc_step`).  The reset value is zero
  (`reset_val`) and the output block repeats the accumulator's one entry (`out_val`).
-/
import proofs.«401790_j62929860821309_3_alg».proof.Proof.Gen.KernelIdeal.Skeleton
import proofs.«401790_j62929860821309_3_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate

noncomputable section

namespace Cert.KernelIdeal.Payload

open Cert.KernelIdeal Cert.KernelIdeal.Gen Idealize.ShloMosaic Idealize.ShloMosaic.ValueIdx

/-- The sum over the three rows of a (3, 65536) block, kept as a (1, 65536) row: at lane l it is the sum of the
    block's column l. -/
theorem rowsum_apply (x : FVec Ideal S3x65536 .f32) (hφ : FKind.Formats .f32)
    (hacc : (0x00000000#32 : BitVec 32) = 0x00000000#32) (l : Fin 65536) :
    shapeCast S1x65536 (multiReduction .add [0] S65536 x 0x00000000#32 reduces_S3x65536_S65536 hφ hacc)
        shapeCasts_S65536_S1x65536 (ix2 (0 : Fin 1) l)
      = ∑ k : Fin 3, x (ix2 k l) := by
  refine (shapeCast_a_1a_apply _ shapeCasts_S65536_S1x65536 (0 : Fin 1) l).trans ?_
  refine (Ideal.multiReduction_add_single x 0x00000000#32 reduces_S3x65536_S65536 hφ hacc (ix1 l)).trans ?_
  refine Finset.sum_congr rfl fun k _ => congrArg x ?_
  funext a
  match a with
  | ⟨0, _⟩ => rfl
  | ⟨1, _⟩ => rfl

/-- So the row of column inner products of two blocks is, at lane l, the inner product of their columns l. -/
theorem rowdot_apply (x y : FVec Ideal S3x65536 .f32) (hφ : FKind.Formats .f32)
    (hacc : (0x00000000#32 : BitVec 32) = 0x00000000#32) (l : Fin 65536) :
    shapeCast S1x65536 (multiReduction .add [0] S65536 (mulf x y) 0x00000000#32 reduces_S3x65536_S65536 hφ hacc)
        shapeCasts_S65536_S1x65536 (ix2 (0 : Fin 1) l)
      = Cert.Spec.dot3 (fun k => x (ix2 k l)) (fun k => y (ix2 k l)) :=
  rowsum_apply (mulf x y) hφ hacc l
/-- A block cast to its own shape is itself. -/
theorem pay4_apply (v3 : Vec Ideal S3x65536 .f32) (i : S3x65536.Idx) : k0_pay4 (F := Ideal) v3 i = v3 i := by
  unfold k0_pay4
  exact congrFun (shapeCast_self v3 shapeCasts_S3x65536_S3x65536) i

theorem pay5_apply (v9 : Vec Ideal S3x65536 .f32) (i : S3x65536.Idx) : k0_pay5 (F := Ideal) v9 i = v9 i := by
  unfold k0_pay5
  exact congrFun (shapeCast_self v9 shapeCasts_S3x65536_S3x65536) i

/-- The edge vector a = p1 - p0, coordinate by coordinate. -/
theorem pay6_apply (v3 v5 : Vec Ideal S3x65536 .f32) (i : S3x65536.Idx) :
    k0_pay6 (F := Ideal) v3 v5 i = v5 i - v3 i := by
  unfold k0_pay6
  show shapeCast S3x65536 v5 shapeCasts_S3x65536_S3x65536 i - k0_pay4 (F := Ideal) v3 i = _
  rw [pay4_apply, shapeCast_self]

/-- The first flap b = p2 - p0, coordinate by coordinate. -/
theorem pay7_apply (v3 v7 : Vec Ideal S3x65536 .f32) (i : S3x65536.Idx) :
    k0_pay7 (F := Ideal) v3 v7 i = v7 i - v3 i := by
  unfold k0_pay7
  show shapeCast S3x65536 v7 shapeCasts_S3x65536_S3x65536 i - k0_pay4 (F := Ideal) v3 i = _
  rw [pay4_apply, shapeCast_self]

/-- |a|^2 at lane l. -/
theorem pay8_apply (v3 v5 : Vec Ideal S3x65536 .f32) (l : Fin 65536) :
    k0_pay8 (F := Ideal) v3 v5 (ix2 (0 : Fin 1) l)
      = Cert.Spec.dot3 (fun k => v5 (ix2 k l) - v3 (ix2 k l)) (fun k => v5 (ix2 k l) - v3 (ix2 k l)) := by
  unfold k0_pay8
  refine (rowdot_apply _ _ _ _ l).trans ?_
  simp only [pay6_apply]

/-- A square root read at an index is the extended reals' square root of the element. -/
theorem sqrt_apply {s : Shape} {φ : FTy} (a : FVec Ideal s φ) (i : s.Idx) : sqrt a i = Ideal.sqrt (a i) := rfl

/-- |a|_eps at lane l. -/
theorem pay9_apply (v3 v5 : Vec Ideal S3x65536 .f32) (l : Fin 65536) :
    k0_pay9 (F := Ideal) v3 v5 (ix2 (0 : Fin 1) l) = Cert.Spec.len (fun k => v5 (ix2 k l) - v3 (ix2 k l)) := by
  unfold k0_pay9
  simp only [sqrt_apply, addf_apply, broadcast_apply, pay8_apply]
  rfl

/-- |b|_eps at lane l. -/
theorem pay10_apply (v3 v7 : Vec Ideal S3x65536 .f32) (l : Fin 65536) :
    k0_pay10 (F := Ideal) v3 v7 (ix2 (0 : Fin 1) l) = Cert.Spec.len (fun k => v7 (ix2 k l) - v3 (ix2 k l)) := by
  unfold k0_pay10
  simp only [sqrt_apply, addf_apply, broadcast_apply]
  rw [rowdot_apply]
  simp only [pay7_apply]
  rfl

/-- <a, b> at lane l. -/
theorem pay11_apply (v3 v5 v7 : Vec Ideal S3x65536 .f32) (l : Fin 65536) :
    k0_pay11 (F := Ideal) v3 v5 v7 (ix2 (0 : Fin 1) l)
      = Cert.Spec.dot3 (fun k => v5 (ix2 k l) - v3 (ix2 k l)) (fun k => v7 (ix2 k l) - v3 (ix2 k l)) := by
  unfold k0_pay11
  refine (rowdot_apply _ _ _ _ l).trans ?_
  simp only [pay6_apply, pay7_apply]

/-- sin_eps of the angle between a and b at lane l. -/
theorem pay12_apply (v3 v5 v7 : Vec Ideal S3x65536 .f32) (l : Fin 65536) :
    k0_pay12 (F := Ideal) v3 v5 v7 (ix2 (0 : Fin 1) l)
      = Cert.Spec.sinE (fun k => v5 (ix2 k l) - v3 (ix2 k l)) (fun k => v7 (ix2 k l) - v3 (ix2 k l)) := by
  unfold k0_pay12
  simp only [sqrt_apply, addf_apply, subf_apply, mulf_apply, divf_apply, broadcast_apply, pay9_apply, pay10_apply, pay11_apply]
  rfl

/-- The second half of the chain over abstract blocks and rows whose values at lane l are known: with a the edge,
    b and b' = p3 - p0 the flaps, it is the squared clamped dihedral cosine plus one. -/
theorem pay13_lane (V4 V10 V11 V12 : FVec Ideal S3x65536 .f32) (V15 V21 V24 V27 V37 : FVec Ideal S1x65536 .f32)
    (l : Fin 65536) (p0 p3 a b : Fin 3 → EReal)
    (h4 : ∀ k : Fin 3, V4 (ix2 k l) = p0 k) (h10 : ∀ k : Fin 3, V10 (ix2 k l) = p3 k)
    (h11 : ∀ k : Fin 3, V11 (ix2 k l) = a k) (h12 : ∀ k : Fin 3, V12 (ix2 k l) = b k)
    (h15 : V15 (ix2 (0 : Fin 1) l) = Cert.Spec.dot3 a a) (h21 : V21 (ix2 (0 : Fin 1) l) = Cert.Spec.len a)
    (h24 : V24 (ix2 (0 : Fin 1) l) = Cert.Spec.len b) (h27 : V27 (ix2 (0 : Fin 1) l) = Cert.Spec.dot3 a b)
    (h37 : V37 (ix2 (0 : Fin 1) l) = Cert.Spec.sinE a b) :
    k0_pay13 (F := Ideal) V4 V10 V11 V12 V15 V21 V24 V27 V37 (Scalar.ofBits .f32 0x358637BD#32) (ix2 (0 : Fin 1) l)
      = (Cert.Spec.clampCos (Cert.Spec.dihedral a b (fun k => p3 k - p0 k)) + Cert.Spec.one)
        * (Cert.Spec.clampCos (Cert.Spec.dihedral a b (fun k => p3 k - p0 k)) + Cert.Spec.one) := by
  unfold k0_pay13
  simp only [sqrt_apply, addf_apply, subf_apply, mulf_apply, divf_apply, broadcast_apply, select_apply, cmpf_apply,
    broadcastTo_1b_ab_apply, h4, h10, h11, h12, h15, h21, h24, h27, h37]
  rw [rowdot_apply]
  simp only [sqrt_apply, addf_apply, subf_apply, mulf_apply, divf_apply, broadcast_apply, select_apply, cmpf_apply,
    broadcastTo_1b_ab_apply, h4, h10, h11, h12, h15, h21, h24, h27, h37]
  rw [rowdot_apply]
  simp only [sqrt_apply, addf_apply, subf_apply, mulf_apply, divf_apply, broadcast_apply, select_apply, cmpf_apply,
    broadcastTo_1b_ab_apply, h4, h10, h11, h12, h15, h21, h24, h27, h37]
  rw [rowdot_apply]
  simp only [sqrt_apply, addf_apply, subf_apply, mulf_apply, divf_apply, broadcast_apply, select_apply, cmpf_apply,
    broadcastTo_1b_ab_apply, h4, h10, h11, h12, h15, h21, h24, h27, h37]
  rfl

/-- THE PER-LANE LOSS: the kernel body's chain at lane l of its four blocks is the specification's loss of the edge
    whose endpoints are the blocks' columns l. -/
theorem loss_lane (v3 v5 v7 v9 : Vec Ideal S3x65536 .f32) (l : Fin 65536) :
    k0_pay13 (F := Ideal) (k0_pay4 v3) (k0_pay5 v9) (k0_pay6 v3 v5) (k0_pay7 v3 v7) (k0_pay8 v3 v5) (k0_pay9 v3 v5)
        (k0_pay10 v3 v7) (k0_pay11 v3 v5 v7) (k0_pay12 v3 v5 v7) (Scalar.ofBits .f32 0x358637BD#32) (ix2 (0 : Fin 1) l)
      = Cert.Spec.edgeLoss (fun k => v3 (ix2 k l)) (fun k => v5 (ix2 k l)) (fun k => v7 (ix2 k l)) (fun k => v9 (ix2 k l)) :=
  pay13_lane _ _ _ _ _ _ _ _ _ l (fun k => v3 (ix2 k l)) (fun k => v9 (ix2 k l))
    (fun k => v5 (ix2 k l) - v3 (ix2 k l)) (fun k => v7 (ix2 k l) - v3 (ix2 k l))
    (fun k => pay4_apply v3 _) (fun k => pay5_apply v9 _) (fun k => pay6_apply v3 v5 _) (fun k => pay7_apply v3 v7 _)
    (pay8_apply v3 v5 l) (pay9_apply v3 v5 l) (pay10_apply v3 v7 l) (pay11_apply v3 v5 v7 l) (pay12_apply v3 v5 v7 l)

/-- The sum over the 65536 lanes of a (1, 65536) row, kept as a (1, 1) entry. -/
theorem lanesum_apply (x : FVec Ideal S1x65536 .f32) (hφ : FKind.Formats .f32)
    (hacc : (0x00000000#32 : BitVec 32) = 0x00000000#32) :
    shapeCast S1x1 (multiReduction .add [1] S1 x 0x00000000#32 reduces_S1x65536_S1 hφ hacc)
        shapeCasts_S1_S1x1 (ix2 (0 : Fin 1) (0 : Fin 1))
      = ∑ l : Fin 65536, x (ix2 (0 : Fin 1) l) := by
  refine (shapeCast_a_1a_apply _ shapeCasts_S1_S1x1 (0 : Fin 1) (0 : Fin 1)).trans ?_
  refine (Ideal.multiReduction_add_single x 0x00000000#32 reduces_S1x65536_S1 hφ hacc (ix1 (0 : Fin 1))).trans ?_
  refine Finset.sum_congr rfl fun k _ => congrArg x ?_
  funext a
  match a with
  | ⟨0, _⟩ => rfl
  | ⟨1, _⟩ => rfl

/-- The edge index of lane l of block (c, i), computed in 32-bit words, is the word of the natural number. -/
theorem lane_word (c i l : Nat) :
    IntOp.addi (Scalar.muli (Scalar.addi (Scalar.muli (BitVec.ofNat 32 c) 23#32) (BitVec.ofNat 32 i)) 65536#32)
        (BitVec.ofNat 32 l)
      = BitVec.ofNat 32 ((c * 23 + i) * 65536 + l) := by
  show (BitVec.ofNat 32 c * BitVec.ofNat 32 23 + BitVec.ofNat 32 i) * BitVec.ofNat 32 65536 + BitVec.ofNat 32 l = _
  rw [← BitVec.ofNat_mul, ← BitVec.ofNat_add, ← BitVec.ofNat_mul, ← BitVec.ofNat_add]

/-- Below 2^31 the signed comparison with 3000000 is the comparison of natural numbers, so the select on it is the `if`. -/
theorem select_lt (n : Nat) (hn : n < 2 ^ 31) (x : EReal) :
    Scalar.select (IntOp.cmpi .slt (BitVec.ofNat 32 n) 3000000#32) x (Scalar.ofBits (F := Ideal) .f32 0x00000000#32)
      = if n < 3000000 then x else 0 := by
  have hlt : IntOp.cmpi .slt (BitVec.ofNat 32 n) 3000000#32 = 1#1 ↔ n < 3000000 := by
    refine (StableHlo.Predicate.slt_iff_toNat ?_ ?_).trans ?_
    · rw [BitVec.toNat_ofNat]; omega
    · decide
    · rw [BitVec.toNat_ofNat]
      show n % 2 ^ 32 < 3000000 ↔ _
      omega
  by_cases h : n < 3000000
  · rw [hlt.mpr h, select_one, if_pos h]
  · rw [eq_zero_of_ne_one (fun hc => h (hlt.mp hc)), select_zero, if_neg h]
    exact Ideal.ofBits_zero_f32

/-- The masked loss at lane l of block (c, i): kept where the lane's edge index is below 3000000, else zero. -/
theorem mask_apply (c : Fin 2) (i : Fin 23) (v85 : FVec Ideal S1x65536 .f32) (l : Fin 65536) :
    select (cmpi .slt
        (addi (broadcast S1x65536
            (Scalar.muli (Scalar.addi (Scalar.muli (BitVec.ofNat 32 c.val) 23#32) (BitVec.ofNat 32 i.val)) 65536#32))
          (iota .tc S1x65536 32 [1] iota_S1x65536_d1_w32))
        (broadcast S1x65536 3000000#32)) v85 (broadcast S1x65536 (Scalar.ofBits (F := Ideal) .f32 0x00000000#32))
        (ix2 (0 : Fin 1) l)
      = if (c.val * 23 + i.val) * 65536 + l.val < 3000000 then v85 (ix2 (0 : Fin 1) l) else 0 := by
  have hi : iota .tc S1x65536 32 [1] iota_S1x65536_d1_w32 (ix2 (0 : Fin 1) l) = BitVec.ofNat 32 l.val :=
    iota_single_apply .tc S1x65536 32 1 iota_S1x65536_d1_w32 (ix2 (0 : Fin 1) l)
  show Scalar.select (IntOp.cmpi .slt
      (IntOp.addi (Scalar.muli (Scalar.addi (Scalar.muli (BitVec.ofNat 32 c.val) 23#32) (BitVec.ofNat 32 i.val)) 65536#32)
        (iota .tc S1x65536 32 [1] iota_S1x65536_d1_w32 (ix2 (0 : Fin 1) l))) 3000000#32)
      (v85 (ix2 (0 : Fin 1) l)) (Scalar.ofBits (F := Ideal) .f32 0x00000000#32) = _
  rw [hi, lane_word]
  exact select_lt _ (by have := c.isLt; have := i.isLt; have := l.isLt; omega) _

/-- The one index of a (1, 1) vector. -/
theorem idx11 (y : S1x1.Idx) : y = ix2 (0 : Fin 1) (0 : Fin 1) := by
  funext a
  match a with
  | ⟨0, _⟩ => exact Fin.ext (by have := idx2_lt0 y; show (y 0).val = 0; omega)
  | ⟨1, _⟩ => exact Fin.ext (by have := idx2_lt1 y; show (y 1).val = 0; omega)

/-- THE ACCUMULATOR STEP: the new accumulator is the old one plus the sum, over the block's lanes whose edge index is
    below the number of edges, of the per-lane values. -/
theorem acc_step (c : Fin 2) (i : Fin 23) (v85 : FVec Ideal S1x65536 .f32) (v98 : Vec Ideal S1x1 .f32) (y : S1x1.Idx) :
    k0_pay1 (F := Ideal) (BitVec.ofNat 32 c.val) (BitVec.ofNat 32 i.val) v85 v98 y
      = v98 (ix2 (0 : Fin 1) (0 : Fin 1))
        + ∑ l : Fin 65536, if (c.val * 23 + i.val) * 65536 + l.val < 3000000 then v85 (ix2 (0 : Fin 1) l) else 0 := by
  obtain rfl := idx11 y
  unfold k0_pay1
  simp only [shapeCast_self, addf_apply]
  rw [lanesum_apply]
  refine congrArg (v98 (ix2 (0 : Fin 1) (0 : Fin 1)) + ·) ?_
  exact Finset.sum_congr rfl fun l _ => mask_apply c i v85 l

/-- THE RESET: the accumulator is reset to zero. -/
theorem reset_val (y : S1x1.Idx) : k0_pay3 (F := Ideal) y = 0 := by
  unfold k0_pay3
  simp only [shapeCast_self, broadcast_apply]
  exact Ideal.ofBits_zero_f32

/-- THE OUTPUT: every entry of the (1, 8, 128) output block is the accumulator's one entry. -/
theorem out_val (v106 : Vec Ideal S1x1 .f32) (y : S1x8x128.Idx) :
    k0_pay2 (F := Ideal) v106 y = v106 (ix2 (0 : Fin 1) (0 : Fin 1)) := by
  obtain ⟨u, p, q, rfl⟩ : ∃ (u : Fin 1) (p : Fin 8) (q : Fin 128), y = ix3 u p q := ⟨y 0, y 1, y 2, eq_ix3 y⟩
  unfold k0_pay2
  refine (shapeCast_ab_1ab_apply _ shapeCasts_S8x128_S1x8x128 u p q).trans ?_
  show extractAt ![0, 0] v106 inpos_S1x1_p0_0 = _
  unfold extractAt
  exact congrArg v106 (idx11 _)

end Cert.KernelIdeal.Payload

end
-- ==== Proof.ValueI.lean ====
/-
  The run of the kernel program on the extended reals, with values.  At grid point t the body's update of the
  accumulator, read at its one entry, is the entry before (zero at a row's first step) plus the masked lane sum of the
  per-lane loss; a lane whose edge exists reads its four points off the staged blocks, which on the part inside the
  arrays are the arrays' columns, so its loss is the edge's; the masked lanes contribute zero whatever the buffers hold
  past the arrays' end.  Hence the accumulator after point t is accI t, and the block stored at a row's last step
  holds it in every entry.
-/
import proofs.«401790_j62929860821309_3_alg».proof.Proof.DatI
import proofs.«401790_j62929860821309_3_alg».proof.Proof.PiecesI
import proofs.«401790_j62929860821309_3_alg».proof.Proof.FillRead
import proofs.«401790_j62929860821309_3_alg».proof.Proof.PayloadValue

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

open Idealize.ShloMosaic.ValueIdx

/-- One step over any four blocks, at row a and step b of the grid: the accumulator's new entry is the old one plus
    the masked lane sum of the per-lane loss. -/
theorem accNext_gen (i : grid0.Coords) (a b : ℕ) (ha2 : a < 2) (hb23 : b < 23) (ha : (i 0).val = a) (hb : (i 1).val = b)
    (x0 x1 x2 x3 : Vec Ideal S3x65536 .f32) (xs0 : Vec Ideal S1x1 .f32) (y : S1x1.Idx) :
    accNext (F := Ideal) i x0 x1 x2 x3 xs0 y
      = xs0 (ix2 (0 : Fin 1) (0 : Fin 1))
        + ∑ l : Fin 65536, if (a * 23 + b) * 65536 + l.val < 3000000 then lossVec x0 x1 x2 x3 (ix2 (0 : Fin 1) l) else 0 := by
  unfold accNext; rw [ha, hb]; exact Cert.KernelIdeal.Payload.acc_step ⟨a, ha2⟩ ⟨b, hb23⟩ _ xs0 y

/-- The grid's coordinates are a row below 2 and a step below 23. -/
theorem coords_lt : ∀ t : Fin cfg0.N, (grid0.coords t 0).val < 2 ∧ (grid0.coords t 1).val < 23 :=
  (by decide +kernel : ∀ t : Fin grid0.N, (grid0.coords t 0).val < 2 ∧ (grid0.coords t 1).val < 23)

/-- The step at grid point t, over staging buffers holding the blocks filled out with anything: the accumulator's new
    entry is the old one plus the point's masked block sum. -/
theorem accNext_val (c : Dev nD) (t : Fin cfg0.N) (d0 d1 d2 d3 : S3x65536.Idx → Elt Ideal .f32) (xs0 : Vec Ideal S1x1 .f32) (y : S1x1.Idx) :
    accNext (F := Ideal) (grid0.coords t) (win0_0.fill (grid0.coords t) d0 (iblk m c 0 t)) (win0_1.fill (grid0.coords t) d1 (iblk m c 1 t))
        (win0_2.fill (grid0.coords t) d2 (iblk m c 2 t)) (win0_3.fill (grid0.coords t) d3 (iblk m c 3 t)) xs0 y
      = xs0 (ix2 (0 : Fin 1) (0 : Fin 1)) + bsum m c t.val := by
  rw [accNext_gen (grid0.coords t) _ _ (coords_lt t).1 (coords_lt t).2 rfl rfl]
  refine congrArg (fun z => xs0 (ix2 (0 : Fin 1) (0 : Fin 1)) + z) ?_
  unfold bsum
  refine Finset.sum_congr rfl fun l _ => ?_
  rw [coords_val t]
  by_cases h : t.val * 65536 + l.val < 3000000
  · rw [if_pos h, dif_pos h]
    have e0 : (fun k : Fin 3 => (win0_0.fill (grid0.coords t) d0 (iblk m c 0 t)) (ix2 k l))
        = fun k => V m c main_v3 (ix2 k ⟨t.val * 65536 + l.val, h⟩) := funext fun k => fill_read0 m c t d0 k l h
    have e1 : (fun k : Fin 3 => (win0_1.fill (grid0.coords t) d1 (iblk m c 1 t)) (ix2 k l))
        = fun k => V m c main_v4 (ix2 k ⟨t.val * 65536 + l.val, h⟩) := funext fun k => fill_read1 m c t d1 k l h
    have e2 : (fun k : Fin 3 => (win0_2.fill (grid0.coords t) d2 (iblk m c 2 t)) (ix2 k l))
        = fun k => V m c main_v5 (ix2 k ⟨t.val * 65536 + l.val, h⟩) := funext fun k => fill_read2 m c t d2 k l h
    have e3 : (fun k : Fin 3 => (win0_3.fill (grid0.coords t) d3 (iblk m c 3 t)) (ix2 k l))
        = fun k => V m c main_v6 (ix2 k ⟨t.val * 65536 + l.val, h⟩) := funext fun k => fill_read3 m c t d3 k l h
    unfold lossVec lossArr
    refine (Cert.KernelIdeal.Payload.loss_lane _ _ _ _ l).trans ?_
    rw [e0, e1, e2, e3]
  · rw [if_neg h, dif_neg h]

/-! ## What the body finds and leaves in the inputs' buffers -/

theorem beforeI_0 (c : Dev nD) (t : Fin cfg0.N) (d) : (datsI m 0 c).before 0 t d = win0_0.fill (grid0.coords t) d (iblk m c 0 t) :=
  before_in_of m (datsI m 0 c) 0 (AI_eq m c 0) fetch0_0 t d
theorem beforeI_1 (c : Dev nD) (t : Fin cfg0.N) (d) : (datsI m 0 c).before 1 t d = win0_1.fill (grid0.coords t) d (iblk m c 1 t) :=
  before_in_of m (datsI m 0 c) 1 (AI_eq m c 1) fetch0_1 t d
theorem beforeI_2 (c : Dev nD) (t : Fin cfg0.N) (d) : (datsI m 0 c).before 2 t d = win0_2.fill (grid0.coords t) d (iblk m c 2 t) :=
  before_in_of m (datsI m 0 c) 2 (AI_eq m c 2) fetch0_2 t d
theorem beforeI_3 (c : Dev nD) (t : Fin cfg0.N) (d) : (datsI m 0 c).before 3 t d = win0_3.fill (grid0.coords t) d (iblk m c 3 t) :=
  before_in_of m (datsI m 0 c) 3 (AI_eq m c 3) fetch0_3 t d

theorem cutI_0 (c : Dev nD) (t : Fin cfg0.N) : win0_0.cut (grid0.coords t) ((datsI m 0 c).after 0 t) = iblk m c 0 t := by
  dsimp only [datsI, zblk0]; exact win0_0.cut_fill _ _ _
theorem cutI_1 (c : Dev nD) (t : Fin cfg0.N) : win0_1.cut (grid0.coords t) ((datsI m 0 c).after 1 t) = iblk m c 1 t := by
  dsimp only [datsI, zblk1]; exact win0_1.cut_fill _ _ _
theorem cutI_2 (c : Dev nD) (t : Fin cfg0.N) : win0_2.cut (grid0.coords t) ((datsI m 0 c).after 2 t) = iblk m c 2 t := by
  dsimp only [datsI, zblk2]; exact win0_2.cut_fill _ _ _
theorem cutI_3 (c : Dev nD) (t : Fin cfg0.N) : win0_3.cut (grid0.coords t) ((datsI m 0 c).after 3 t) = iblk m c 3 t := by
  dsimp only [datsI, zblk3]; exact win0_3.cut_fill _ _ _

theorem leaveI_0 (c : Dev nD) (t : Fin cfg0.N) (d : S3x65536.Idx → Elt Ideal .f32) :
    win0_0.fill (grid0.coords t) d (win0_0.cut (grid0.coords t) ((datsI m 0 c).after 0 t)) = win0_0.fill (grid0.coords t) d (iblk m c 0 t) :=
  congrArg (win0_0.fill (grid0.coords t) d) (cutI_0 m c t)
theorem leaveI_1 (c : Dev nD) (t : Fin cfg0.N) (d : S3x65536.Idx → Elt Ideal .f32) :
    win0_1.fill (grid0.coords t) d (win0_1.cut (grid0.coords t) ((datsI m 0 c).after 1 t)) = win0_1.fill (grid0.coords t) d (iblk m c 1 t) :=
  congrArg (win0_1.fill (grid0.coords t) d) (cutI_1 m c t)
theorem leaveI_2 (c : Dev nD) (t : Fin cfg0.N) (d : S3x65536.Idx → Elt Ideal .f32) :
    win0_2.fill (grid0.coords t) d (win0_2.cut (grid0.coords t) ((datsI m 0 c).after 2 t)) = win0_2.fill (grid0.coords t) d (iblk m c 2 t) :=
  congrArg (win0_2.fill (grid0.coords t) d) (cutI_2 m c t)
theorem leaveI_3 (c : Dev nD) (t : Fin cfg0.N) (d : S3x65536.Idx → Elt Ideal .f32) :
    win0_3.fill (grid0.coords t) d (win0_3.cut (grid0.coords t) ((datsI m 0 c).after 3 t)) = win0_3.fill (grid0.coords t) d (iblk m c 3 t) :=
  congrArg (win0_3.fill (grid0.coords t) d) (cutI_3 m c t)

/-! ## The body obligation -/

/-- What the output's buffer is handed back at: away from a row's last step as found; there, at the block. -/
def post4 (c : Dev nD) (t : Fin cfg0.N) : sProp 𝕄 :=
  match cfg0.idle 4 (grid0.coords t) with
  | true =>
    match (cfg0.win 4).flush t with
    | false => iprop(∃ d, owns (c : Thread nD τ) (ms0_4 t) fullShare ((datsI m 0 c).before 4 t d))
    | true => owns (c : Thread nD τ) (ms0_4 t) fullShare ((datsI m 0 c).after 4 t)
  | false => owns (c : Thread nD τ) (ms0_4 t) fullShare ((datsI m 0 c).after 4 t)

theorem post4_idle (c : Dev nD) (t : Fin cfg0.N) (hi : cfg0.idle 4 (grid0.coords t) = true) (hf : (cfg0.win 4).flush t = false) :
    post4 m c t = iprop(∃ d, owns (c : Thread nD τ) (ms0_4 t) fullShare ((datsI m 0 c).before 4 t d)) := by
  unfold post4; rw [hi, hf]
theorem post4_live (c : Dev nD) (t : Fin cfg0.N) (hi : cfg0.idle 4 (grid0.coords t) = false) :
    post4 m c t = owns (c : Thread nD τ) (ms0_4 t) fullShare (oblk m c t) := by
  unfold post4; rw [hi, afterI_4]

def bodyPreI (c : Dev nD) (t : Fin cfg0.N) : sProp 𝕄 :=
  iprop((datsI m 0 c).Φ t.castSucc ∗ (datsI m 0 c).owesAt () t.castSucc
    ∗ (∃ d, owns (c : Thread nD τ) (ms0_0 t) fullShare ((datsI m 0 c).before 0 t d))
    ∗ (∃ d, owns (c : Thread nD τ) (ms0_1 t) fullShare ((datsI m 0 c).before 1 t d))
    ∗ (∃ d, owns (c : Thread nD τ) (ms0_2 t) fullShare ((datsI m 0 c).before 2 t d))
    ∗ (∃ d, owns (c : Thread nD τ) (ms0_3 t) fullShare ((datsI m 0 c).before 3 t d))
    ∗ (∃ d, owns (c : Thread nD τ) (ms0_4 t) fullShare ((datsI m 0 c).before 4 t d)))

def bodyPostI (c : Dev nD) (t : Fin cfg0.N) : sProp 𝕄 :=
  iprop((datsI m 0 c).Φ t.succ ∗ (datsI m 0 c).owesAt () t.succ
    ∗ (∃ d, owns (c : Thread nD τ) (ms0_0 t) fullShare (win0_0.fill (grid0.coords t) d (win0_0.cut (grid0.coords t) ((datsI m 0 c).after 0 t))))
    ∗ (∃ d, owns (c : Thread nD τ) (ms0_1 t) fullShare (win0_1.fill (grid0.coords t) d (win0_1.cut (grid0.coords t) ((datsI m 0 c).after 1 t))))
    ∗ (∃ d, owns (c : Thread nD τ) (ms0_2 t) fullShare (win0_2.fill (grid0.coords t) d (win0_2.cut (grid0.coords t) ((datsI m 0 c).after 2 t))))
    ∗ (∃ d, owns (c : Thread nD τ) (ms0_3 t) fullShare (win0_3.fill (grid0.coords t) d (win0_3.cut (grid0.coords t) ((datsI m 0 c).after 3 t))))
    ∗ post4 m c t)

/-- The accumulator's stored pieces, owned at the closed form. -/
theorem owns_acc (c : Dev nD) (n : ℕ) (g : Buf (Elt Ideal) (scM0_0.view.loc (c : Thread nD τ)))
    (hg : scM0_0.view.read (Elt Ideal) g = fun _ => accI m c n) :
    (scM0_0.view.loc (c : Thread nD τ) ↦[scM0_0.view.set]{fullShare} g : sProp 𝕄) ⊢ owns (c : Thread nD τ) scM0_0 fullShare (fun _ => accI m c n) := by
  iintro H; unfold owns; iexists g; isplitr
  · ipureintro; exact hg
  iexact H

set_option maxHeartbeats 4000000 in
theorem sound_bodyI (c : Dev nD) (t : Fin cfg0.N) :
    bodyPreI m c t ⊢ wp frame (wpE (defs₀ (F := Ideal)) Variants.none c none) Set.univ (bodyAt0 t) (fun _ => bodyPostI m c t) := by
  unfold bodyPreI bodyPostI bodyAt0
  simp only [beforeI_0, beforeI_1, beforeI_2, beforeI_3]
  rw [show (datsI m 0 c).owesAt () t.succ = (datsI m 0 c).owesAt () t.castSucc from rfl]
  rw [show (datsI m 0 c).Φ t.succ = PhiS m c (t.val + 1) t.isLt from rfl, PhiS_succ, PhiS_castSucc m c t]
  by_cases h0 : t.val % 23 = 0
  · have h1 : ¬ t.val % 23 = 22 := by omega
    have hk0 := (hcond0_0 t).mpr h0
    have hk1 : ¬ cond0_1 (grid0.coords t) := fun h => h1 ((hcond0_1 t).mp h)
    rw [post4_idle m c t (idleAt0_4 t hk1) (noFlush0_4 t hk1)]
    have key : ∀ (d0 d1 d2 d3 : S3x65536.Idx → Elt Ideal .f32) (f : Buf (Elt Ideal) (scM0_0.view.loc (c : Thread nD τ))),
        scM0_0.view.read (Elt Ideal) (scM0_0.view.writes (Elt Ideal) f (kernelRun0_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) hk0 hk1
          (win0_0.fill (grid0.coords t) d0 (iblk m c 0 t)) (win0_1.fill (grid0.coords t) d1 (iblk m c 1 t)) (win0_2.fill (grid0.coords t) d2 (iblk m c 2 t)) (win0_3.fill (grid0.coords t) d3 (iblk m c 3 t))).1)
          = fun _ => accI m c t.val := by
      intro d0 d1 d2 d3 f
      rw [sread0_A_0]
      funext y
      rw [accNext_val m c t d0 d1 d2 d3 _ y, accI_first m c t.val h0, Cert.KernelIdeal.Payload.reset_val]
    have pre : (PhiS m c t.val (Nat.le_of_lt t.isLt) : sProp 𝕄) ⊢ iprop(iprop((∃ d, owns (c : Thread nD τ) scM0_0 fullShare d)) ∗ (∃ r, prngReg c r)) := by
      by_cases hz : t.val = 0
      · rw [PhiS_zero m c _ _ hz, PhiA0_eq]
      · rw [PhiS_pos m c _ _ hz]
        iintro ⟨HS0, Hg⟩
        isplitl [HS0]; · iexists _; iexact HS0
        iexact Hg
    iintro ⟨HΦ, Ho, ⟨%d0, H0⟩, ⟨%d1, H1⟩, ⟨%d2, H2⟩, ⟨%d3, H3⟩, H4⟩
    ihave HΦ' := pre $$ HΦ
    icases HΦ' with ⟨HS0, Hg⟩
    iapply ((kernelRun0_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) hk0 hk1 (win0_0.fill (grid0.coords t) d0 (iblk m c 0 t)) (win0_1.fill (grid0.coords t) d1 (iblk m c 1 t)) (win0_2.fill (grid0.coords t) d2 (iblk m c 2 t)) (win0_3.fill (grid0.coords t) d3 (iblk m c 3 t))).2 Set.univ _)
    isplitl [H0]; · iexact H0
    isplitl [H1]; · iexact H1
    isplitl [H2]; · iexact H2
    isplitl [H3]; · iexact H3
    isplitl [HS0]; · iexact HS0
    iintro ⟨H0, H1, H2, H3, ⟨%es0, HS0⟩⟩
    isplitl [HS0 Hg]
    · isplitl [HS0]; · iapply (owns_acc m c t.val _ (key d0 d1 d2 d3 es0)); iexact HS0
      iexact Hg
    isplitl [Ho]; · iexact Ho
    isplitl [H0]; · iexists d0; rw [leaveI_0 m c t d0]; iexact H0
    isplitl [H1]; · iexists d1; rw [leaveI_1 m c t d1]; iexact H1
    isplitl [H2]; · iexists d2; rw [leaveI_2 m c t d2]; iexact H2
    isplitl [H3]; · iexists d3; rw [leaveI_3 m c t d3]; iexact H3
    iexact H4
  · have hz : t.val ≠ 0 := fun h => h0 (by rw [h])
    have hk0 : ¬ cond0_0 (grid0.coords t) := fun h => h0 ((hcond0_0 t).mp h)
    rw [PhiS_pos m c _ _ hz]
    by_cases h1 : t.val % 23 = 22
    · have hk1 := (hcond0_1 t).mpr h1
      rw [post4_live m c t (liveAt0_4 t hk1)]
      have key : ∀ (d0 d1 d2 d3 : S3x65536.Idx → Elt Ideal .f32) (f : Buf (Elt Ideal) (scM0_0.view.loc (c : Thread nD τ))),
          scM0_0.view.read (Elt Ideal) (scM0_0.view.writes (Elt Ideal) f (kernelRun0_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) hk0 hk1
            (win0_0.fill (grid0.coords t) d0 (iblk m c 0 t)) (win0_1.fill (grid0.coords t) d1 (iblk m c 1 t)) (win0_2.fill (grid0.coords t) d2 (iblk m c 2 t)) (win0_3.fill (grid0.coords t) d3 (iblk m c 3 t)) (fun _ => accI m c (t.val - 1))).2.1)
            = fun _ => accI m c t.val := by
        intro d0 d1 d2 d3 f
        rw [sread0_C_0]
        funext y
        rw [accNext_val m c t d0 d1 d2 d3 _ y, accI_next m c t.val h0]
      have keyO : ∀ (d0 d1 d2 d3 : S3x65536.Idx → Elt Ideal .f32) (f : Buf (Elt Ideal) ((ms0_4 t).view.loc (c : Thread nD τ))),
          (ms0_4 t).view.read (Elt Ideal) ((ms0_4 t).view.writes (Elt Ideal) f (kernelRun0_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) hk0 hk1
            (win0_0.fill (grid0.coords t) d0 (iblk m c 0 t)) (win0_1.fill (grid0.coords t) d1 (iblk m c 1 t)) (win0_2.fill (grid0.coords t) d2 (iblk m c 2 t)) (win0_3.fill (grid0.coords t) d3 (iblk m c 3 t)) (fun _ => accI m c (t.val - 1))).1)
            = oblk m c t := by
        intro d0 d1 d2 d3 f
        rw [oread0_C_4]
        funext y
        rw [Cert.KernelIdeal.Payload.out_val, accNext_val m c t d0 d1 d2 d3 _ _]
        show _ = accI m c t.val
        rw [accI_next m c t.val h0]
      iintro ⟨⟨HS0, Hg⟩, Ho, ⟨%d0, H0⟩, ⟨%d1, H1⟩, ⟨%d2, H2⟩, ⟨%d3, H3⟩, ⟨%d4, H4⟩⟩
      iapply ((kernelRun0_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) hk0 hk1 (win0_0.fill (grid0.coords t) d0 (iblk m c 0 t)) (win0_1.fill (grid0.coords t) d1 (iblk m c 1 t)) (win0_2.fill (grid0.coords t) d2 (iblk m c 2 t)) (win0_3.fill (grid0.coords t) d3 (iblk m c 3 t)) (fun _ => accI m c (t.val - 1))).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hg]
      · isplitl [HS0]; · iapply (owns_acc m c t.val _ (key d0 d1 d2 d3 es0)); iexact HS0
        iexact Hg
      isplitl [Ho]; · iexact Ho
      isplitl [H0]; · iexists d0; rw [leaveI_0 m c t d0]; iexact H0
      isplitl [H1]; · iexists d1; rw [leaveI_1 m c t d1]; iexact H1
      isplitl [H2]; · iexists d2; rw [leaveI_2 m c t d2]; iexact H2
      isplitl [H3]; · iexists d3; rw [leaveI_3 m c t d3]; iexact H3
      unfold owns; iexists _; isplitr
      swap; · iexact H4
      ipureintro; exact keyO d0 d1 d2 d3 e4
    · have hk1 : ¬ cond0_1 (grid0.coords t) := fun h => h1 ((hcond0_1 t).mp h)
      rw [post4_idle m c t (idleAt0_4 t hk1) (noFlush0_4 t hk1)]
      have key : ∀ (d0 d1 d2 d3 : S3x65536.Idx → Elt Ideal .f32) (f : Buf (Elt Ideal) (scM0_0.view.loc (c : Thread nD τ))),
          scM0_0.view.read (Elt Ideal) (scM0_0.view.writes (Elt Ideal) f (kernelRun0_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) hk0 hk1
            (win0_0.fill (grid0.coords t) d0 (iblk m c 0 t)) (win0_1.fill (grid0.coords t) d1 (iblk m c 1 t)) (win0_2.fill (grid0.coords t) d2 (iblk m c 2 t)) (win0_3.fill (grid0.coords t) d3 (iblk m c 3 t)) (fun _ => accI m c (t.val - 1))).1)
            = fun _ => accI m c t.val := by
        intro d0 d1 d2 d3 f
        rw [sread0_B_0]
        funext y
        rw [accNext_val m c t d0 d1 d2 d3 _ y, accI_next m c t.val h0]
      iintro ⟨⟨HS0, Hg⟩, Ho, ⟨%d0, H0⟩, ⟨%d1, H1⟩, ⟨%d2, H2⟩, ⟨%d3, H3⟩, H4⟩
      iapply ((kernelRun0_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) hk0 hk1 (win0_0.fill (grid0.coords t) d0 (iblk m c 0 t)) (win0_1.fill (grid0.coords t) d1 (iblk m c 1 t)) (win0_2.fill (grid0.coords t) d2 (iblk m c 2 t)) (win0_3.fill (grid0.coords t) d3 (iblk m c 3 t)) (fun _ => accI m c (t.val - 1))).2 Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg]
      · isplitl [HS0]; · iapply (owns_acc m c t.val _ (key d0 d1 d2 d3 es0)); iexact HS0
        iexact Hg
      isplitl [Ho]; · iexact Ho
      isplitl [H0]; · iexists d0; rw [leaveI_0 m c t d0]; iexact H0
      isplitl [H1]; · iexists d1; rw [leaveI_1 m c t d1]; iexact H1
      isplitl [H2]; · iexists d2; rw [leaveI_2 m c t d2]; iexact H2
      isplitl [H3]; · iexists d3; rw [leaveI_3 m c t d3]; iexact H3
      iexact H4

end Cert.KernelIdeal.Hand

end
-- ==== Proof.FinalI.lean ====
/-
  The kernel program's result on the extended reals.  The region's one output window is a [2, 8, 128] array staged
  in [1, 8, 128] blocks, block (row, 0, 0); its staging buffer holds the row accumulator's value in every entry and
  is written back at the last step of each row only (grid points 22 and 45 of the 46).  So after the region every
  entry of row r holds the accumulator after point r * 23 + 22.  The lines after the region take the entries
  (r, 0, 0), add the two from the zero word, and give the sum as a [1] array: zero plus the two rows' accumulators.
-/
import proofs.«401790_j62929860821309_3_alg».proof.Proof.DatI
import proofs.«401790_j62929860821309_3_alg».proof.Proof.KitI
import proofs.«401790_j62929860821309_3_alg».proof.Proof.Spec
import Idealize.ShloMosaic.Lib.Pipeline.Value
import Idealize.ShloMosaic.Lib.Pipeline.FrameSuffix
import Idealize.ShloMosaic.Lib.ValueIdx
import Idealize.ShloMosaic.Lib.IdealHost
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open scoped BigOperators

variable (m : (ℓ : Loc nD τ sig) → Buf (Elt Ideal) ℓ)

/-- The output array after the region, entry by entry: every entry of row r holds the row's accumulator after the
    row's last step, grid point r * 23 + 22. -/
def rowsArr (c : Dev nD) : S2x8x128.Idx → EReal := fun j => accI m c ((j 0).val * 23 + 22)

/-- The output window's block index at point t is (t / 23, 0, 0), decided over the 46 points. -/
theorem outIdx : ∀ t : Fin cfg0.N, win0_4.index t (0 : Fin 3) = t.val / 23 ∧ win0_4.index t (1 : Fin 3) = 0
    ∧ win0_4.index t (2 : Fin 3) = 0 :=
  (by decide +kernel : ∀ t : Fin grid0.N, win0_4.index t (0 : Fin 3) = t.val / 23 ∧ win0_4.index t (1 : Fin 3) = 0
    ∧ win0_4.index t (2 : Fin 3) = 0)

/-- What a row's last step writes back is its block of that array: the staging buffer holds the accumulator after the
    point t in every entry, the block is row t / 23, and t = (t / 23) * 23 + 22 because t % 23 = 22. -/
theorem flushed4_eq (c : Dev nD) (t : Fin cfg0.N) (hf : (cfg0.win 4).flush t = true) :
    (datsI m 0 c).flushed 4 t = ((cfg0.win 4).blk t).view.read (Elt Ideal) (rowsArr m c) := by
  have h22 : t.val % 23 = 22 := (flush0_4 t).mp hf
  have hN : cfg0.N = 46 := N_0
  have hlt : t.val < cfg0.N := t.isLt
  obtain ⟨e0, e1, e2⟩ := outIdx t
  show (cfg0.win 4).cut (grid0.coords t) ((datsI m 0 c).after 4 t) = _
  rw [afterI_4]
  funext y
  rw [View.read_apply]
  show accI m c t.val = accI m c ((((cfg0.win 4).blk t).view.emb y 0).val * 23 + 22)
  have hy : (((cfg0.win 4).blk t).view.emb y 0).val = win0_4.index t (0 : Fin 3) * 1 + 1 * (y 0).val := rfl
  have hy0 : (y 0).val < 1 := (y 0).isLt
  rw [hy, e0]
  congr 1
  omega

/-- An index of the output array is in point t's block iff each coordinate is in the block's range on its axis. -/
theorem mem_outBlk (t : Fin cfg0.N) (i : S2x8x128.Idx) :
    i ∈ ((cfg0.win 4).blk t).view.set ↔ ∀ a : Fin 3, win0_4.index t a * S1x8x128.size a ≤ (i a).val
      ∧ (i a).val < win0_4.index t a * S1x8x128.size a + S1x8x128.size a := by
  show i ∈ ((View.whole main_v7).slice (win0_4.rect t)).set ↔ _
  rw [View.set_slice_whole, Rect.mem_set_unit]
  exact Iff.rfl

/-- The array after the region: row r was written back at the row's last step, point r * 23 + 22, and by no later
    point, so every entry of it holds the accumulator after that point. -/
theorem final4 (c : Dev nD) : (datsI m 0 c).arrAt 4 cfg0.N = fun j => accI m c ((j 0).val * 23 + 22) :=
  (datsI m 0 c).arrAt_eq_of_cover 4 (rowsArr m c) (flushed4_eq m c) fun i => by
    have hN : cfg0.N = 46 := N_0
    have h0 : (i 0).val < 2 := (i 0).isLt
    have h1 : (i 1).val < 8 := (i 1).isLt
    have h2 : (i 2).val < 128 := (i 2).isLt
    let t : Fin cfg0.N := ⟨(i 0).val * 23 + 22, by omega⟩
    have ht : t.val = (i 0).val * 23 + 22 := rfl
    obtain ⟨e0, e1, e2⟩ := outIdx t
    refine ⟨t, (flush0_4 t).mpr (by omega), ?_⟩
    rw [mem_outBlk]
    intro a
    match a with
    | ⟨0, _⟩ => show win0_4.index t (0 : Fin 3) * 1 ≤ (i 0).val ∧ (i 0).val < win0_4.index t (0 : Fin 3) * 1 + 1; omega
    | ⟨1, _⟩ => show win0_4.index t (1 : Fin 3) * 8 ≤ (i 1).val ∧ (i 1).val < win0_4.index t (1 : Fin 3) * 8 + 8; omega
    | ⟨2, _⟩ => show win0_4.index t (2 : Fin 3) * 128 ≤ (i 2).val ∧ (i 2).val < win0_4.index t (2 : Fin 3) * 128 + 128; omega

/-- The lines after the region as one function of the output array: the slice [0:2, 0:1, 0:1], the reshape to [2],
    the sum over the 2 entries from the zero word, the reshape to [1]. -/
def rowsTotal (X : S2x8x128.Idx → EReal) : S1.Idx → EReal :=
  shapeCast S1
    (Host.reduceAdd (F := Ideal) (φ := .f32)
      (shapeCast S2 (extractStridedSlice S2x1x1 ![0, 0, 0] X slices_S2x8x128_S2x1x1_0_0_0) shapeCasts_S2x1x1_S2)
      (constant (F := Ideal) S_ .f32 0x00000000#32) reducesTo_S2_S_d0 h_S_)
    shapeCasts_S_S1

/-- A sum over the indices of a [2] array is the sum over its one coordinate. -/
theorem sum_idx_two (f : S2.Idx → EReal) : ∑ i : S2.Idx, f i = ∑ r : Fin 2, f (ix1 r) :=
  Fintype.sum_equiv ⟨fun i => i 0, fun r => ix1 r, fun i => (eq_ix1 i).symm, fun r => rfl⟩ _ _
    (fun i => congrArg f (eq_ix1 i))

/-- Read at its one index, that function is zero plus the sum over the two rows of the array's entry (r, 0, 0). -/
theorem rowsTotal_apply (X : S2x8x128.Idx → EReal) (j : S1.Idx) :
    rowsTotal X j = 0 + ∑ r : Fin 2, X (ix3 r (0 : Fin 8) (0 : Fin 128)) := by
  unfold rowsTotal
  refine (shapeCast_apply _ shapeCasts_S_S1 j ix0 ?_).trans ?_
  · rw [Shape.rowMajor_val_one]
    have h0 : (S_.rowMajor ix0).val < S_.numel := (S_.rowMajor ix0).isLt
    have h1 : S_.numel = 1 := by decide
    have h2 : (j 0).val < 1 := (j 0).isLt
    omega
  rw [hostReduceAdd_apply, Ideal.hostReduceAdd_total reducesTo_S2_S_d0 (fun b => b.elim0), sum_idx_two]
  refine congrArg₂ (· + ·) Ideal.ofBits_zero_f32 (Finset.sum_congr rfl fun r _ => ?_)
  refine (shapeCast_apply _ shapeCasts_S2x1x1_S2 (ix1 r) (ix3 r (0 : Fin 1) (0 : Fin 1)) ?_).trans ?_
  · rw [Shape.rowMajor_val_three, Shape.rowMajor_val_one]
    show (r.val * 1 + 0) * 1 + 0 = r.val
    omega
  refine extractStridedSlice_apply ![0, 0, 0] X slices_S2x8x128_S2x1x1_0_0_0 _ (ix3 r (0 : Fin 8) (0 : Fin 128)) fun a => ?_
  match a with
  | ⟨0, _⟩ => show r.val = 0 + r.val; omega
  | ⟨1, _⟩ => rfl
  | ⟨2, _⟩ => rfl

/-- The program's result: the lines after the region read the output array as the region left it, whose row r holds
    the accumulator after point r * 23 + 22 in every entry; so the one entry of the result is zero plus the sum of
    the two rows' accumulators. -/
theorem tail_result (c : Dev nD) :
    Pipeline.afterTail₀ cfgs (datsI m) 0 (V0 m) [hostOps1] c main_v11 = fun _ => 0 + ∑ r : Fin 2, accI m c (r.val * 23 + 22) := by
  have hA : Pipeline.withArrays (cfgs 0).spec c (V0 m c) (fun w => (datsI m 0 c).arrAt w (cfgs 0).N) (Proc.devRef .tc main_v7)
      = fun j => accI m c ((j 0).val * 23 + 22) :=
    (Pipeline.withArrays_arr spec0 launch0.win.arr_inj c _ _ 4).trans (final4 m c)
  unfold Pipeline.afterTail₀
  show StableHlo.after hostOps1 _ (Proc.devRef .tc main_v11) = _
  after_results
  funext i
  show rowsTotal (Pipeline.withArrays (cfgs 0).spec c (V0 m c) (fun w => (datsI m 0 c).arrAt w (cfgs 0).N) (Proc.devRef .tc main_v7)) i = _
  rw [hA, rowsTotal_apply]
  rfl

end Cert.KernelIdeal.Hand

end
-- ==== Proof.TakeValue.lean ====
/-
  The kernel program's host lines before its region, read at an index.

  Before the region the program transposes the [1000000, 3] vertex table to [3, 1000000], lays the four [3000000] index
  arrays end to end as one [12000000] array, and takes the table's columns at those indices: a negative index is moved up
  by the table's length, each index is tested for 0 ≤ index ≤ 999999 (the test reduced by and over a unit axis), the
  columns are gathered with the start index clamped into the table, and where the test fails the gathered entry is
  replaced by a NaN. The four column slices [0:3, j * 3000000 : (j + 1) * 3000000] of the result are what the region's
  four windows read.

  When every index word names a row of the table (read unsigned it is below 1000000, so read signed it is not negative)
  none of the corrections acts: the wrap keeps the word, the test gives 1, the clamp keeps the word, and the select
  takes the gathered entry. So slice j at (k, e) is coordinate k of the table's row that word e of index array j names.
  No float operation is evaluated: the statements hold at every float instance.

  The file first reads a gather of columns, an and-reduction over a unit axis and the signed comparisons of an
  in-range word at an index; then states the stretch once as a term of the table and the index arrays and reads it at
  an index; then follows the host lines stage by stage (each stage over arbitrary earlier contents, so that no stage's
  term contains another's) and composes the stages at one index.
-/
import proofs.«401790_j62929860821309_3_alg».proof.Proof.Gen.KernelIdeal.Launch
import proofs.«401790_j62929860821309_3_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Reduce

noncomputable section
namespace Cert.KernelIdeal.Take
open Cert.KernelIdeal Cert.KernelIdeal.Gen Idealize.ShloMosaic Idealize.ShloMosaic.TcCoe Idealize.SL.Sem
open Idealize.ShloMosaic.StableHlo Idealize.ShloMosaic.ValueIdx

/-! ## A gather of columns read at an index -/

section Gather
variable {α : Type}

/-- The dimension numbers of a gather of whole columns of a [C, N] table at a one-column array of R start indices:
    offset axis 0, collapsed axis 1, the start index naming axis 1, slices [C, 1]; the result is [C, R]. -/
abbrev colDims (C N R : Nat) (wf : GatherDims.WF ⟨2, ![C, N]⟩ ⟨2, ![R, 1]⟩ ⟨2, ![C, R]⟩ [0] [1] [] [1] [] 1 ![C, 1]) :
    GatherDims ⟨2, ![C, N]⟩ ⟨2, ![R, 1]⟩ ⟨2, ![C, R]⟩ where
  offsetDims := [0]
  collapsedSliceDims := [1]
  operandBatchingDims := []
  startIndicesBatchingDims := []
  startIndexMap := [1]
  indexVectorDim := 1
  sliceSizes := ![C, 1]
  wf := wf

/-- The gather read at (k, p): row k of the table at the column the p-th start index names, read signed and clamped
    into [0, N - 1]. On axis 0 the start is 0 and the offset is k; on axis 1 the offset is 0 and the start is the
    clamped index. -/
theorem gather_col_apply {C N R w : Nat} (hN : 0 < N)
    (wf : GatherDims.WF ⟨2, ![C, N]⟩ ⟨2, ![R, 1]⟩ ⟨2, ![C, R]⟩ [0] [1] [] [1] [] 1 ![C, 1])
    (x : (⟨2, ![C, N]⟩ : Shape).Idx → α) (idx : IVec ⟨2, ![R, 1]⟩ w) (k : Fin C) (p : Fin R) :
    Host.gather (colDims C N R wf) x idx (ix2 k p)
      = x (ix2 k ⟨min (idx (ix2 p (0 : Fin 1))).toInt.toNat (N - 1), by omega⟩) := by
  unfold Host.gather
  congr 1
  funext a
  refine Fin.ext ?_
  show (colDims C N R wf).start (ix2 k p) idx a + (colDims C N R wf).batchCoord (ix2 k p) a
    + (colDims C N R wf).offCoord (ix2 k p) a = _
  rw [GatherDims.batchCoord_eq_zero _ _ _ List.not_mem_nil, Nat.add_zero]
  match a with
  | ⟨0, _⟩ =>
    unfold GatherDims.start
    rw [dif_neg (fun h => absurd (Fin.val_eq_of_eq (List.mem_singleton.mp h)) Nat.zero_ne_one), Nat.zero_add]
    unfold GatherDims.offCoord
    rw [dif_pos ((GatherDims.mem_sKept _ _).mpr
      ⟨fun h => absurd (Fin.val_eq_of_eq (List.mem_singleton.mp h)) Nat.zero_ne_one, List.not_mem_nil⟩)]
    rfl
  | ⟨1, h1⟩ =>
    have hmem : (⟨1, h1⟩ : Fin (Shape.rank ⟨2, ![C, N]⟩)) ∈ (colDims C N R wf).startIndexMap := List.mem_singleton.mpr rfl
    rw [GatherDims.offCoord_eq_zero _ _ _ (fun h => ((GatherDims.mem_sKept _ _).mp h).1 (List.mem_singleton.mpr rfl)),
      Nat.add_zero]
    unfold GatherDims.start
    rw [dif_pos hmem]
    have hsi : (colDims C N R wf).siIdx (ix2 k p) ⟨List.idxOf (⟨1, h1⟩ : Fin (Shape.rank ⟨2, ![C, N]⟩)) (colDims C N R wf).startIndexMap,
        List.idxOf_lt_length_iff.2 hmem⟩ = ix2 p (0 : Fin 1) := by
      funext b; refine Fin.ext ?_
      match b with
      | ⟨0, _⟩ => rfl
      | ⟨1, _⟩ => rfl
    rw [hsi]
    rfl

end Gather

/-! ## A reduction by and over a unit axis -/

/-- A fold over the one index of a one-element range combines that element with the initial value. -/
theorem fold_univ_unit {β : Type} (f : β → β → β) [Std.Commutative f] [Std.Associative f] {n : Nat} (hn : n = 1) (b : β)
    (g : Fin n → β) : (Finset.univ : Finset (Fin n)).fold f b g = f (g ⟨0, by omega⟩) b := by
  subst hn
  rw [show (Finset.univ : Finset (Fin 1)) = {0} from rfl]
  exact Finset.fold_singleton

/-- An [R, 1] array of bits reduced by and over its unit axis, from the initial bit: at p, the and of the bit at
    (p, 0) with the initial bit (the one index that drops to p). -/
theorem reduce_andi_unit {R : Nat} (x : IVec ⟨2, ![R, 1]⟩ 1) {u : Shape} (init : u.Idx → BitVec 1)
    (h' : (⟨2, ![R, 1]⟩ : Shape).ReducesTo [1] ⟨1, ![R]⟩) (hu : 0 < u.numel) (p : Fin R) :
    Host.reduce IntOp.andi x init h' hu (ix1 p) = IntOp.andi (x (ix2 p (0 : Fin 1))) (init (Shape.Idx.first hu)) := by
  have h : (⟨2, ![R, 1]⟩ : Shape).Reduces [1] ⟨1, ![R]⟩ := ⟨rfl, Nat.one_pos, fun b => match b with | ⟨0, _⟩ => rfl⟩
  rw [Host.reduce_eq_fold_single IntOp.andi x init h' h hu (ix1 p)]
  refine (fold_univ_unit IntOp.andi rfl _ _).trans ?_
  refine congrArg (fun i => IntOp.andi (x i) (init (Shape.Idx.first hu))) ?_
  funext c
  refine Fin.ext ?_
  show h.liftVal (ix1 p) 0 c = _
  unfold Shape.Reduces.liftVal
  match c with
  | ⟨0, _⟩ => rfl
  | ⟨1, _⟩ => rfl

/-! ## Index words in range -/

/-- A word below 2^31 read signed is the word read unsigned. -/
theorem toInt_of_lt (w : BitVec 32) (h : w.toNat < 1000000) : w.toInt = (w.toNat : Int) := by
  rw [BitVec.toInt_eq_toNat_cond]
  split <;> omega

/-- An in-range word read signed is not below zero. -/
theorem cmpi_slt_zero (w : BitVec 32) (h : w.toNat < 1000000) : IntOp.cmpi .slt w 0#32 = 0#1 := by
  show BitVec.ofBool (w.slt 0#32) = 0#1
  have e : w.slt 0#32 = false := by
    unfold BitVec.slt
    rw [toInt_of_lt w h]
    simp
  rw [e]; rfl

/-- An in-range word read signed is at least zero. -/
theorem cmpi_sge_zero (w : BitVec 32) (h : w.toNat < 1000000) : IntOp.cmpi .sge w 0#32 = 1#1 := by
  show BitVec.ofBool ((0#32).sle w) = 1#1
  have e : (0#32).sle w = true := by
    unfold BitVec.sle
    rw [toInt_of_lt w h]
    simp
  rw [e]; rfl

/-- An in-range word read signed is at most 999999. -/
theorem cmpi_sle_max (w : BitVec 32) (h : w.toNat < 1000000) : IntOp.cmpi .sle w 999999#32 = 1#1 := by
  show BitVec.ofBool (w.sle 999999#32) = 1#1
  have e : w.sle 999999#32 = true := by
    unfold BitVec.sle
    rw [toInt_of_lt w h, toInt_of_lt 999999#32 (by decide)]
    simp
    omega
  rw [e]; rfl

variable {F : FTy → Type} [FloatOps F]

/-! ## The stretch as one term -/

/-- The index words with a negative one moved up by the table's length (the program's wrap of negative indices). -/
def wrapped (idx : IVec S12000000 32) : IVec S12000000 32 :=
  select (cmpi .slt idx (broadcastInDim S12000000 ![] bcast_S_S12000000 (constantI S_ 32 0#32)))
    (addi idx (broadcastInDim S12000000 ![] bcast_S_S12000000 (constantI S_ 32 1000000#32))) idx

/-- The wrapped words as a one-column array of start indices. -/
def col (idx : IVec S12000000 32) : IVec S12000000x1 32 :=
  broadcastInDim S12000000x1 ![0] bcast_S12000000_S12000000x1_0 (wrapped idx)

/-- The in-bounds bit of each start index: 0 ≤ index ≤ 999999, reduced by and over the unit axis. -/
def mask (v : IVec S12000000x1 32) : IVec S12000000 1 :=
  Host.reduce IntOp.andi
    (andi (cmpi .sge v (broadcastInDim S12000000x1 ![] bcast_S_S12000000x1 (constantI S_ 32 0#32)))
      (cmpi .sle v (broadcastInDim S12000000x1 ![0, 1] bcast_S1x1_S12000000x1_0_1
        (broadcastInDim S1x1 ![1] bcast_S1_S1x1_1 (constantI S1 32 999999#32)))))
    (constantI S_ 1 1#1) reducesTo_S12000000x1_S12000000_d1 h_S_

/-- The gathered columns of the transposed table t at the index words idx, a NaN where the index is out of bounds. -/
def taken (t : FVec F S3x1000000 .f32) (idx : IVec S12000000 32) : FVec F S3x12000000 .f32 :=
  select (broadcastInDim S3x12000000 ![1] bcast_S12000000_S3x12000000_1 (mask (col idx)))
    (Host.gather gather_S3x1000000_S12000000x1_S3x12000000_0_1_n_n_1_1_31 t (col idx))
    (broadcastInDim S3x12000000 ![] bcast_S_S3x12000000 (constant S_ .f32 0x7FC00000#32))

/-- The whole stretch before the region as one term of the table x and the four index arrays. -/
def takenOf (x : FVec F S1000000x3 .f32) (i1 i2 i3 i4 : IVec S3000000 32) : FVec F S3x12000000 .f32 :=
  taken (transpose S3x1000000 [1, 0] x transposes_S1000000x3_S3x1000000_1_0)
    (concatenate S12000000 0 [⟨S3000000, i1⟩, ⟨S3000000, i2⟩, ⟨S3000000, i3⟩, ⟨S3000000, i4⟩]
      concatenates_S3000000_S3000000_S3000000_S3000000_S12000000_d0)

/-! ## The stretch read at an index -/

/-- The program's gather dimension numbers are the column gather's. -/
theorem gatherDims_eq : gather_S3x1000000_S12000000x1_S3x12000000_0_1_n_n_1_1_31
    = colDims 3 1000000 12000000 gather_S3x1000000_S12000000x1_S3x12000000_0_1_n_n_1_1_31_wf := rfl

/-- An in-range word is not negative, so the wrap keeps it. -/
theorem wrapped_apply (idx : IVec S12000000 32) (p : Fin 12000000) (h : (idx (ix1 p)).toNat < 1000000) :
    wrapped idx (ix1 p) = idx (ix1 p) := by
  show Scalar.select (IntOp.cmpi .slt (idx (ix1 p)) 0#32) _ _ = _
  rw [cmpi_slt_zero _ h, select_zero]

/-- The one-column array of start indices at (p, 0) is the wrapped word at p. -/
theorem col_apply (idx : IVec S12000000 32) (p : Fin 12000000) : col idx (ix2 p (0 : Fin 1)) = wrapped idx (ix1 p) :=
  broadcastInDim_apply _ _ _ (ix2 p (0 : Fin 1)) (ix1 p) fun a => match a with | ⟨0, _⟩ => rfl

/-- The in-bounds bit of an in-range start index is 1: both comparisons hold, and the and over the unit axis
    combines that one bit with the initial 1. -/
theorem mask_apply (v : IVec S12000000x1 32) (p : Fin 12000000) (h : (v (ix2 p (0 : Fin 1))).toNat < 1000000) :
    mask v (ix1 p) = 1#1 := by
  refine (reduce_andi_unit _ _ _ _ p).trans ?_
  show IntOp.andi (IntOp.andi (IntOp.cmpi .sge (v (ix2 p (0 : Fin 1))) 0#32) (IntOp.cmpi .sle (v (ix2 p (0 : Fin 1))) 999999#32)) 1#1 = 1#1
  rw [cmpi_sge_zero _ h, cmpi_sle_max _ h]
  rfl

/-- The gathered array at (k, p), for an in-range index word at p: coordinate k of the table's column that word names
    (the mask bit is 1, so the select takes the gathered entry; the clamp keeps the word). -/
theorem taken_apply (t : FVec F S3x1000000 .f32) (idx : IVec S12000000 32) (k : Fin 3) (p : Fin 12000000)
    (h : (idx (ix1 p)).toNat < 1000000) :
    taken t idx (ix2 k p) = t (ix2 k ⟨(idx (ix1 p)).toNat, h⟩) := by
  have hc : col idx (ix2 p (0 : Fin 1)) = idx (ix1 p) := (col_apply idx p).trans (wrapped_apply idx p h)
  have hm : broadcastInDim S3x12000000 ![1] bcast_S12000000_S3x12000000_1 (mask (col idx)) (ix2 k p) = 1#1 := by
    refine (broadcastInDim_apply _ _ _ (ix2 k p) (ix1 p) fun a => match a with | ⟨0, _⟩ => rfl).trans ?_
    exact mask_apply _ p (by rw [hc]; exact h)
  unfold taken
  rw [select_apply, hm, select_one, gatherDims_eq, gather_col_apply (by decide)]
  refine congrArg t (congrArg (ix2 k) (Fin.ext ?_))
  show min (col idx (ix2 p (0 : Fin 1))).toInt.toNat (1000000 - 1) = (idx (ix1 p)).toNat
  rw [hc, toInt_of_lt _ h, Int.toNat_natCast]
  omega

/-- The whole stretch at (k, p), when position p of the concatenated index words holds the in-range word w: coordinate k
    of the table's row w names. -/
theorem takenOf_apply (x : FVec F S1000000x3 .f32) (i1 i2 i3 i4 : IVec S3000000 32) (k : Fin 3) (p : Fin 12000000)
    (w : BitVec 32)
    (hcat : concatenate S12000000 0 [⟨S3000000, i1⟩, ⟨S3000000, i2⟩, ⟨S3000000, i3⟩, ⟨S3000000, i4⟩]
      concatenates_S3000000_S3000000_S3000000_S3000000_S12000000_d0 (ix1 p) = w)
    (hw : w.toNat < 1000000) :
    takenOf x i1 i2 i3 i4 (ix2 k p) = x (ix2 (Cert.Spec.row w) k) := by
  have hw' : (concatenate S12000000 0 [⟨S3000000, i1⟩, ⟨S3000000, i2⟩, ⟨S3000000, i3⟩, ⟨S3000000, i4⟩]
      concatenates_S3000000_S3000000_S3000000_S3000000_S12000000_d0 (ix1 p)).toNat < 1000000 := by rw [hcat]; exact hw
  unfold takenOf
  rw [taken_apply _ _ k p hw', transpose_ix2_apply]
  refine congrArg x (congrArg (fun r => ix2 r k) (Fin.ext ?_))
  show BitVec.toNat _ = min (BitVec.toNat w) 999999
  rw [hcat]
  omega

/-- Position j * 3000000 + e of the four index arrays laid end to end is word e of array j. -/
theorem cat_apply0 (i1 i2 i3 i4 : IVec S3000000 32) (e : Fin 3000000) (p : Fin 12000000) (hp : p.val = e.val) :
    concatenate S12000000 0 [⟨S3000000, i1⟩, ⟨S3000000, i2⟩, ⟨S3000000, i3⟩, ⟨S3000000, i4⟩]
      concatenates_S3000000_S3000000_S3000000_S3000000_S12000000_d0 (ix1 p) = i1 (ix1 e) :=
  concatenate_apply_piece 0 _ _ (ix1 p) 0 (by show (0 : Nat) < 4; omega) S3000000 i1 rfl rfl 0 rfl (ix1 e)
    (fun b => match b with | ⟨0, _⟩ => fun hb => absurd rfl hb) (by show 0 + e.val = p.val; omega)
/-- Positions 3000000 to 5999999 hold the second array. -/
theorem cat_apply1 (i1 i2 i3 i4 : IVec S3000000 32) (e : Fin 3000000) (p : Fin 12000000) (hp : p.val = 3000000 + e.val) :
    concatenate S12000000 0 [⟨S3000000, i1⟩, ⟨S3000000, i2⟩, ⟨S3000000, i3⟩, ⟨S3000000, i4⟩]
      concatenates_S3000000_S3000000_S3000000_S3000000_S12000000_d0 (ix1 p) = i2 (ix1 e) :=
  concatenate_apply_piece 0 _ _ (ix1 p) 1 (by show (1 : Nat) < 4; omega) S3000000 i2 rfl rfl 3000000 (by show ([3000000] : List Nat).sum = 3000000; rfl) (ix1 e)
    (fun b => match b with | ⟨0, _⟩ => fun hb => absurd rfl hb) (by show 3000000 + e.val = p.val; omega)
/-- Positions 6000000 to 8999999 hold the third array. -/
theorem cat_apply2 (i1 i2 i3 i4 : IVec S3000000 32) (e : Fin 3000000) (p : Fin 12000000) (hp : p.val = 6000000 + e.val) :
    concatenate S12000000 0 [⟨S3000000, i1⟩, ⟨S3000000, i2⟩, ⟨S3000000, i3⟩, ⟨S3000000, i4⟩]
      concatenates_S3000000_S3000000_S3000000_S3000000_S12000000_d0 (ix1 p) = i3 (ix1 e) :=
  concatenate_apply_piece 0 _ _ (ix1 p) 2 (by show (2 : Nat) < 4; omega) S3000000 i3 rfl rfl 6000000 (by show ([3000000, 3000000] : List Nat).sum = 6000000; rfl) (ix1 e)
    (fun b => match b with | ⟨0, _⟩ => fun hb => absurd rfl hb) (by show 6000000 + e.val = p.val; omega)
/-- Positions 9000000 to 11999999 hold the fourth array. -/
theorem cat_apply3 (i1 i2 i3 i4 : IVec S3000000 32) (e : Fin 3000000) (p : Fin 12000000) (hp : p.val = 9000000 + e.val) :
    concatenate S12000000 0 [⟨S3000000, i1⟩, ⟨S3000000, i2⟩, ⟨S3000000, i3⟩, ⟨S3000000, i4⟩]
      concatenates_S3000000_S3000000_S3000000_S3000000_S12000000_d0 (ix1 p) = i4 (ix1 e) :=
  concatenate_apply_piece 0 _ _ (ix1 p) 3 (by show (3 : Nat) < 4; omega) S3000000 i4 rfl rfl 9000000 (by show ([3000000, 3000000, 3000000] : List Nat).sum = 9000000; rfl) (ix1 e)
    (fun b => match b with | ⟨0, _⟩ => fun hb => absurd rfl hb) (by show 9000000 + e.val = p.val; omega)

/-- A column slice of the gathered array at (k, e) is the array at (k, off + e). -/
theorem slice_apply (y : FVec F S3x12000000 .f32) (off : Nat) (hs : S3x12000000.Slices ![0, off] S3x3000000) (k : Fin 3)
    (e : Fin 3000000) (p : Fin 12000000) (hp : p.val = off + e.val) :
    extractStridedSlice S3x3000000 ![0, off] y hs (ix2 k e) = y (ix2 k p) :=
  extractStridedSlice_apply _ _ _ (ix2 k e) (ix2 k p) fun a => match a with
    | ⟨0, _⟩ => by show k.val = 0 + k.val; omega
    | ⟨1, _⟩ => by show p.val = off + e.val; exact hp

/-! ## The host lines stage by stage, over any contents V -/

section Stages
variable (V : Valuation τ sig (Elt F))

/-- The caller's first line leaves the transposed table. -/
theorem s0_v0 : (after hostOps0 V (Proc.devRef .tc main_v0) : FVec F S3x1000000 .f32)
    = transpose S3x1000000 [1, 0] (V (Proc.devRef .tc main_arg0)) transposes_S1000000x3_S3x1000000_1_0 := by
  simp only [Gen.hostOps0]
  after_results_simp

/-- The caller's second line leaves the four index arrays laid end to end. -/
theorem s0_v1 : (after hostOps0 V (Proc.devRef .tc main_v1) : IVec S12000000 32)
    = concatenate S12000000 0 [⟨S3000000, V (Proc.devRef .tc main_arg1)⟩, ⟨S3000000, V (Proc.devRef .tc main_arg2)⟩,
        ⟨S3000000, V (Proc.devRef .tc main_arg3)⟩, ⟨S3000000, V (Proc.devRef .tc main_arg4)⟩]
        concatenates_S3000000_S3000000_S3000000_S3000000_S12000000_d0 := by
  simp only [Gen.hostOps0]
  after_results_simp
  rfl

/-- Up to the gather, the in-bounds bits are the mask of the wrapped concatenated words. -/
theorem s1_v12 : (after (hostOps0_1.take 19) V (Proc.devRef .tc main_call0_v12) : IVec S12000000 1)
    = mask (col (V (Proc.devRef .tc main_v1))) := by
  simp only [Gen.hostOps0_1, List.take_succ_cons, List.take_zero]
  after_results_simp
  simp only [TRef.ofBuf, TRef.toBuf, cast_eq]
  rfl

/-- Up to the gather, the gathered array is the gather of the transposed table at the wrapped words. -/
theorem s1_v13 : (after (hostOps0_1.take 19) V (Proc.devRef .tc main_call0_v13) : FVec F S3x12000000 .f32)
    = Host.gather gather_S3x1000000_S12000000x1_S3x12000000_0_1_n_n_1_1_31 (V (Proc.devRef .tc main_v0))
        (col (V (Proc.devRef .tc main_v1))) := by
  simp only [Gen.hostOps0_1, List.take_succ_cons, List.take_zero]
  after_results_simp
  simp only [TRef.ofBuf, TRef.toBuf, cast_eq]
  rfl

/-- The rest of the take selects, by the broadcast mask, the gathered entry or a NaN. -/
theorem s2_v2 : (after (hostOps0_1.drop 19) V (Proc.devRef .tc main_v2) : FVec F S3x12000000 .f32)
    = select (broadcastInDim S3x12000000 ![1] bcast_S12000000_S3x12000000_1 (V (Proc.devRef .tc main_call0_v12)))
        (V (Proc.devRef .tc main_call0_v13))
        (broadcastInDim S3x12000000 ![] bcast_S_S3x12000000 (constant S_ .f32 0x7FC00000#32)) := by
  simp only [Gen.hostOps0_1, List.drop_succ_cons, List.drop_zero]
  after_results_simp
  simp only [TRef.ofBuf, TRef.toBuf, cast_eq]

/-- Each of the last four lines leaves one column slice of the taken array. -/
theorem s3_v3 : (after hostOps0_2 V (Proc.devRef .tc main_v3) : FVec F S3x3000000 .f32)
    = extractStridedSlice S3x3000000 ![0, 0] (V (Proc.devRef .tc main_v2)) slices_S3x12000000_S3x3000000_0_0 := by
  simp only [Gen.hostOps0_2]
  after_results_simp
theorem s3_v4 : (after hostOps0_2 V (Proc.devRef .tc main_v4) : FVec F S3x3000000 .f32)
    = extractStridedSlice S3x3000000 ![0, 3000000] (V (Proc.devRef .tc main_v2)) slices_S3x12000000_S3x3000000_0_3000000 := by
  simp only [Gen.hostOps0_2]
  after_results_simp
theorem s3_v5 : (after hostOps0_2 V (Proc.devRef .tc main_v5) : FVec F S3x3000000 .f32)
    = extractStridedSlice S3x3000000 ![0, 6000000] (V (Proc.devRef .tc main_v2)) slices_S3x12000000_S3x3000000_0_6000000 := by
  simp only [Gen.hostOps0_2]
  after_results_simp
theorem s3_v6 : (after hostOps0_2 V (Proc.devRef .tc main_v6) : FVec F S3x3000000 .f32)
    = extractStridedSlice S3x3000000 ![0, 9000000] (V (Proc.devRef .tc main_v2)) slices_S3x12000000_S3x3000000_0_9000000 := by
  simp only [Gen.hostOps0_2]
  after_results_simp

end Stages

/-! ## The statements -/

variable (m : (ℓ : Loc nD τ sig) → Buf (Elt F) ℓ)

/-- Core c's buffer contents when the region is entered. -/
abbrev entry (c : Dev nD) : Valuation τ sig (Elt F) :=
  StableHlo.after (List.flatten [hostOps0, hostOps0_1, hostOps0_2]) (fun b => m (c, b))

/-- The contents once the transpose, the concatenation and the gather with its mask have run (what the last select reads),
    and the contents once that select has run (what the four slices read). -/
abbrev mid (c : Dev nD) : Valuation τ sig (Elt F) :=
  after (hostOps0_1.take 19) (after hostOps0 (fun b => m (c, b)))
abbrev late (c : Dev nD) : Valuation τ sig (Elt F) := after (hostOps0_1.drop 19) (mid m c)

/-- The host lines run in order: the slices after the select after the gather after the two lines of the caller. -/
theorem entry_eq (c : Dev nD) : entry m c = after hostOps0_2 (late m c) := by
  have e : List.flatten [(hostOps0 : List (HloOp τ sig (Elt F))), hostOps0_1, hostOps0_2]
      = hostOps0 ++ (hostOps0_1.take 19 ++ (hostOps0_1.drop 19 ++ hostOps0_2)) := by
    rw [← List.append_assoc (hostOps0_1.take 19), List.take_append_drop]
    simp only [List.flatten_cons, List.flatten_nil, List.append_nil]
  show after (List.flatten [hostOps0, hostOps0_1, hostOps0_2]) _ = _
  rw [e, after_append, after_append, after_append]

/-- The gathered array the slices read, at (k, p), when position p of the concatenated index words holds the in-range
    word w: coordinate k of the table's row w names. -/
theorem late_v2 (c : Dev nD) (k : Fin 3) (p : Fin 12000000) (w : BitVec 32)
    (hcat : concatenate S12000000 0 [⟨S3000000, m ((c : Thread nD τ).loc main_arg1)⟩, ⟨S3000000, m ((c : Thread nD τ).loc main_arg2)⟩,
      ⟨S3000000, m ((c : Thread nD τ).loc main_arg3)⟩, ⟨S3000000, m ((c : Thread nD τ).loc main_arg4)⟩]
      concatenates_S3000000_S3000000_S3000000_S3000000_S12000000_d0 (ix1 p) = w)
    (hw : w.toNat < 1000000) :
    (late m c (Proc.devRef .tc main_v2) : FVec F S3x12000000 .f32) (ix2 k p)
      = m ((c : Thread nD τ).loc main_arg0) (ix2 (Cert.Spec.row w) k) := by
  refine (congrFun (s2_v2 (mid m c)) (ix2 k p)).trans ?_
  dsimp only [mid]
  rw [s1_v12, s1_v13, s0_v0, s0_v1]
  exact takenOf_apply (m (c, Proc.devRef .tc main_arg0)) (m (c, Proc.devRef .tc main_arg1)) (m (c, Proc.devRef .tc main_arg2))
    (m (c, Proc.devRef .tc main_arg3)) (m (c, Proc.devRef .tc main_arg4)) k p w hcat hw

/-- The host lines write no argument: each argument's array is unchanged when the region is entered. -/
theorem entry_arg0 (c : Dev nD) : entry m c (Proc.devRef .tc main_arg0) = m ((c : Thread nD τ).loc main_arg0) := by
  dsimp only [entry]
  simp only [Gen.hostOps0, Gen.hostOps0_1, Gen.hostOps0_2, List.flatten_cons, List.flatten_nil, List.append_nil, List.cons_append, List.nil_append]
  after_results_simp
theorem entry_arg1 (c : Dev nD) : entry m c (Proc.devRef .tc main_arg1) = m ((c : Thread nD τ).loc main_arg1) := by
  dsimp only [entry]
  simp only [Gen.hostOps0, Gen.hostOps0_1, Gen.hostOps0_2, List.flatten_cons, List.flatten_nil, List.append_nil, List.cons_append, List.nil_append]
  after_results_simp
theorem entry_arg2 (c : Dev nD) : entry m c (Proc.devRef .tc main_arg2) = m ((c : Thread nD τ).loc main_arg2) := by
  dsimp only [entry]
  simp only [Gen.hostOps0, Gen.hostOps0_1, Gen.hostOps0_2, List.flatten_cons, List.flatten_nil, List.append_nil, List.cons_append, List.nil_append]
  after_results_simp
theorem entry_arg3 (c : Dev nD) : entry m c (Proc.devRef .tc main_arg3) = m ((c : Thread nD τ).loc main_arg3) := by
  dsimp only [entry]
  simp only [Gen.hostOps0, Gen.hostOps0_1, Gen.hostOps0_2, List.flatten_cons, List.flatten_nil, List.append_nil, List.cons_append, List.nil_append]
  after_results_simp
theorem entry_arg4 (c : Dev nD) : entry m c (Proc.devRef .tc main_arg4) = m ((c : Thread nD τ).loc main_arg4) := by
  dsimp only [entry]
  simp only [Gen.hostOps0, Gen.hostOps0_1, Gen.hostOps0_2, List.flatten_cons, List.flatten_nil, List.append_nil, List.cons_append, List.nil_append]
  after_results_simp

/-- The first window's array on entry, at (k, e): coordinate k of the table's row that word e of the first index array
    names. -/
theorem entry_v3 (c : Dev nD) (h : Cert.Spec.InRange (fun e => m ((c : Thread nD τ).loc main_arg1) (ValueIdx.ix1 e)))
    (k : Fin 3) (e : Fin 3000000) :
    entry m c (Proc.devRef .tc main_v3) (ValueIdx.ix2 k e)
      = m ((c : Thread nD τ).loc main_arg0) (ValueIdx.ix2 (Cert.Spec.row (m ((c : Thread nD τ).loc main_arg1) (ValueIdx.ix1 e))) k) := by
  rw [entry_eq]
  refine (congrFun (s3_v3 (late m c)) (ix2 k e)).trans ?_
  refine (slice_apply _ 0 _ k e ⟨e.val, by omega⟩ (by show e.val = 0 + e.val; omega)).trans ?_
  exact late_v2 m c k _ _ (cat_apply0 _ _ _ _ e _ rfl) (h e)

/-- The second window's array on entry: the rows the second index array names. -/
theorem entry_v4 (c : Dev nD) (h : Cert.Spec.InRange (fun e => m ((c : Thread nD τ).loc main_arg2) (ValueIdx.ix1 e)))
    (k : Fin 3) (e : Fin 3000000) :
    entry m c (Proc.devRef .tc main_v4) (ValueIdx.ix2 k e)
      = m ((c : Thread nD τ).loc main_arg0) (ValueIdx.ix2 (Cert.Spec.row (m ((c : Thread nD τ).loc main_arg2) (ValueIdx.ix1 e))) k) := by
  rw [entry_eq]
  refine (congrFun (s3_v4 (late m c)) (ix2 k e)).trans ?_
  refine (slice_apply _ 3000000 _ k e ⟨3000000 + e.val, by omega⟩ rfl).trans ?_
  exact late_v2 m c k _ _ (cat_apply1 _ _ _ _ e _ rfl) (h e)

/-- The third window's array on entry: the rows the third index array names. -/
theorem entry_v5 (c : Dev nD) (h : Cert.Spec.InRange (fun e => m ((c : Thread nD τ).loc main_arg3) (ValueIdx.ix1 e)))
    (k : Fin 3) (e : Fin 3000000) :
    entry m c (Proc.devRef .tc main_v5) (ValueIdx.ix2 k e)
      = m ((c : Thread nD τ).loc main_arg0) (ValueIdx.ix2 (Cert.Spec.row (m ((c : Thread nD τ).loc main_arg3) (ValueIdx.ix1 e))) k) := by
  rw [entry_eq]
  refine (congrFun (s3_v5 (late m c)) (ix2 k e)).trans ?_
  refine (slice_apply _ 6000000 _ k e ⟨6000000 + e.val, by omega⟩ rfl).trans ?_
  exact late_v2 m c k _ _ (cat_apply2 _ _ _ _ e _ rfl) (h e)

/-- The fourth window's array on entry: the rows the fourth index array names. -/
theorem entry_v6 (c : Dev nD) (h : Cert.Spec.InRange (fun e => m ((c : Thread nD τ).loc main_arg4) (ValueIdx.ix1 e)))
    (k : Fin 3) (e : Fin 3000000) :
    entry m c (Proc.devRef .tc main_v6) (ValueIdx.ix2 k e)
      = m ((c : Thread nD τ).loc main_arg0) (ValueIdx.ix2 (Cert.Spec.row (m ((c : Thread nD τ).loc main_arg4) (ValueIdx.ix1 e))) k) := by
  rw [entry_eq]
  refine (congrFun (s3_v6 (late m c)) (ix2 k e)).trans ?_
  refine (slice_apply _ 9000000 _ k e ⟨9000000 + e.val, by omega⟩ rfl).trans ?_
  exact late_v2 m c k _ _ (cat_apply3 _ _ _ _ e _ rfl) (h e)

end Cert.KernelIdeal.Take
end
-- ==== Proof.LibTileSum.lean ====
/-
  Sums accumulated tile by tile.

  A range of `T * B` positions is cut into `T` tiles of `B` consecutive positions, tile `t` holding the positions
  `t * B + r`, `r < B`. In a commutative additive monoid this file proves:

  * `acc_eq_sum`, `acc_eq_add_sum` (and the forms bounded by a number of steps): an accumulator that starts from the
    first term (or from a start value plus the first term) and adds one term per step holds the sum of the terms so far;
  * `sum_tiles`, `sum_tiles_prefix`, `sum_tiles_fin'`, `sum_tiles_fin`, `sum_tiles_50_200`: summing tile by tile
    is summing over all positions, over ℕ and over `Fin`;
  * `tile_iff`, `sum_tile_indicator` and its `Fin` forms: a position `j < T * B` lies in exactly one tile, the tile
    `j / B`, so a value added in the tile that holds `j` is added once;
  * `sum_tiles_add_indicator` and its `Fin` forms: the two together.

  Only Mathlib is used.
-/
import Mathlib.Algebra.BigOperators.Group.Finset.Basic
import Mathlib.Algebra.BigOperators.Group.Finset.Piecewise
import Mathlib.Algebra.BigOperators.Fin

namespace Cert.TileSum

open Finset

variable {M : Type*} [AddCommMonoid M]

/-! ### The recursion solved -/

/-- An accumulator that starts at the first term and adds the next term at every step, for the steps below `T`,
holds the sum of the terms so far. -/
theorem acc_eq_sum_of_lt (T : ℕ) (acc term : ℕ → M) (h0 : acc 0 = term 0)
    (hs : ∀ t, t + 1 < T → acc (t + 1) = acc t + term (t + 1)) (t : ℕ) (ht : t < T) :
    acc t = ∑ s ∈ Finset.range (t + 1), term s := by
  induction t with
  | zero => rw [h0, Finset.sum_range_one]
  | succ t ih => rw [hs t ht, ih (Nat.lt_of_succ_lt ht), Finset.sum_range_succ _ (t + 1)]

/-- The same without a bound on the steps. -/
theorem acc_eq_sum (acc term : ℕ → M) (h0 : acc 0 = term 0)
    (hs : ∀ t, acc (t + 1) = acc t + term (t + 1)) (t : ℕ) :
    acc t = ∑ s ∈ Finset.range (t + 1), term s :=
  acc_eq_sum_of_lt (t + 1) acc term h0 (fun t _ => hs t) t (Nat.lt_succ_self t)

/-- The accumulator started from a value `z`: it holds `z` plus the sum of the terms so far. -/
theorem acc_eq_add_sum_of_lt (T : ℕ) (z : M) (acc term : ℕ → M) (h0 : acc 0 = z + term 0)
    (hs : ∀ t, t + 1 < T → acc (t + 1) = acc t + term (t + 1)) (t : ℕ) (ht : t < T) :
    acc t = z + ∑ s ∈ Finset.range (t + 1), term s := by
  induction t with
  | zero => rw [h0, Finset.sum_range_one]
  | succ t ih =>
    rw [hs t ht, ih (Nat.lt_of_succ_lt ht), Finset.sum_range_succ _ (t + 1), add_assoc]

/-- The same without a bound on the steps. -/
theorem acc_eq_add_sum (z : M) (acc term : ℕ → M) (h0 : acc 0 = z + term 0)
    (hs : ∀ t, acc (t + 1) = acc t + term (t + 1)) (t : ℕ) :
    acc t = z + ∑ s ∈ Finset.range (t + 1), term s :=
  acc_eq_add_sum_of_lt (t + 1) z acc term h0 (fun t _ => hs t) t (Nat.lt_succ_self t)

/-! ### Tiles make the whole -/

/-- Position `r` of tile `t` lies under `T * B`. -/
theorem mulAdd_lt {T B : ℕ} (t : Fin T) (r : Fin B) : t.val * B + r.val < T * B :=
  calc t.val * B + r.val < t.val * B + B := Nat.add_lt_add_left r.2 _
    _ = (t.val + 1) * B := (Nat.add_one_mul _ _).symm
    _ ≤ T * B := Nat.mul_le_mul_right B (Nat.succ_le_of_lt t.2)

/-- Summing tile by tile is summing over all `T * B` positions. -/
theorem sum_tiles (T B : ℕ) (g : ℕ → M) :
    ∑ t ∈ Finset.range T, ∑ r ∈ Finset.range B, g (t * B + r) = ∑ i ∈ Finset.range (T * B), g i := by
  induction T with
  | zero => simp
  | succ T ih => rw [Finset.sum_range_succ, ih, Nat.add_one_mul, Finset.sum_range_add]

/-- The first `n + 1` tiles make the first `(n + 1) * B` positions. -/
theorem sum_tiles_prefix (n B : ℕ) (g : ℕ → M) :
    ∑ t ∈ Finset.range (n + 1), ∑ r ∈ Finset.range B, g (t * B + r)
      = ∑ i ∈ Finset.range ((n + 1) * B), g i :=
  sum_tiles (n + 1) B g

/-- Tiles over `Fin`, the position of row `r` of tile `t` given by any `idx t r` whose value is `t * B + r`. -/
theorem sum_tiles_fin' (T B N : ℕ) (hN : N = T * B) (f : Fin N → M) (idx : Fin T → Fin B → Fin N)
    (hidx : ∀ t r, (idx t r).val = t.val * B + r.val) :
    ∑ t : Fin T, ∑ r : Fin B, f (idx t r) = ∑ i : Fin N, f i := by
  subst hN
  -- extend f to all of ℕ, by zero beyond T * B
  obtain ⟨g, hg⟩ : ∃ g : ℕ → M, ∀ i : Fin (T * B), g i.val = f i :=
    ⟨fun k => if h : k < T * B then f ⟨k, h⟩ else 0, fun i => dif_pos i.2⟩
  calc ∑ t : Fin T, ∑ r : Fin B, f (idx t r)
      = ∑ t : Fin T, ∑ r : Fin B, g (t.val * B + r.val) := by
        refine Finset.sum_congr rfl fun t _ => Finset.sum_congr rfl fun r _ => ?_
        rw [← hidx t r, hg]
    _ = ∑ t ∈ Finset.range T, ∑ r ∈ Finset.range B, g (t * B + r) := by
        rw [Finset.sum_range]
        refine Finset.sum_congr rfl fun t _ => ?_
        rw [Finset.sum_range]
    _ = ∑ i ∈ Finset.range (T * B), g i := sum_tiles T B g
    _ = ∑ i : Fin (T * B), f i := by
        rw [Finset.sum_range]
        exact Finset.sum_congr rfl fun i _ => hg i

/-- Tiles over `Fin`, the position built as `t * B + r`. -/
theorem sum_tiles_fin (T B : ℕ) (f : Fin (T * B) → M) :
    ∑ t : Fin T, ∑ r : Fin B, f ⟨t.val * B + r.val, mulAdd_lt t r⟩ = ∑ i : Fin (T * B), f i :=
  sum_tiles_fin' T B (T * B) rfl f (fun t r => ⟨t.val * B + r.val, mulAdd_lt t r⟩) (fun _ _ => rfl)

/-- Fifty tiles of two hundred rows make ten thousand rows, the position written `200 * t + r`. -/
theorem sum_tiles_50_200 (f : Fin 10000 → M) :
    ∑ t : Fin 50, ∑ r : Fin 200, f ⟨200 * t.val + r.val, by omega⟩ = ∑ i : Fin 10000, f i :=
  sum_tiles_fin' 50 200 10000 rfl f (fun t r => ⟨200 * t.val + r.val, by omega⟩)
    (fun t r => congrArg (· + r.val) (Nat.mul_comm 200 t.val))

/-! ### A position lies in exactly one tile -/

/-- Position `j` lies in tile `t` exactly when `t` is `j / B`. -/
theorem tile_iff {B : ℕ} (hB : 0 < B) (t j : ℕ) : (t * B ≤ j ∧ j < t * B + B) ↔ t = j / B := by
  rw [← Nat.le_div_iff_mul_le hB, ← Nat.add_one_mul, ← Nat.div_lt_iff_lt_mul hB]
  omega

/-- A value added in the tile that holds `j` is added exactly once. -/
theorem sum_tile_indicator (T B : ℕ) (u : M) (j : ℕ) (hj : j < T * B) :
    ∑ t ∈ Finset.range T, (if t * B ≤ j ∧ j < t * B + B then u else 0) = u := by
  have hB : 0 < B := Nat.pos_of_ne_zero fun h => by subst h; simp at hj
  have hmem : j / B ∈ Finset.range T := Finset.mem_range.2 ((Nat.div_lt_iff_lt_mul hB).2 hj)
  -- only the tile j / B contributes
  refine (Finset.sum_eq_single_of_mem (j / B) hmem ?_).trans ?_
  · intro t _ hne
    exact if_neg fun h => hne ((tile_iff hB t j).1 h)
  · exact if_pos ((tile_iff hB (j / B) j).2 rfl)

/-- The same with the tiles indexed by `Fin T`. -/
theorem sum_tile_indicator_fin (T B : ℕ) (u : M) (j : ℕ) (hj : j < T * B) :
    ∑ t : Fin T, (if t.val * B ≤ j ∧ j < t.val * B + B then u else 0) = u :=
  (Finset.sum_range fun t => if t * B ≤ j ∧ j < t * B + B then u else 0).symm.trans
    (sum_tile_indicator T B u j hj)

/-- Fifty tiles of two hundred rows: row `j` of ten thousand lies in exactly one tile. -/
theorem sum_tile_indicator_50_200 (u : M) (j : Fin 10000) :
    ∑ t : Fin 50, (if 200 * t.val ≤ j.val ∧ j.val < 200 * t.val + 200 then u else 0) = u := by
  have h := sum_tile_indicator_fin 50 200 u j.val (by have := j.isLt; omega)
  refine Eq.trans (Finset.sum_congr rfl fun t _ => ?_) h
  exact if_congr (by omega) rfl rfl

/-- In the tiling by two hundred, row `j` lies in tile `t` exactly when `t = j / 200`. -/
theorem tile_iff_200 (t j : ℕ) : (200 * t ≤ j ∧ j < 200 * t + 200) ↔ t = j / 200 := by
  omega

/-! ### The two together -/

/-- Tile sums plus a value added in the tile that holds `j`: the whole sum plus that value. -/
theorem sum_tiles_add_indicator (T B : ℕ) (g : ℕ → M) (u : M) (j : ℕ) (hj : j < T * B) :
    ∑ t ∈ Finset.range T, ((∑ r ∈ Finset.range B, g (t * B + r)) + (if t * B ≤ j ∧ j < t * B + B then u else 0))
      = (∑ i ∈ Finset.range (T * B), g i) + u := by
  rw [Finset.sum_add_distrib, sum_tiles, sum_tile_indicator T B u j hj]

/-- The same over `Fin`, the position of row `r` of tile `t` given by any `idx t r` whose value is `t * B + r`. -/
theorem sum_tiles_add_indicator_fin' (T B N : ℕ) (hN : N = T * B) (w : Fin N → M) (idx : Fin T → Fin B → Fin N)
    (hidx : ∀ t r, (idx t r).val = t.val * B + r.val) (u : M) (j : ℕ) (hj : j < N) :
    ∑ t : Fin T, ((∑ r : Fin B, w (idx t r)) + (if t.val * B ≤ j ∧ j < t.val * B + B then u else 0))
      = (∑ i : Fin N, w i) + u := by
  rw [Finset.sum_add_distrib, sum_tiles_fin' T B N hN w idx hidx, sum_tile_indicator_fin T B u j (hN ▸ hj)]

/-- Fifty tiles of two hundred rows, with the value at row `j` added in the tile that holds `j`. -/
theorem sum_tiles_add_self_50_200 (w v : Fin 10000 → M) (j : Fin 10000) :
    ∑ t : Fin 50, ((∑ r : Fin 200, w ⟨200 * t.val + r.val, by omega⟩)
        + (if 200 * t.val ≤ j.val ∧ j.val < 200 * t.val + 200 then v j else 0))
      = (∑ i : Fin 10000, w i) + v j := by
  rw [Finset.sum_add_distrib, sum_tiles_50_200 w, sum_tile_indicator_50_200 (v j) j]

end Cert.TileSum
-- ==== Proof.LibBlockSum.lean ====
/-
  A sum computed as rows of masked blocks.

  `N` positions are summed by `R` rows of `K` blocks of `B` lanes, with `N ≤ R * K * B`: block `i` of row `c` sums the
  positions `(c * K + i) * B + l`, `l < B`, a lane whose position is `N` or more counting as zero (the mask), and every
  row adds its blocks one after another starting from zero. In a commutative additive monoid this file proves:

  * `ext0`, `ext0_of_lt`, `ext0_of_ge`, `sum_ext0`: a family on `Fin N` extended by zero to ℕ, and the sum of the
    extension over `N + d` positions, which is the sum of the family;
  * `rows_total_gen`: the row totals add up to the sum over all `N` positions, for any `R`, `K`, `B`, `N`;
  * `rows_total`: the case of 3,000,000 positions in 2 rows of 23 blocks of 65,536 lanes
    (`2 * 23 * 65536 = 3014656`).

  Why it holds: a row total is the sum of the row's block sums (the accumulator recursion solved); a masked block sum is
  the sum of the zero extension over the block's `B` positions; equal tiles make the whole range, so the blocks of a row,
  the rows, and the `R * K` blocks together make the first `R * K * B` positions, and those from `N` on hold zero.
-/
import Mathlib.Algebra.BigOperators.Group.Finset.Basic
import Mathlib.Algebra.BigOperators.Fin
import Mathlib.Tactic.NormNum
import proofs.«401790_j62929860821309_3_alg».proof.Proof.LibTileSum

namespace Cert.BlockSum

open Finset

/-- A family on `Fin N` extended by zero to every natural number. -/
def ext0 {M : Type*} [AddCommMonoid M] {N : ℕ} (f : Fin N → M) (n : ℕ) : M :=
  if h : n < N then f ⟨n, h⟩ else 0

/-- Under `N` the extension is the family itself. -/
theorem ext0_of_lt {M : Type*} [AddCommMonoid M] {N : ℕ} (f : Fin N → M) (i : Fin N) :
    ext0 f i.val = f i :=
  dif_pos i.2

/-- From `N` on the extension is zero. -/
theorem ext0_of_ge {M : Type*} [AddCommMonoid M] {N : ℕ} (f : Fin N → M) {n : ℕ} (h : N ≤ n) :
    ext0 f n = 0 :=
  dif_neg (Nat.not_lt.2 h)

/-- Summing the extension over `N + d` positions is summing the family: the `d` positions past the end hold
zero. -/
theorem sum_ext0 {M : Type*} [AddCommMonoid M] {N : ℕ} (f : Fin N → M) (d : ℕ) :
    ∑ n ∈ Finset.range (N + d), ext0 f n = ∑ e : Fin N, f e := by
  have htail : ∑ k ∈ Finset.range d, ext0 f (N + k) = 0 :=
    Finset.sum_eq_zero fun k _ => ext0_of_ge f (Nat.le_add_right N k)
  rw [Finset.sum_range_add, htail, add_zero, Finset.sum_range]
  exact Finset.sum_congr rfl fun i _ => ext0_of_lt f i

/-- `R` rows of `K` blocks of `B` lanes cover at least `N` positions; block `i` of row `c` sums the lanes
`(c * K + i) * B + l` that lie under `N`; each row is accumulated from zero, block after block, and `k = K - 1` is
its last block. Then the row totals add up to the sum over all `N` positions.

Each row total is the sum of its `K` block sums (the recursion solved); a masked block sum is the sum of the
zero extension over the block's `B` positions; the `K` blocks of a row tile the row, the `R` rows tile the
`R * K` blocks, and these tile the first `R * K * B` positions, of which those from `N` on hold zero. -/
theorem rows_total_gen {M : Type*} [AddCommMonoid M] (R K B N k : ℕ) (hk : k + 1 = K) (hN : N ≤ R * K * B)
    (f : Fin N → M) (S bs : Fin R → ℕ → M)
    (hbs : ∀ (c : Fin R) (i : ℕ), i < K → bs c i = ∑ l : Fin B,
      if h : (c.val * K + i) * B + l.val < N then f ⟨(c.val * K + i) * B + l.val, h⟩ else 0)
    (h0 : ∀ c, S c 0 = 0 + bs c 0)
    (hs : ∀ (c : Fin R) (i : ℕ), i + 1 < K → S c (i + 1) = S c i + bs c (i + 1)) :
    0 + ∑ c : Fin R, S c k = ∑ e : Fin N, f e := by
  -- a masked block sum is a sum of the zero extension over the block's positions
  have hblock : ∀ (c : Fin R) (i : ℕ), i < K →
      bs c i = ∑ l ∈ Finset.range B, ext0 f ((c.val * K + i) * B + l) := by
    intro c i hi
    rw [hbs c i hi, Finset.sum_range]
    rfl
  -- a row total is the sum of the row's block sums
  have hrow : ∀ c : Fin R,
      S c k = ∑ i ∈ Finset.range K, ∑ l ∈ Finset.range B, ext0 f ((c.val * K + i) * B + l) := by
    intro c
    rw [TileSum.acc_eq_add_sum_of_lt K 0 (S c) (bs c) (h0 c) (hs c) k (by omega), zero_add, hk]
    exact Finset.sum_congr rfl fun i hi => hblock c i (Finset.mem_range.1 hi)
  obtain ⟨d, hd⟩ := Nat.exists_eq_add_of_le hN
  rw [zero_add]
  calc ∑ c : Fin R, S c k
      = ∑ c ∈ Finset.range R, ∑ i ∈ Finset.range K,
          ∑ l ∈ Finset.range B, ext0 f ((c * K + i) * B + l) := by
        rw [Finset.sum_range]
        exact Finset.sum_congr rfl fun c _ => hrow c
    _ = ∑ b ∈ Finset.range (R * K), ∑ l ∈ Finset.range B, ext0 f (b * B + l) :=
        TileSum.sum_tiles R K fun b => ∑ l ∈ Finset.range B, ext0 f (b * B + l)
    _ = ∑ n ∈ Finset.range (R * K * B), ext0 f n := TileSum.sum_tiles (R * K) B (ext0 f)
    _ = ∑ e : Fin N, f e := by rw [hd]; exact sum_ext0 f d

/-- Three million positions summed as 2 rows of 23 blocks of 65,536 lanes, the lanes past the end masked, each row
accumulated from zero: `2 * 23 * 65536 = 3014656` covers the three million positions. -/
theorem rows_total {M : Type*} [AddCommMonoid M] (f : Fin 3000000 → M) (S bs : Fin 2 → ℕ → M)
    (hbs : ∀ (c : Fin 2) (i : ℕ), i < 23 → bs c i = ∑ l : Fin 65536, if h : (c.val * 23 + i) * 65536 + l.val < 3000000 then f ⟨(c.val * 23 + i) * 65536 + l.val, h⟩ else 0)
    (h0 : ∀ c, S c 0 = 0 + bs c 0)
    (hs : ∀ (c : Fin 2) (i : ℕ), i + 1 < 23 → S c (i + 1) = S c i + bs c (i + 1)) :
    0 + ∑ c : Fin 2, S c 22 = ∑ e : Fin 3000000, f e :=
  rows_total_gen 2 23 65536 3000000 22 (by norm_num) (by norm_num) f S bs hbs h0 hs

end Cert.BlockSum
-- ==== Proof.RunI.lean ====
/-
  The kernel program on the extended reals runs to the specification's total: the launch of the region from the proof
  data in closed form; the five arguments and the result through the host lines after the region; each edge's loss read
  off the point arrays is the specification's loss of the edge (the host lines before the region gather, for an index in
  range, the vertex table's row); and the two rows' accumulators add up to the sum over all edges, each edge counted once
  in its block and the lanes past the last edge contributing nothing.
-/
import proofs.«401790_j62929860821309_3_alg».proof.Proof.ValueI
import proofs.«401790_j62929860821309_3_alg».proof.Proof.FinalI
import proofs.«401790_j62929860821309_3_alg».proof.Proof.FrameFI
import proofs.«401790_j62929860821309_3_alg».proof.Proof.TakeValue
import proofs.«401790_j62929860821309_3_alg».proof.Proof.LibBlockSum

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

open Idealize.ShloMosaic.ValueIdx

/-! ## The launch -/

theorem body_obligationI (c : Dev nD) : BodyObligationLoose (datsI m 0 c) (defs₀ (F := Ideal)) Variants.none () Set.univ := fun t => by
  rw [bigSep_W0, bigSep_W0]
  exact sound_bodyI m c t

theorem hinI (c : Dev nD) : Pipeline.ΦA spec0 c ⊢ (datsI m 0 c).Φ 0 := by
  rw [show (datsI m 0 c).Φ 0 = PhiS m c 0 (Nat.zero_le _) from rfl, PhiS_zero m c 0 _ rfl]

theorem houtI (c : Dev nD) : (datsI m 0 c).Φ (Fin.last cfg0.N) ⊢ Pipeline.ΦA spec0 c := by
  rw [show (datsI m 0 c).Φ (Fin.last cfg0.N) = PhiS m c (Fin.last cfg0.N).val (Nat.le_of_lt_succ (Fin.last cfg0.N).isLt) from rfl,
    PhiS_pos m c _ _ (by rw [Fin.val_last]; have : cfg0.N = 46 := N_0; omega), PhiA0_eq]
  iintro ⟨HS0, Hg⟩
  isplitl [HS0]; · iexists _; iexact HS0
  iexact Hg

set_option backward.isDefEq.respectTransparency.types false in
/-- Every weakly fair execution of @main terminates, with every array of the pipeline at what the proof data computes
    and every other unscoped buffer as the lines after the region leave it. -/
theorem run_mainI : θ_run defs (onTc (τ := τ) (main (F := Ideal))) (s₀ m ρ)
    (Pipeline.FramePost cfgs (datsI m) 0 (Pipeline.afterTail₀ cfgs (datsI m) 0 (V0 m) [hostOps1])) :=
  Pipeline.θ_run_frame_around_track cfgs (datsI m) (0 : Fin 1) launch0 defs₀ Variants.none m ρ main
    (hbody := fun c => body_obligationI m c) (hshare := fun c => (datsI m 0 c).share_full fun _ => rfl)
    (howed := fun _ _ => rfl) (V₀ := V0 m) (opss := [hostOps1]) (hsub := sfx_sub) (hfresh := sfx_fresh) (hkeep := sfx_keeps)
    (hmain := hmain m Variants.none) (hA := AI_eq m) (hin := hinI m) (hout := houtI m)

/-! ## The arguments through the lines after the region -/

theorem tail_arg0 (c : Dev nD) :
    Pipeline.afterTail₀ cfgs (datsI m) 0 (V0 m) [hostOps1] c main_arg0 = m ((c : Thread nD τ).loc main_arg0) := by
  unfold Pipeline.afterTail₀
  show StableHlo.after hostOps1 _ (Proc.devRef .tc main_arg0) = _
  after_results
  exact (Pipeline.withArrays_of_ne spec0 c _ _ main_arg0 (by decide)).trans (V_main_arg0 m c)
theorem tail_arg1 (c : Dev nD) :
    Pipeline.afterTail₀ cfgs (datsI m) 0 (V0 m) [hostOps1] c main_arg1 = m ((c : Thread nD τ).loc main_arg1) := by
  unfold Pipeline.afterTail₀
  show StableHlo.after hostOps1 _ (Proc.devRef .tc main_arg1) = _
  after_results
  exact (Pipeline.withArrays_of_ne spec0 c _ _ main_arg1 (by decide)).trans (V_main_arg1 m c)
theorem tail_arg2 (c : Dev nD) :
    Pipeline.afterTail₀ cfgs (datsI m) 0 (V0 m) [hostOps1] c main_arg2 = m ((c : Thread nD τ).loc main_arg2) := by
  unfold Pipeline.afterTail₀
  show StableHlo.after hostOps1 _ (Proc.devRef .tc main_arg2) = _
  after_results
  exact (Pipeline.withArrays_of_ne spec0 c _ _ main_arg2 (by decide)).trans (V_main_arg2 m c)
theorem tail_arg3 (c : Dev nD) :
    Pipeline.afterTail₀ cfgs (datsI m) 0 (V0 m) [hostOps1] c main_arg3 = m ((c : Thread nD τ).loc main_arg3) := by
  unfold Pipeline.afterTail₀
  show StableHlo.after hostOps1 _ (Proc.devRef .tc main_arg3) = _
  after_results
  exact (Pipeline.withArrays_of_ne spec0 c _ _ main_arg3 (by decide)).trans (V_main_arg3 m c)
theorem tail_arg4 (c : Dev nD) :
    Pipeline.afterTail₀ cfgs (datsI m) 0 (V0 m) [hostOps1] c main_arg4 = m ((c : Thread nD τ).loc main_arg4) := by
  unfold Pipeline.afterTail₀
  show StableHlo.after hostOps1 _ (Proc.devRef .tc main_arg4) = _
  after_results
  exact (Pipeline.withArrays_of_ne spec0 c _ _ main_arg4 (by decide)).trans (V_main_arg4 m c)

/-! ## The result is the specification's total -/

/-- For indices in range the host lines before the region hand the region, in column e of the four point arrays, the
    vertex table's rows the four index arrays name: the loss read off the arrays is the specification's. -/
theorem lossArr_eq (c : Dev nD) (h1 : Cert.Spec.InRange (Cert.Spec.words (m ((c : Thread nD τ).loc main_arg1)))) (h2 : Cert.Spec.InRange (Cert.Spec.words (m ((c : Thread nD τ).loc main_arg2)))) (h3 : Cert.Spec.InRange (Cert.Spec.words (m ((c : Thread nD τ).loc main_arg3)))) (h4 : Cert.Spec.InRange (Cert.Spec.words (m ((c : Thread nD τ).loc main_arg4)))) (e : Fin 3000000) :
    lossArr m c e = Cert.Spec.lossAt (Cert.Spec.tbl (m ((c : Thread nD τ).loc main_arg0))) (Cert.Spec.words (m ((c : Thread nD τ).loc main_arg1))) (Cert.Spec.words (m ((c : Thread nD τ).loc main_arg2)))
      (Cert.Spec.words (m ((c : Thread nD τ).loc main_arg3))) (Cert.Spec.words (m ((c : Thread nD τ).loc main_arg4))) e := by
  have e0 : (fun k : Fin 3 => V m c main_v3 (ix2 k e))
      = Cert.Spec.tbl (m ((c : Thread nD τ).loc main_arg0)) (Cert.Spec.row (Cert.Spec.words (m ((c : Thread nD τ).loc main_arg1)) e)) :=
    funext fun k => Cert.KernelIdeal.Take.entry_v3 m c h1 k e
  have e1 : (fun k : Fin 3 => V m c main_v4 (ix2 k e))
      = Cert.Spec.tbl (m ((c : Thread nD τ).loc main_arg0)) (Cert.Spec.row (Cert.Spec.words (m ((c : Thread nD τ).loc main_arg2)) e)) :=
    funext fun k => Cert.KernelIdeal.Take.entry_v4 m c h2 k e
  have e2 : (fun k : Fin 3 => V m c main_v5 (ix2 k e))
      = Cert.Spec.tbl (m ((c : Thread nD τ).loc main_arg0)) (Cert.Spec.row (Cert.Spec.words (m ((c : Thread nD τ).loc main_arg3)) e)) :=
    funext fun k => Cert.KernelIdeal.Take.entry_v5 m c h3 k e
  have e3 : (fun k : Fin 3 => V m c main_v6 (ix2 k e))
      = Cert.Spec.tbl (m ((c : Thread nD τ).loc main_arg0)) (Cert.Spec.row (Cert.Spec.words (m ((c : Thread nD τ).loc main_arg4)) e)) :=
    funext fun k => Cert.KernelIdeal.Take.entry_v6 m c h4 k e
  unfold lossArr Cert.Spec.lossAt Cert.Spec.pt
  rw [e0, e1, e2, e3]

/-- The two rows' accumulators after their last steps add up to the sum of all edges' losses. -/
theorem total_eq (c : Dev nD) (h1 : Cert.Spec.InRange (Cert.Spec.words (m ((c : Thread nD τ).loc main_arg1)))) (h2 : Cert.Spec.InRange (Cert.Spec.words (m ((c : Thread nD τ).loc main_arg2)))) (h3 : Cert.Spec.InRange (Cert.Spec.words (m ((c : Thread nD τ).loc main_arg3)))) (h4 : Cert.Spec.InRange (Cert.Spec.words (m ((c : Thread nD τ).loc main_arg4)))) :
    (0 : EReal) + ∑ r : Fin 2, accI m c (r.val * 23 + 22) = Cert.Spec.total (Cert.Spec.tbl (m ((c : Thread nD τ).loc main_arg0))) (Cert.Spec.words (m ((c : Thread nD τ).loc main_arg1))) (Cert.Spec.words (m ((c : Thread nD τ).loc main_arg2))) (Cert.Spec.words (m ((c : Thread nD τ).loc main_arg3))) (Cert.Spec.words (m ((c : Thread nD τ).loc main_arg4))) := by
  unfold Cert.Spec.total
  rw [← Finset.sum_congr rfl (fun e _ => lossArr_eq m c h1 h2 h3 h4 e)]
  refine Cert.BlockSum.rows_total (lossArr m c) (fun r i => accI m c (r.val * 23 + i)) (fun r i => bsum m c (r.val * 23 + i))
    (fun r i _ => rfl) (fun r => accI_first m c _ (by omega)) (fun r i hi => ?_)
  have h := accI_next m c (r.val * 23 + (i + 1)) (by omega)
  have e : r.val * 23 + (i + 1) - 1 = r.val * 23 + i := by omega
  rw [e] at h
  exact h

/-- THE RUN WITH ITS VALUE: for index arrays in range, @main terminates with its result at the specification's total
    and its five arguments unchanged. -/
theorem run_valueI (hR : ∀ c : Dev nD, Cert.Spec.InRange (Cert.Spec.words (m ((c : Thread nD τ).loc main_arg1))) ∧ Cert.Spec.InRange (Cert.Spec.words (m ((c : Thread nD τ).loc main_arg2))) ∧ Cert.Spec.InRange (Cert.Spec.words (m ((c : Thread nD τ).loc main_arg3))) ∧ Cert.Spec.InRange (Cert.Spec.words (m ((c : Thread nD τ).loc main_arg4)))) :
    θ_run defs (onTc (τ := τ) (main (F := Ideal))) ⟨m, fun _ => 0, ρ⟩ (fun r => ∀ c : Dev nD,
      r.2.mem ((c.tc : Thread nD τ).loc main_v11) = (fun _ => Cert.Spec.total (Cert.Spec.tbl (m ((c : Thread nD τ).loc main_arg0))) (Cert.Spec.words (m ((c : Thread nD τ).loc main_arg1))) (Cert.Spec.words (m ((c : Thread nD τ).loc main_arg2))) (Cert.Spec.words (m ((c : Thread nD τ).loc main_arg3))) (Cert.Spec.words (m ((c : Thread nD τ).loc main_arg4))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
    ((h c).2 main_v11 (Pipeline.mem_restRefs_of main_v11 rfl (by decide))).trans
      ((tail_result m c).trans (funext fun _ => total_eq m c (hR c).1 (hR c).2.1 (hR c).2.2.1 (hR c).2.2.2)),
    ((h c).2 main_arg0 (Pipeline.mem_restRefs_of main_arg0 rfl (by decide))).trans (tail_arg0 m c),
    ((h c).2 main_arg1 (Pipeline.mem_restRefs_of main_arg1 rfl (by decide))).trans (tail_arg1 m c),
    ((h c).2 main_arg2 (Pipeline.mem_restRefs_of main_arg2 rfl (by decide))).trans (tail_arg2 m c),
    ((h c).2 main_arg3 (Pipeline.mem_restRefs_of main_arg3 rfl (by decide))).trans (tail_arg3 m c),
    ((h c).2 main_arg4 (Pipeline.mem_restRefs_of main_arg4 rfl (by decide))).trans (tail_arg4 m c)⟩) (run_mainI m ρ)

end Cert.KernelIdeal.Hand

end
-- ==== Proof.PreDecode.lean ====
/-
  The printed precondition, decoded.

  The precondition is the conjunction of five tests, each a reduction by "and" over a whole array: every
  entry of the float array is finite in absolute value, and, for each of the four index arrays, every word w
  satisfies 0 <= w and w < 1000000 read as signed 32-bit integers.  When the conjunction is the bit 1, each
  test is 1, so each reduction met only 1s, so each word lies in [0, 1000000) read signed; a word that is
  non-negative read signed reads the same unsigned, hence its unsigned value is below 1000000.  That is the
  range fact the specification's row lookup needs; the float test is not used.
-/
import proofs.«401790_j62929860821309_3_alg».proof.Pre_finite_inputs
import proofs.«401790_j62929860821309_3_alg».proof.Proof.Spec
import Idealize.ShloMosaic.Lib.ReduceAll
import Idealize.ShloMosaic.Lib.StableHlo.Predicate
import Idealize.ShloMosaic.Lib.ValueIdx

namespace Cert.PreDecode

open Idealize.ShloMosaic
open Cert.Pre_finite_inputs

/-- A 32-bit word that is at least 0 and below 1000000 as a signed integer is below 1000000 as an unsigned one:
    the signed reading of w is w itself when 2w < 2^32 and w - 2^32 (negative) otherwise, and the second case is
    excluded by 0 <= w. -/
theorem toNat_lt_of_signed (w : BitVec 32) (h0 : IntOp.cmpi .sge w 0#32 = 1#1)
    (h1 : IntOp.cmpi .slt w 1000000#32 = 1#1) : w.toNat < 1000000 := by
  rw [IntOp.cmpi_sge] at h0
  rw [IntOp.cmpi_slt] at h1
  have z : (0#32 : BitVec 32).toInt = 0 := by decide
  have m : (1000000#32 : BitVec 32).toInt = 1000000 := by decide
  rw [z] at h0
  rw [m] at h1
  rw [BitVec.toInt_eq_toNat_cond] at h0 h1
  have hw := w.isLt
  split at h0 <;> omega

/-- The index of the one entry of a rank-0 array is unique. -/
instance : Subsingleton S_.Idx := ⟨fun a b => funext fun d => d.elim0⟩

variable [Facts]

/-- One index array's test: if the reduction by "and" of (v >= 0) and (v < 1000000), over the whole array, is 1, then
    every word of v is below 1000000 read unsigned.  The reduction being 1 makes the elementwise conjunction 1 at
    every position; there the two broadcast constants read 0 and 1000000, and the word lemma applies. -/
theorem inRange_of_all (v : IVec S3000000 32)
    (h : Host.reduce IntOp.andi
        (andi (cmpi .sge v (broadcastInDim S3000000 ![] Facts.bcast_S_S3000000 (constantI S_ 32 0#32)))
          (cmpi .slt v (broadcastInDim S3000000 ![] Facts.bcast_S_S3000000 (constantI S_ 32 1000000#32))))
        (constantI S_ 1 1#1) Facts.reducesTo_S3000000_S_d0 Facts.h_S_ ValueIdx.ix0 = 1#1) :
    Cert.Spec.InRange (Cert.Spec.words v) := by
  intro e
  have he := Host.reduce_andi_all _ _ _ _ _ h (ValueIdx.ix1 e)
  obtain ⟨h0, h1⟩ := IntOp.andi_eq_one.1 he
  exact toNat_lt_of_signed (v (ValueIdx.ix1 e)) h0 h1

/-- The precondition decoded: when the printed conjunction is 1, each of the four index arrays has all its words
    below 1000000.  The conjunction is a left-nested "and" of the five tests; splitting it from the outside gives
    the tests of the fourth, third, second and first index arrays in turn (the float test is left over, unused). -/
theorem inRange_of_pre {F : FTy → Type} [FloatOps F]
    (x : FVec F Cert.Pre_finite_inputs.S1000000x3 .f32) (i1 i2 i3 i4 : IVec Cert.Pre_finite_inputs.S3000000 32)
    (h : Cert.Pre_finite_inputs.fn (F := F) x i1 i2 i3 i4 = fun _ => 1#1) :
    Cert.Spec.InRange (Cert.Spec.words i1) ∧ Cert.Spec.InRange (Cert.Spec.words i2)
      ∧ Cert.Spec.InRange (Cert.Spec.words i3) ∧ Cert.Spec.InRange (Cert.Spec.words i4) := by
  have h0 := congrFun h ValueIdx.ix0
  unfold Cert.Pre_finite_inputs.fn Cert.Pre_finite_inputs.fn_part1 at h0
  dsimp only at h0
  obtain ⟨h123, a4⟩ := IntOp.andi_eq_one.1 h0
  obtain ⟨h12, a3⟩ := IntOp.andi_eq_one.1 h123
  obtain ⟨h1, a2⟩ := IntOp.andi_eq_one.1 h12
  obtain ⟨_, a1⟩ := IntOp.andi_eq_one.1 h1
  exact ⟨inRange_of_all i1 a1, inRange_of_all i2 a2, inRange_of_all i3 a3, inRange_of_all i4 a4⟩

end Cert.PreDecode
-- ==== Proof.RefValue.lean ====
/-
  The reference program's result is the specification.

  The reference takes, for every edge, four rows of the vertex table: each index word, wrapped if it is negative
  read signed, starts a one-row slice of the table seen as a batch of one, [1, 1000000, 3]; the slice keeps the
  batch axis and the coordinate axis and drops the row axis. For a word below a million read unsigned the wrap does
  nothing and the slice's start is the word itself, so the row taken is the one the specification names. From the
  four rows of an edge the program computes, operation by operation, the edge's loss as the specification defines
  it, and its result is the sum of the losses over the edges.
-/
import proofs.«401790_j62929860821309_3_alg».proof.Proof.Gen.ReferenceIdeal.Read
import proofs.«401790_j62929860821309_3_alg».proof.Proof.Spec
import Idealize.ShloMosaic.Lib.ValueIdx
import Idealize.ShloMosaic.PureOps.Ideal.Laws
import Mathlib.Algebra.BigOperators.Fin

noncomputable section

namespace Cert.RefSide

open Cert.ReferenceIdeal Idealize.ShloMosaic Idealize.ShloMosaic.TcCoe Idealize.SL.Sem
open Idealize.ShloMosaic.ValueIdx
open scoped BigOperators

/-! ## Rows of a table with a leading batch axis of size one, taken at an index vector -/

/-- The dimension numbers of the gather: operand [1, N, D], start indices [E, 1], result [1, E, D]; the result's
    batch axis 0 and coordinate axis 2 are the offset axes, the operand's row axis 1 is collapsed and is the axis
    the one-component start index names, the slices are 1 × 1 × D. -/
abbrev tableGatherDims (N D E : ℕ)
    (wf : GatherDims.WF ⟨3, ![1, N, D]⟩ ⟨2, ![E, 1]⟩ ⟨3, ![1, E, D]⟩ [0, 2] [1] [] [1] [] 1 ![1, 1, D]) :
    GatherDims ⟨3, ![1, N, D]⟩ ⟨2, ![E, 1]⟩ ⟨3, ![1, E, D]⟩ where
  offsetDims := [0, 2]
  collapsedSliceDims := [1]
  operandBatchingDims := []
  startIndicesBatchingDims := []
  startIndexMap := [1]
  indexVectorDim := 1
  sliceSizes := ![1, 1, D]
  wf := wf

/-- The gather read at (0, e, c): on the batch axis nothing but the result's coordinate 0; on the row axis the start
    word of edge e, read signed and clamped into [0, N − 1], and nothing else (the axis is collapsed); on the
    coordinate axis no start and the result's coordinate c as offset. -/
theorem gather_tableDims_apply {α : Type} {N D E w : ℕ} (hN : 0 < N)
    (wf : GatherDims.WF ⟨3, ![1, N, D]⟩ ⟨2, ![E, 1]⟩ ⟨3, ![1, E, D]⟩ [0, 2] [1] [] [1] [] 1 ![1, 1, D])
    (x : (⟨3, ![1, N, D]⟩ : Shape).Idx → α) (idx : IVec ⟨2, ![E, 1]⟩ w) (e : Fin E) (c : Fin D) :
    Host.gather (tableGatherDims N D E wf) x idx (ix3 (0 : Fin 1) e c)
      = x (ix3 (0 : Fin 1) ⟨min (idx (ix2 e 0)).toInt.toNat (N - 1), by omega⟩ c) := by
  unfold Host.gather
  congr 1
  funext a
  refine Fin.ext ?_
  match a with
  | ⟨0, _⟩ =>
    show (tableGatherDims N D E wf).start (ix3 (0 : Fin 1) e c) idx 0
      + (tableGatherDims N D E wf).batchCoord (ix3 (0 : Fin 1) e c) 0
      + (tableGatherDims N D E wf).offCoord (ix3 (0 : Fin 1) e c) 0 = 0
    have hstart : (tableGatherDims N D E wf).start (ix3 (0 : Fin 1) e c) idx 0 = 0 := by
      unfold GatherDims.start
      rw [dif_neg]
      intro hmem
      exact absurd (List.mem_singleton.mp hmem) (show ¬ (0 : Fin 3) = 1 by decide)
    have hoff : (tableGatherDims N D E wf).offCoord (ix3 (0 : Fin 1) e c) 0 = 0 := by
      unfold GatherDims.offCoord
      rw [dif_pos ((GatherDims.mem_sKept _ _).mpr
        ⟨fun h => absurd (List.mem_singleton.mp h) (show ¬ (0 : Fin 3) = 1 by decide), List.not_mem_nil⟩)]
      rfl
    rw [hstart, GatherDims.batchCoord_eq_zero _ _ _ List.not_mem_nil, hoff]
  | ⟨1, _⟩ =>
    show (tableGatherDims N D E wf).start (ix3 (0 : Fin 1) e c) idx 1
      + (tableGatherDims N D E wf).batchCoord (ix3 (0 : Fin 1) e c) 1
      + (tableGatherDims N D E wf).offCoord (ix3 (0 : Fin 1) e c) 1 = _
    rw [GatherDims.batchCoord_eq_zero _ _ _ List.not_mem_nil,
      GatherDims.offCoord_eq_zero _ _ _
        (fun h => ((GatherDims.mem_sKept _ _).mp h).1 (List.mem_singleton.mpr rfl))]
    simp only [Nat.add_zero]
    unfold GatherDims.start
    rw [dif_pos (show (1 : Fin 3) ∈ (tableGatherDims N D E wf).startIndexMap from List.mem_singleton.mpr rfl)]
    have hsi : (tableGatherDims N D E wf).siIdx (ix3 (0 : Fin 1) e c)
        ⟨List.idxOf (1 : Fin 3) (tableGatherDims N D E wf).startIndexMap,
          List.idxOf_lt_length_iff.2 (List.mem_singleton.mpr rfl)⟩ = ix2 e 0 := by
      funext b
      refine Fin.ext ?_
      match b with
      | ⟨0, _⟩ => rfl
      | ⟨1, _⟩ => rfl
    rw [hsi]
    rfl
  | ⟨2, _⟩ =>
    show (tableGatherDims N D E wf).start (ix3 (0 : Fin 1) e c) idx 2
      + (tableGatherDims N D E wf).batchCoord (ix3 (0 : Fin 1) e c) 2
      + (tableGatherDims N D E wf).offCoord (ix3 (0 : Fin 1) e c) 2 = c.val
    have hstart : (tableGatherDims N D E wf).start (ix3 (0 : Fin 1) e c) idx 2 = 0 := by
      unfold GatherDims.start
      rw [dif_neg]
      intro hmem
      exact absurd (List.mem_singleton.mp hmem) (show ¬ (2 : Fin 3) = 1 by decide)
    have hoff : (tableGatherDims N D E wf).offCoord (ix3 (0 : Fin 1) e c) 2 = c.val := by
      unfold GatherDims.offCoord
      rw [dif_pos ((GatherDims.mem_sKept _ _).mpr
        ⟨fun h => absurd (List.mem_singleton.mp h) (show ¬ (2 : Fin 3) = 1 by decide), List.not_mem_nil⟩)]
      rfl
    rw [hstart, GatherDims.batchCoord_eq_zero _ _ _ List.not_mem_nil, hoff]
    simp

/-- The generated record of the program's four gathers has those dimension numbers. -/
theorem gatherRecord_eq :
    gather_S1x1000000x3_S3000000x1_S1x3000000x3_02_1_n_n_1_1_113
      = tableGatherDims 1000000 3 3000000 Gen.gather_S1x1000000x3_S3000000x1_S1x3000000x3_02_1_n_n_1_1_113_wf := rfl

/-! ## An index word below a million -/

/-- A 32-bit word below a million read unsigned reads the same signed. -/
theorem toInt_of_inRange (w : BitVec 32) (h : w.toNat < 1000000) : w.toInt = (w.toNat : ℤ) := by
  rw [BitVec.toInt_eq_toNat_cond, if_pos (by omega)]

/-- So it is not negative, and the wrap of negative indices keeps the word. -/
theorem wrap_of_inRange (w : BitVec 32) (h : w.toNat < 1000000) :
    Scalar.select (IntOp.cmpi .slt w 0#32) (IntOp.addi w 1000000#32) w = w := by
  have hlt : w.slt 0#32 = false := by
    rw [BitVec.slt_eq_decide, toInt_of_inRange w h]
    simp
  have hs : IntOp.cmpi .slt w 0#32 = 0#1 := by
    unfold IntOp.cmpi
    simp only [hlt]
    rfl
  rw [hs, select_zero]

/-! ## The four gathers read at an element -/

section Gathers

variable {x0 : (⟨S1000000x3, .f32⟩ : BufTy).Contents (Elt Ideal)}
  {xi : (⟨S3000000, .i32⟩ : BufTy).Contents (Elt Ideal)}

/-- The endpoint of edge e an index array names, as the specification reads it off the program's arrays. -/
abbrev pnt (x0 : (⟨S1000000x3, .f32⟩ : BufTy).Contents (Elt Ideal))
    (xi : (⟨S3000000, .i32⟩ : BufTy).Contents (Elt Ideal)) (e : Fin 3000000) : Fin 3 → EReal :=
  Cert.Spec.pt (Cert.Spec.tbl x0) (Cert.Spec.words xi) e

/-- A gather of the batched table at start indices that are in-range index words takes, at (0, e, k), coordinate k
    of the row the word of edge e names: the clamp does nothing and the signed reading is the unsigned one. -/
theorem gather_at (h : Cert.Spec.InRange (Cert.Spec.words xi))
    (y : (⟨S3000000x1, .i32⟩ : BufTy).Contents (Elt Ideal))
    (hy : ∀ e : Fin 3000000, y (ix2 e (0 : Fin 1)) = Cert.Spec.words xi e) (e : Fin 3000000) (k : Fin 3) :
    Host.gather gather_S1x1000000x3_S3000000x1_S1x3000000x3_02_1_n_n_1_1_113
        (Read.val_main_v0 (F := Ideal) x0) y (ix3 (0 : Fin 1) e k)
      = pnt x0 xi e k := by
  rw [gatherRecord_eq, gather_tableDims_apply (by decide), Read.val_main_v0_apply]
  show x0 _ = x0 _
  congr 1
  funext a
  refine Fin.ext ?_
  match a with
  | ⟨0, _⟩ =>
    show min (y (ix2 e (0 : Fin 1))).toInt.toNat (1000000 - 1) = min (Cert.Spec.words xi e).toNat 999999
    have hw := toInt_of_inRange _ (h e)
    rw [hy e]
    omega
  | ⟨1, _⟩ => rfl

end Gathers

/-! ## The wrapped index arrays: an in-range word is kept -/

section Wraps

variable {x1 x2 x3 x4 : (⟨S3000000, .i32⟩ : BufTy).Contents (Elt Ideal)}

/-- The start indices of the first gather are the first index array's words. -/
theorem v6_at (h : Cert.Spec.InRange (Cert.Spec.words x1)) (e : Fin 3000000) :
    Read.val_main_v6 (F := Ideal) x1 (ix2 e (0 : Fin 1)) = Cert.Spec.words x1 e := by
  have hi : Read.idx_main_v6 (ix2 e (0 : Fin 1)) = ix1 e := by
    funext a; refine Fin.ext ?_; match a with | ⟨0, _⟩ => rfl
  rw [Read.val_main_v6_apply, hi, Read.val_main_v5_apply, Read.val_main_v2_apply, Read.val_main_v4_apply,
    Read.val_main_v1_apply, Read.val_main_v3_apply, Read.val_main_c_apply, Read.val_main_c_0_apply]
  exact wrap_of_inRange _ (h e)

/-- The start indices of the second gather are the second index array's words. -/
theorem v13_at (h : Cert.Spec.InRange (Cert.Spec.words x2)) (e : Fin 3000000) :
    Read.val_main_v13 (F := Ideal) x2 (ix2 e (0 : Fin 1)) = Cert.Spec.words x2 e := by
  have hi : Read.idx_main_v13 (ix2 e (0 : Fin 1)) = ix1 e := by
    funext a; refine Fin.ext ?_; match a with | ⟨0, _⟩ => rfl
  rw [Read.val_main_v13_apply, hi, Read.val_main_v12_apply, Read.val_main_v9_apply, Read.val_main_v11_apply,
    Read.val_main_v8_apply, Read.val_main_v10_apply, Read.val_main_c_1_apply, Read.val_main_c_2_apply]
  exact wrap_of_inRange _ (h e)

/-- The start indices of the third gather are the third index array's words. -/
theorem v20_at (h : Cert.Spec.InRange (Cert.Spec.words x3)) (e : Fin 3000000) :
    Read.val_main_v20 (F := Ideal) x3 (ix2 e (0 : Fin 1)) = Cert.Spec.words x3 e := by
  have hi : Read.idx_main_v20 (ix2 e (0 : Fin 1)) = ix1 e := by
    funext a; refine Fin.ext ?_; match a with | ⟨0, _⟩ => rfl
  rw [Read.val_main_v20_apply, hi, Read.val_main_v19_apply, Read.val_main_v16_apply, Read.val_main_v18_apply,
    Read.val_main_v15_apply, Read.val_main_v17_apply, Read.val_main_c_3_apply, Read.val_main_c_4_apply]
  exact wrap_of_inRange _ (h e)

/-- The start indices of the fourth gather are the fourth index array's words. -/
theorem v27_at (h : Cert.Spec.InRange (Cert.Spec.words x4)) (e : Fin 3000000) :
    Read.val_main_v27 (F := Ideal) x4 (ix2 e (0 : Fin 1)) = Cert.Spec.words x4 e := by
  have hi : Read.idx_main_v27 (ix2 e (0 : Fin 1)) = ix1 e := by
    funext a; refine Fin.ext ?_; match a with | ⟨0, _⟩ => rfl
  rw [Read.val_main_v27_apply, hi, Read.val_main_v26_apply, Read.val_main_v23_apply, Read.val_main_v25_apply,
    Read.val_main_v22_apply, Read.val_main_v24_apply, Read.val_main_c_5_apply, Read.val_main_c_6_apply]
  exact wrap_of_inRange _ (h e)

end Wraps

/-! ## The chain of one edge -/

section Chain

variable {x0 : (⟨S1000000x3, .f32⟩ : BufTy).Contents (Elt Ideal)}
  {x1 x2 x3 x4 : (⟨S3000000, .i32⟩ : BufTy).Contents (Elt Ideal)}

/-- The first gather: the endpoint p0 of every edge. -/
theorem v7_at (h1 : Cert.Spec.InRange (Cert.Spec.words x1)) (e : Fin 3000000) (k : Fin 3) :
    Read.val_main_v7 (F := Ideal) x0 x1 (ix3 (0 : Fin 1) e k) = pnt x0 x1 e k := by
  unfold Read.val_main_v7
  exact gather_at h1 _ (v6_at h1) e k

/-- The second gather: the endpoint p1. -/
theorem v14_at (h2 : Cert.Spec.InRange (Cert.Spec.words x2)) (e : Fin 3000000) (k : Fin 3) :
    Read.val_main_v14 (F := Ideal) x0 x2 (ix3 (0 : Fin 1) e k) = pnt x0 x2 e k := by
  unfold Read.val_main_v14
  exact gather_at h2 _ (v13_at h2) e k

/-- The third gather: the endpoint p2. -/
theorem v21_at (h3 : Cert.Spec.InRange (Cert.Spec.words x3)) (e : Fin 3000000) (k : Fin 3) :
    Read.val_main_v21 (F := Ideal) x0 x3 (ix3 (0 : Fin 1) e k) = pnt x0 x3 e k := by
  unfold Read.val_main_v21
  exact gather_at h3 _ (v20_at h3) e k

/-- The fourth gather: the endpoint p3. -/
theorem v28_at (h4 : Cert.Spec.InRange (Cert.Spec.words x4)) (e : Fin 3000000) (k : Fin 3) :
    Read.val_main_v28 (F := Ideal) x0 x4 (ix3 (0 : Fin 1) e k) = pnt x0 x4 e k := by
  unfold Read.val_main_v28
  exact gather_at h4 _ (v27_at h4) e k

/-- The vector from the endpoint p0 of edge e to the endpoint another index array names. -/
abbrev dif (x0 : (⟨S1000000x3, .f32⟩ : BufTy).Contents (Elt Ideal))
    (x1 xj : (⟨S3000000, .i32⟩ : BufTy).Contents (Elt Ideal)) (e : Fin 3000000) : Fin 3 → EReal :=
  fun k => pnt x0 xj e k - pnt x0 x1 e k

/-- The shared edge a = p1 − p0. -/
theorem v29_at (h1 : Cert.Spec.InRange (Cert.Spec.words x1)) (h2 : Cert.Spec.InRange (Cert.Spec.words x2))
    (e : Fin 3000000) (k : Fin 3) :
    Read.val_main_v29 (F := Ideal) x0 x1 x2 (ix3 (0 : Fin 1) e k) = dif x0 x1 x2 e k := by
  rw [Read.val_main_v29_apply, v14_at h2, v7_at h1] <;> rfl

/-- The first flap b = p2 − p0. -/
theorem v30_at (h1 : Cert.Spec.InRange (Cert.Spec.words x1)) (h3 : Cert.Spec.InRange (Cert.Spec.words x3))
    (e : Fin 3000000) (k : Fin 3) :
    Read.val_main_v30 (F := Ideal) x0 x1 x3 (ix3 (0 : Fin 1) e k) = dif x0 x1 x3 e k := by
  rw [Read.val_main_v30_apply, v21_at h3, v7_at h1] <;> rfl

/-- The second flap b' = p3 − p0. -/
theorem v61_at (h1 : Cert.Spec.InRange (Cert.Spec.words x1)) (h4 : Cert.Spec.InRange (Cert.Spec.words x4))
    (e : Fin 3000000) (k : Fin 3) :
    Read.val_main_v61 (F := Ideal) x0 x1 x4 (ix3 (0 : Fin 1) e k) = dif x0 x1 x4 e k := by
  rw [Read.val_main_v61_apply, v28_at h4, v7_at h1] <;> rfl

/-! The sums over the three coordinates read the coordinate axis of an edge. -/

theorem idx32 (e : Fin 3000000) (k : Fin 3) : Read.idx_main_v32 (ix2 (0 : Fin 1) e) k = ix3 (0 : Fin 1) e k := by
  funext a; refine Fin.ext ?_; match a with | ⟨0, _⟩ => rfl | ⟨1, _⟩ => rfl | ⟨2, _⟩ => rfl
theorem idx34 (e : Fin 3000000) (k : Fin 3) : Read.idx_main_v34 (ix2 (0 : Fin 1) e) k = ix3 (0 : Fin 1) e k := by
  funext a; refine Fin.ext ?_; match a with | ⟨0, _⟩ => rfl | ⟨1, _⟩ => rfl | ⟨2, _⟩ => rfl
theorem idx42 (e : Fin 3000000) (k : Fin 3) : Read.idx_main_v42 (ix2 (0 : Fin 1) e) k = ix3 (0 : Fin 1) e k := by
  funext a; refine Fin.ext ?_; match a with | ⟨0, _⟩ => rfl | ⟨1, _⟩ => rfl | ⟨2, _⟩ => rfl
theorem idx63 (e : Fin 3000000) (k : Fin 3) : Read.idx_main_v63 (ix2 (0 : Fin 1) e) k = ix3 (0 : Fin 1) e k := by
  funext a; refine Fin.ext ?_; match a with | ⟨0, _⟩ => rfl | ⟨1, _⟩ => rfl | ⟨2, _⟩ => rfl
theorem idx68 (e : Fin 3000000) (k : Fin 3) : Read.idx_main_v68 (ix2 (0 : Fin 1) e) k = ix3 (0 : Fin 1) e k := by
  funext a; refine Fin.ext ?_; match a with | ⟨0, _⟩ => rfl | ⟨1, _⟩ => rfl | ⟨2, _⟩ => rfl
theorem idx88 (e : Fin 3000000) (k : Fin 3) : Read.idx_main_v88 (ix2 (0 : Fin 1) e) k = ix3 (0 : Fin 1) e k := by
  funext a; refine Fin.ext ?_; match a with | ⟨0, _⟩ => rfl | ⟨1, _⟩ => rfl | ⟨2, _⟩ => rfl

/-- A per-edge scalar spread over the three coordinates is read at the edge. -/
theorem idx5756 (e : Fin 3000000) (k : Fin 3) :
    Read.idx_main_v56 (Read.idx_main_v57 (ix3 (0 : Fin 1) e k)) = ix2 (0 : Fin 1) e := by
  funext a; refine Fin.ext ?_; match a with | ⟨0, _⟩ => rfl | ⟨1, _⟩ => rfl
theorem idx8382 (e : Fin 3000000) (k : Fin 3) :
    Read.idx_main_v82 (Read.idx_main_v83 (ix3 (0 : Fin 1) e k)) = ix2 (0 : Fin 1) e := by
  funext a; refine Fin.ext ?_; match a with | ⟨0, _⟩ => rfl | ⟨1, _⟩ => rfl

/-- The sum over the edges reads the edge axis. -/
theorem idx99 (e : Fin 3000000) : Read.idx_main_v99 (ix1 (0 : Fin 1)) e = ix2 (0 : Fin 1) e := by
  funext a; refine Fin.ext ?_; match a with | ⟨0, _⟩ => rfl | ⟨1, _⟩ => rfl

/-- |a|^2. -/
theorem v32_at (h1 : Cert.Spec.InRange (Cert.Spec.words x1)) (h2 : Cert.Spec.InRange (Cert.Spec.words x2))
    (e : Fin 3000000) :
    Read.val_main_v32 (F := Ideal) x0 x1 x2 (ix2 (0 : Fin 1) e)
      = Cert.Spec.dot3 (dif x0 x1 x2 e) (dif x0 x1 x2 e) := by
  rw [Read.val_main_v32_apply]
  simp only [idx32, Read.val_main_v31_apply, v29_at h1 h2, Read.val_main_cst_apply, Ideal.ofBits_def,
    Ideal.ofBits_zero_f32, zero_add, Ideal.mulf_def] <;> rfl

/-- |b|^2. -/
theorem v34_at (h1 : Cert.Spec.InRange (Cert.Spec.words x1)) (h3 : Cert.Spec.InRange (Cert.Spec.words x3))
    (e : Fin 3000000) :
    Read.val_main_v34 (F := Ideal) x0 x1 x3 (ix2 (0 : Fin 1) e)
      = Cert.Spec.dot3 (dif x0 x1 x3 e) (dif x0 x1 x3 e) := by
  rw [Read.val_main_v34_apply]
  simp only [idx34, Read.val_main_v33_apply, v30_at h1 h3, Read.val_main_cst_7_apply, Ideal.ofBits_def,
    Ideal.ofBits_zero_f32, zero_add, Ideal.mulf_def] <;> rfl

/-- |a|_eps. -/
theorem v37_at (h1 : Cert.Spec.InRange (Cert.Spec.words x1)) (h2 : Cert.Spec.InRange (Cert.Spec.words x2))
    (e : Fin 3000000) :
    Read.val_main_v37 (F := Ideal) x0 x1 x2 (ix2 (0 : Fin 1) e) = Cert.Spec.len (dif x0 x1 x2 e) := by
  rw [Read.val_main_v37_apply, Read.val_main_v36_apply, v32_at h1 h2, Read.val_main_v35_apply,
    Read.val_main_cst_8_apply] <;> rfl

/-- |b|_eps. -/
theorem v40_at (h1 : Cert.Spec.InRange (Cert.Spec.words x1)) (h3 : Cert.Spec.InRange (Cert.Spec.words x3))
    (e : Fin 3000000) :
    Read.val_main_v40 (F := Ideal) x0 x1 x3 (ix2 (0 : Fin 1) e) = Cert.Spec.len (dif x0 x1 x3 e) := by
  rw [Read.val_main_v40_apply, Read.val_main_v39_apply, v34_at h1 h3, Read.val_main_v38_apply,
    Read.val_main_cst_9_apply] <;> rfl

/-- The inner product of a and b. -/
theorem v42_at (h1 : Cert.Spec.InRange (Cert.Spec.words x1)) (h2 : Cert.Spec.InRange (Cert.Spec.words x2))
    (h3 : Cert.Spec.InRange (Cert.Spec.words x3)) (e : Fin 3000000) :
    Read.val_main_v42 (F := Ideal) x0 x1 x2 x3 (ix2 (0 : Fin 1) e)
      = Cert.Spec.dot3 (dif x0 x1 x2 e) (dif x0 x1 x3 e) := by
  rw [Read.val_main_v42_apply]
  simp only [idx42, Read.val_main_v41_apply, v29_at h1 h2, v30_at h1 h3, Read.val_main_cst_10_apply,
    Ideal.ofBits_def, Ideal.ofBits_zero_f32, zero_add, Ideal.mulf_def] <;> rfl

/-- cos_eps of the angle between a and b. -/
theorem v46_at (h1 : Cert.Spec.InRange (Cert.Spec.words x1)) (h2 : Cert.Spec.InRange (Cert.Spec.words x2))
    (h3 : Cert.Spec.InRange (Cert.Spec.words x3)) (e : Fin 3000000) :
    Read.val_main_v46 (F := Ideal) x0 x1 x2 x3 (ix2 (0 : Fin 1) e)
      = Cert.Spec.cosE (dif x0 x1 x2 e) (dif x0 x1 x3 e) := by
  rw [Read.val_main_v46_apply, v42_at h1 h2 h3, Read.val_main_v45_apply, Read.val_main_v43_apply, v37_at h1 h2,
    v40_at h1 h3, Read.val_main_v44_apply, Read.val_main_cst_11_apply] <;> rfl

/-- sin_eps of that angle. -/
theorem v52_at (h1 : Cert.Spec.InRange (Cert.Spec.words x1)) (h2 : Cert.Spec.InRange (Cert.Spec.words x2))
    (h3 : Cert.Spec.InRange (Cert.Spec.words x3)) (e : Fin 3000000) :
    Read.val_main_v52 (F := Ideal) x0 x1 x2 x3 (ix2 (0 : Fin 1) e)
      = Cert.Spec.sinE (dif x0 x1 x2 e) (dif x0 x1 x3 e) := by
  rw [Read.val_main_v52_apply, Read.val_main_v51_apply, Read.val_main_v49_apply, Read.val_main_v48_apply,
    Read.val_main_cst_12_apply, Read.val_main_v47_apply, v46_at h1 h2 h3, Read.val_main_v50_apply,
    Read.val_main_cst_13_apply] <;> rfl

/-- The coefficient of a in b's projection on the edge: <a,b> / (|a|^2 + eps). -/
theorem v55_at (h1 : Cert.Spec.InRange (Cert.Spec.words x1)) (h2 : Cert.Spec.InRange (Cert.Spec.words x2))
    (h3 : Cert.Spec.InRange (Cert.Spec.words x3)) (e : Fin 3000000) :
    Read.val_main_v55 (F := Ideal) x0 x1 x2 x3 (ix2 (0 : Fin 1) e)
      = Ideal.div (Cert.Spec.dot3 (dif x0 x1 x2 e) (dif x0 x1 x3 e))
          (Cert.Spec.dot3 (dif x0 x1 x2 e) (dif x0 x1 x2 e) + Cert.Spec.eps) := by
  rw [Read.val_main_v55_apply, v42_at h1 h2 h3, Read.val_main_v54_apply, v32_at h1 h2, Read.val_main_v53_apply,
    Read.val_main_cst_14_apply] <;> rfl

/-- The component of b orthogonal to the edge. -/
theorem v59_at (h1 : Cert.Spec.InRange (Cert.Spec.words x1)) (h2 : Cert.Spec.InRange (Cert.Spec.words x2))
    (h3 : Cert.Spec.InRange (Cert.Spec.words x3)) (e : Fin 3000000) (k : Fin 3) :
    Read.val_main_v59 (F := Ideal) x0 x1 x2 x3 (ix3 (0 : Fin 1) e k)
      = Cert.Spec.orth (dif x0 x1 x2 e) (dif x0 x1 x3 e) k := by
  rw [Read.val_main_v59_apply, v30_at h1 h3, Read.val_main_v58_apply, v29_at h1 h2, Read.val_main_v57_apply,
    Read.val_main_v56_apply, idx5756, v55_at h1 h2 h3] <;> rfl

/-- Its length as the programs take it: |b|_eps sin_eps. -/
theorem v60_at (h1 : Cert.Spec.InRange (Cert.Spec.words x1)) (h2 : Cert.Spec.InRange (Cert.Spec.words x2))
    (h3 : Cert.Spec.InRange (Cert.Spec.words x3)) (e : Fin 3000000) :
    Read.val_main_v60 (F := Ideal) x0 x1 x2 x3 (ix2 (0 : Fin 1) e)
      = Cert.Spec.orthLen (dif x0 x1 x2 e) (dif x0 x1 x3 e) := by
  rw [Read.val_main_v60_apply, v40_at h1 h3, v52_at h1 h2 h3] <;> rfl

/-- |b'|^2. -/
theorem v63_at (h1 : Cert.Spec.InRange (Cert.Spec.words x1)) (h4 : Cert.Spec.InRange (Cert.Spec.words x4))
    (e : Fin 3000000) :
    Read.val_main_v63 (F := Ideal) x0 x1 x4 (ix2 (0 : Fin 1) e)
      = Cert.Spec.dot3 (dif x0 x1 x4 e) (dif x0 x1 x4 e) := by
  rw [Read.val_main_v63_apply]
  simp only [idx63, Read.val_main_v62_apply, v61_at h1 h4, Read.val_main_cst_15_apply, Ideal.ofBits_def,
    Ideal.ofBits_zero_f32, zero_add, Ideal.mulf_def] <;> rfl

/-- |b'|_eps. -/
theorem v66_at (h1 : Cert.Spec.InRange (Cert.Spec.words x1)) (h4 : Cert.Spec.InRange (Cert.Spec.words x4))
    (e : Fin 3000000) :
    Read.val_main_v66 (F := Ideal) x0 x1 x4 (ix2 (0 : Fin 1) e) = Cert.Spec.len (dif x0 x1 x4 e) := by
  rw [Read.val_main_v66_apply, Read.val_main_v65_apply, v63_at h1 h4, Read.val_main_v64_apply,
    Read.val_main_cst_16_apply] <;> rfl

/-- The inner product of a and b'. -/
theorem v68_at (h1 : Cert.Spec.InRange (Cert.Spec.words x1)) (h2 : Cert.Spec.InRange (Cert.Spec.words x2))
    (h4 : Cert.Spec.InRange (Cert.Spec.words x4)) (e : Fin 3000000) :
    Read.val_main_v68 (F := Ideal) x0 x1 x2 x4 (ix2 (0 : Fin 1) e)
      = Cert.Spec.dot3 (dif x0 x1 x2 e) (dif x0 x1 x4 e) := by
  rw [Read.val_main_v68_apply]
  simp only [idx68, Read.val_main_v67_apply, v29_at h1 h2, v61_at h1 h4, Read.val_main_cst_17_apply,
    Ideal.ofBits_def, Ideal.ofBits_zero_f32, zero_add, Ideal.mulf_def] <;> rfl

/-- cos_eps of the angle between a and b'. -/
theorem v72_at (h1 : Cert.Spec.InRange (Cert.Spec.words x1)) (h2 : Cert.Spec.InRange (Cert.Spec.words x2))
    (h4 : Cert.Spec.InRange (Cert.Spec.words x4)) (e : Fin 3000000) :
    Read.val_main_v72 (F := Ideal) x0 x1 x2 x4 (ix2 (0 : Fin 1) e)
      = Cert.Spec.cosE (dif x0 x1 x2 e) (dif x0 x1 x4 e) := by
  rw [Read.val_main_v72_apply, v68_at h1 h2 h4, Read.val_main_v71_apply, Read.val_main_v69_apply, v37_at h1 h2,
    v66_at h1 h4, Read.val_main_v70_apply, Read.val_main_cst_18_apply] <;> rfl

/-- sin_eps of that angle. -/
theorem v78_at (h1 : Cert.Spec.InRange (Cert.Spec.words x1)) (h2 : Cert.Spec.InRange (Cert.Spec.words x2))
    (h4 : Cert.Spec.InRange (Cert.Spec.words x4)) (e : Fin 3000000) :
    Read.val_main_v78 (F := Ideal) x0 x1 x2 x4 (ix2 (0 : Fin 1) e)
      = Cert.Spec.sinE (dif x0 x1 x2 e) (dif x0 x1 x4 e) := by
  rw [Read.val_main_v78_apply, Read.val_main_v77_apply, Read.val_main_v75_apply, Read.val_main_v74_apply,
    Read.val_main_cst_19_apply, Read.val_main_v73_apply, v72_at h1 h2 h4, Read.val_main_v76_apply,
    Read.val_main_cst_20_apply] <;> rfl

/-- The coefficient of a in b''s projection on the edge. -/
theorem v81_at (h1 : Cert.Spec.InRange (Cert.Spec.words x1)) (h2 : Cert.Spec.InRange (Cert.Spec.words x2))
    (h4 : Cert.Spec.InRange (Cert.Spec.words x4)) (e : Fin 3000000) :
    Read.val_main_v81 (F := Ideal) x0 x1 x2 x4 (ix2 (0 : Fin 1) e)
      = Ideal.div (Cert.Spec.dot3 (dif x0 x1 x2 e) (dif x0 x1 x4 e))
          (Cert.Spec.dot3 (dif x0 x1 x2 e) (dif x0 x1 x2 e) + Cert.Spec.eps) := by
  rw [Read.val_main_v81_apply, v68_at h1 h2 h4, Read.val_main_v80_apply, v32_at h1 h2, Read.val_main_v79_apply,
    Read.val_main_cst_21_apply] <;> rfl

/-- The component of b' orthogonal to the edge. -/
theorem v85_at (h1 : Cert.Spec.InRange (Cert.Spec.words x1)) (h2 : Cert.Spec.InRange (Cert.Spec.words x2))
    (h4 : Cert.Spec.InRange (Cert.Spec.words x4)) (e : Fin 3000000) (k : Fin 3) :
    Read.val_main_v85 (F := Ideal) x0 x1 x2 x4 (ix3 (0 : Fin 1) e k)
      = Cert.Spec.orth (dif x0 x1 x2 e) (dif x0 x1 x4 e) k := by
  rw [Read.val_main_v85_apply, v61_at h1 h4, Read.val_main_v84_apply, v29_at h1 h2, Read.val_main_v83_apply,
    Read.val_main_v82_apply, idx8382, v81_at h1 h2 h4] <;> rfl

/-- Its length as the programs take it. -/
theorem v86_at (h1 : Cert.Spec.InRange (Cert.Spec.words x1)) (h2 : Cert.Spec.InRange (Cert.Spec.words x2))
    (h4 : Cert.Spec.InRange (Cert.Spec.words x4)) (e : Fin 3000000) :
    Read.val_main_v86 (F := Ideal) x0 x1 x2 x4 (ix2 (0 : Fin 1) e)
      = Cert.Spec.orthLen (dif x0 x1 x2 e) (dif x0 x1 x4 e) := by
  rw [Read.val_main_v86_apply, v66_at h1 h4, v78_at h1 h2 h4] <;> rfl

/-- The inner product of the two orthogonal components. -/
theorem v88_at (h1 : Cert.Spec.InRange (Cert.Spec.words x1)) (h2 : Cert.Spec.InRange (Cert.Spec.words x2))
    (h3 : Cert.Spec.InRange (Cert.Spec.words x3)) (h4 : Cert.Spec.InRange (Cert.Spec.words x4))
    (e : Fin 3000000) :
    Read.val_main_v88 (F := Ideal) x0 x1 x2 x3 x4 (ix2 (0 : Fin 1) e)
      = Cert.Spec.dot3 (Cert.Spec.orth (dif x0 x1 x2 e) (dif x0 x1 x3 e))
          (Cert.Spec.orth (dif x0 x1 x2 e) (dif x0 x1 x4 e)) := by
  rw [Read.val_main_v88_apply]
  simp only [idx88, Read.val_main_v87_apply, v59_at h1 h2 h3, v85_at h1 h2 h4, Read.val_main_cst_22_apply,
    Ideal.ofBits_def, Ideal.ofBits_zero_f32, zero_add, Ideal.mulf_def] <;> rfl

/-- The dihedral cosine. -/
theorem v92_at (h1 : Cert.Spec.InRange (Cert.Spec.words x1)) (h2 : Cert.Spec.InRange (Cert.Spec.words x2))
    (h3 : Cert.Spec.InRange (Cert.Spec.words x3)) (h4 : Cert.Spec.InRange (Cert.Spec.words x4))
    (e : Fin 3000000) :
    Read.val_main_v92 (F := Ideal) x0 x1 x2 x3 x4 (ix2 (0 : Fin 1) e)
      = Cert.Spec.dihedral (dif x0 x1 x2 e) (dif x0 x1 x3 e) (dif x0 x1 x4 e) := by
  rw [Read.val_main_v92_apply, v88_at h1 h2 h3 h4, Read.val_main_v91_apply, Read.val_main_v89_apply,
    v60_at h1 h2 h3, v86_at h1 h2 h4, Read.val_main_v90_apply, Read.val_main_cst_23_apply] <;> rfl

/-- The cosine with a value above 1 replaced by −1. -/
theorem v95_at (h1 : Cert.Spec.InRange (Cert.Spec.words x1)) (h2 : Cert.Spec.InRange (Cert.Spec.words x2))
    (h3 : Cert.Spec.InRange (Cert.Spec.words x3)) (h4 : Cert.Spec.InRange (Cert.Spec.words x4))
    (e : Fin 3000000) :
    Read.val_main_v95 (F := Ideal) x0 x1 x2 x3 x4 (ix2 (0 : Fin 1) e)
      = Cert.Spec.clampCos (Cert.Spec.dihedral (dif x0 x1 x2 e) (dif x0 x1 x3 e) (dif x0 x1 x4 e)) := by
  rw [Read.val_main_v95_apply, Read.val_main_v94_apply, v92_at h1 h2 h3 h4, Read.val_main_v93_apply,
    Read.val_main_cst_24_apply, Read.val_main_call0_v0_apply, Read.val_main_cst_25_apply] <;> rfl

/-- The summand at edge e is the specification's loss of edge e. -/
theorem v98_at (h1 : Cert.Spec.InRange (Cert.Spec.words x1)) (h2 : Cert.Spec.InRange (Cert.Spec.words x2))
    (h3 : Cert.Spec.InRange (Cert.Spec.words x3)) (h4 : Cert.Spec.InRange (Cert.Spec.words x4))
    (e : Fin 3000000) :
    Read.val_main_v98 (F := Ideal) x0 x1 x2 x3 x4 (ix2 (0 : Fin 1) e)
      = Cert.Spec.lossAt (Cert.Spec.tbl x0) (Cert.Spec.words x1) (Cert.Spec.words x2) (Cert.Spec.words x3)
          (Cert.Spec.words x4) e := by
  rw [Read.val_main_v98_apply, Read.val_main_v97_apply, v95_at h1 h2 h3 h4, Read.val_main_v96_apply,
    Read.val_main_cst_26_apply] <;> rfl

/-- The program's result, its one element, is the sum of the losses over the edges. -/
theorem v99_at (h1 : Cert.Spec.InRange (Cert.Spec.words x1)) (h2 : Cert.Spec.InRange (Cert.Spec.words x2))
    (h3 : Cert.Spec.InRange (Cert.Spec.words x3)) (h4 : Cert.Spec.InRange (Cert.Spec.words x4)) :
    Read.val_main_v99 (F := Ideal) x0 x1 x2 x3 x4 (ix1 (0 : Fin 1))
      = Cert.Spec.total (Cert.Spec.tbl x0) (Cert.Spec.words x1) (Cert.Spec.words x2) (Cert.Spec.words x3)
          (Cert.Spec.words x4) := by
  rw [Read.val_main_v99_apply]
  simp only [idx99, v98_at h1 h2 h3 h4, Read.val_main_cst_27_apply, Ideal.ofBits_def, Ideal.ofBits_zero_f32,
    zero_add] <;> rfl

end Chain

/-! ## The result -/

/-- The reference program's result is the specification's total at the program's five arguments, whenever every
    index word names a row of the table. -/
theorem res_eq_total (m : (ℓ : Loc nD τ sig) → Buf (Elt Ideal) ℓ) (c : Dev nD)
    (h1 : Cert.Spec.InRange (Cert.Spec.words (m ((c.tc : Thread nD τ).loc main_arg1))))
    (h2 : Cert.Spec.InRange (Cert.Spec.words (m ((c.tc : Thread nD τ).loc main_arg2))))
    (h3 : Cert.Spec.InRange (Cert.Spec.words (m ((c.tc : Thread nD τ).loc main_arg3))))
    (h4 : Cert.Spec.InRange (Cert.Spec.words (m ((c.tc : Thread nD τ).loc main_arg4)))) :
    Cert.ReferenceIdeal.Value.res_main_v99 (F := Ideal) m c
      = fun _ => Cert.Spec.total (Cert.Spec.tbl (m ((c.tc : Thread nD τ).loc main_arg0)))
          (Cert.Spec.words (m ((c.tc : Thread nD τ).loc main_arg1))) (Cert.Spec.words (m ((c.tc : Thread nD τ).loc main_arg2)))
          (Cert.Spec.words (m ((c.tc : Thread nD τ).loc main_arg3))) (Cert.Spec.words (m ((c.tc : Thread nD τ).loc main_arg4))) := by
  rw [Read.val_main_v99_eq]
  funext i
  have hi : i = ix1 (0 : Fin 1) :=
    (eq_ix1 i).trans (congrArg ix1 (Fin.ext (Nat.lt_one_iff.mp (i 0).isLt)))
  rw [hi]
  exact v99_at h1 h2 h3 h4

end Cert.RefSide

end
-- ==== Proof.lean ====
/-
  The dihedral-angle flatten loss of a triangle mesh: for each of 3,000,000 edges, four endpoints are gathered from a
  table of 1,000,000 vertices, the two flaps adjacent to the edge are reduced to their components orthogonal to it, the
  cosine of the angle between those is formed (with the stabilising eps in every norm and quotient), a cosine above 1 is
  replaced by -1, and (cos + 1)^2 is summed over the edges.

  The kernel program gathers the four (3, E) point arrays on the host in one fused gather over the concatenated index
  arrays (a masked gather: an out-of-range index would read a filler), then runs a pipelined region over a 2 x 23 grid of
  blocks of 65,536 edges: each step computes the per-lane loss, masks the lanes at or past edge 3,000,000 (the last block
  overhangs the arrays), sums over the lanes and adds into a one-entry accumulator that is reset at a row's first step and
  stored at its last; the host then adds the two rows.  The reference gathers rows by plain indexing and sums once.

  The two agree, as extended reals, for every finite vertex table and every index array whose entries name rows of the
  table (0 <= index < 1,000,000: outside that range the reference's own indexing leaves the table, and the two gathers
  differ).  No finiteness is used: the chain is the same operations in the same order on both sides, and the sums are only
  regrouped, which the extended reals' addition allows.

  The frames: the word-level and the idealized kernel programs terminate without a fault and leave their arguments
  unchanged at any float instance, by the pipeline's launch rule with the output window's contents unnamed; the
  reference's frame is its run with the result dropped.  The rewrite ledger is empty.
-/
import proofs.«401790_j62929860821309_3_alg».proof.Defs
import proofs.«401790_j62929860821309_3_alg».proof.Proof.Gen.Kernel
import proofs.«401790_j62929860821309_3_alg».proof.Proof.Gen.KernelIdeal
import proofs.«401790_j62929860821309_3_alg».proof.Proof.Gen.ReferenceIdeal
import proofs.«401790_j62929860821309_3_alg».proof.Proof.Gen.Pre_finite_inputs
import proofs.«401790_j62929860821309_3_alg».proof.Proof.Gen.ReferenceIdeal.Run
import proofs.«401790_j62929860821309_3_alg».proof.Proof.Gen.ReferenceIdeal.Read
import proofs.«401790_j62929860821309_3_alg».proof.Proof.FrameFK
import proofs.«401790_j62929860821309_3_alg».proof.Proof.FrameFI
import proofs.«401790_j62929860821309_3_alg».proof.Proof.RunI
import proofs.«401790_j62929860821309_3_alg».proof.Proof.PreDecode
import proofs.«401790_j62929860821309_3_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program terminates and keeps its arguments. -/
theorem frame_k : Cert.frame_Kernel := fun m ρ _ => Cert.Kernel.Hand.frameF (F := Bits) m ρ

/-- So does the idealized one. -/
theorem frame_ki : Cert.frame_KernelIdeal := fun m ρ _ => Cert.KernelIdeal.Hand.frameF (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end at the specification's total of the agreeing arguments. -/
theorem algebraic : Cert.algebraic_KernelIdeal_ReferenceIdeal := by
  intro m ρ m' ρ' hpre hagree
  have hR := fun c => Cert.PreDecode.inRange_of_pre (F := Ideal) _ _ _ _ _ (hpre c)
  refine ⟨_, Cert.KernelIdeal.Hand.run_valueI m ρ hR, ?_⟩
  refine (θ_run Cert.ReferenceIdeal.defs _ _).mono (fun _ h c => ⟨(h c).1.trans ?_, (h c).2⟩)
    (Cert.ReferenceIdeal.Value.run (F := Ideal) m' ρ')
  have e0 := (hagree c).1
  have e1 := (hagree c).2.1
  have e2 := (hagree c).2.2.1
  have e3 := (hagree c).2.2.2.1
  have e4 := (hagree c).2.2.2.2
  rw [Cert.RefSide.res_eq_total m' c (by rw [e1]; exact (hR c).1) (by rw [e2]; exact (hR c).2.1) (by rw [e3]; exact (hR c).2.2.1)
    (by rw [e4]; exact (hR c).2.2.2), e0, e1, e2, e3, e4]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
